-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S64x128x2 : Shape := ⟨3, ![64, 128, 2]⟩
abbrev S_ : Shape := ⟨0, ![]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  bcast_S_S64x128x2 : S_.BroadcastsInDim S64x128x2 (![] : Fin 0 → Fin S64x128x2.rank)
  reducesTo_S64x128x2_S_d0_1_2 : S64x128x2.ReducesTo [0, 1, 2] S_

variable [Facts]

def fn {F : FTy → Type} [FloatOps F] (main_arg0 : FVec F S64x1024x512 .f32) (main_arg1 : IVec S64x128x2 32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_c_0 : IVec S_ 32 := constantI S_ 32 0#32
  let main_v4 : IVec S64x128x2 32 := broadcastInDim S64x128x2 ![] bcast_S_S64x128x2 main_c_0
  let main_v5 : IVec S64x128x2 1 := cmpi .sge main_arg1 main_v4
  let main_c_1 : IVec S_ 32 := constantI S_ 32 1024#32
  let main_v6 : IVec S64x128x2 32 := broadcastInDim S64x128x2 ![] bcast_S_S64x128x2 main_c_1
  let main_v7 : IVec S64x128x2 1 := cmpi .slt main_arg1 main_v6
  let main_v8 : IVec S64x128x2 1 := andi main_v5 main_v7
  let main_c_2 : IVec S_ 1 := constantI S_ 1 1#1
  let main_v9 : IVec S_ 1 := (fun x v => Host.reduce IntOp.andi x v reducesTo_S64x128x2_S_d0_1_2 h_S_) main_v8 main_c_2
  let main_v10 : IVec S_ 1 := andi main_v3 main_v9
  main_v10
-- ==== Kernel.lean ====
abbrev S64x1024x512 : Shape := ⟨3, ![64, 1024, 512]⟩
abbrev S64x128x2 : Shape := ⟨3, ![64, 128, 2]⟩
abbrev S64x128x768 : Shape := ⟨3, ![64, 128, 768]⟩
abbrev S4x1024x512 : Shape := ⟨3, ![4, 1024, 512]⟩
abbrev S4x128x2 : Shape := ⟨3, ![4, 128, 2]⟩
abbrev S4x128x768 : Shape := ⟨3, ![4, 128, 768]⟩
abbrev S256x1024 : Shape := ⟨2, ![256, 1024]⟩
abbrev S1x128x2 : Shape := ⟨3, ![1, 128, 2]⟩
abbrev S128x2 : Shape := ⟨2, ![128, 2]⟩
abbrev S128x1 : Shape := ⟨2, ![128, 1]⟩
abbrev S128 : Shape := ⟨1, ![128]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S1024x256 : Shape := ⟨2, ![1024, 256]⟩
abbrev S1024x768 : Shape := ⟨2, ![1024, 768]⟩
abbrev S256x768 : Shape := ⟨2, ![256, 768]⟩
abbrev S256x256 : Shape := ⟨2, ![256, 256]⟩
abbrev S128x256 : Shape := ⟨2, ![128, 256]⟩
abbrev S1x128x768 : Shape := ⟨3, ![1, 128, 768]⟩
abbrev S128x768 : Shape := ⟨2, ![128, 768]⟩

abbrev nBuf : Space → Nat
  | .hbm => 3
  | .vmem => 6
  | .smem => 0
  | _ => 0

abbrev bufTy : (tb : Table) → Fin (tcTables nBuf tb) → BufTy
  | .hbm, ⟨0, _⟩ => ⟨S64x1024x512, .f32⟩
  | .hbm, ⟨1, _⟩ => ⟨S64x128x2, .i32⟩
  | .hbm, ⟨2, _⟩ => ⟨S64x128x768, .f32⟩
  | .local _ .vmem, ⟨0, _⟩ => ⟨S4x1024x512, .f32⟩
  | .local _ .vmem, ⟨1, _⟩ => ⟨S4x1024x512, .f32⟩
  | .local _ .vmem, ⟨2, _⟩ => ⟨S4x128x2, .i32⟩
  | .local _ .vmem, ⟨3, _⟩ => ⟨S4x128x2, .i32⟩
  | .local _ .vmem, ⟨4, _⟩ => ⟨S4x128x768, .f32⟩
  | .local _ .vmem, ⟨5, _⟩ => ⟨S4x128x768, .f32⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_off1 (k0_t1 : Fin k0_t1_loop.trips) : Fin 3 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v2 : BitVec 32 := Scalar.muli arg4 c1_i32_1
  let v3 : BitVec 32 := Scalar.addi c0_i32_2 v2
  let c0_i32_3 : BitVec 32 := 0#32
  let c0_i32_4 : BitVec 32 := 0#32
  ![v3.toNat, 0, 0]
def k0_off2 (k0_t1 : Fin k0_t1_loop.trips) : Fin 3 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v2 : BitVec 32 := Scalar.muli arg4 c1_i32_1
  let v3 : BitVec 32 := Scalar.addi c0_i32_2 v2
  let c0_i32_19 : BitVec 32 := 0#32
  let c0_i32_20 : BitVec 32 := 0#32
  ![v3.toNat, 0, 0]
def k0_off3 (k0_t1 : Fin k0_t1_loop.trips) : Fin 3 → Nat :=
  let c0_i32_2 : BitVec 32 := 0#32
  let c0_i32 : BitVec 32 := 0#32
  let c1_i32 : BitVec 32 := 1#32
  let arg4 : BitVec 32 := Scf.iv c0_i32 c1_i32 k0_t1
  let c1_i32_1 : BitVec 32 := 1#32
  let v2 : BitVec 32 := Scalar.muli arg4 c1_i32_1
  let v3 : BitVec 32 := Scalar.addi c0_i32_2 v2
  let c0_i32_28 : BitVec 32 := 0#32
  let c0_i32_29 : BitVec 32 := 0#32
  ![v3.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  iota_S256x1024_d1_w32 : S256x1024.Iotas .tc 32 [1]
  squeezes_S1x128x2_S128x2 : S1x128x2.Squeezes S128x2
  inb_S128x2_S128x1_0_0 : ∀ a, (![0, 0] : Fin 2 → Nat) a + S128x1.size a ≤ S128x2.size a
  h_S128x1 : 0 < S128x1.numel
  shapeCasts_S128x1_S128 : S128x1.ShapeCasts S128
  inb_S128x2_S128x1_0_1 : ∀ a, (![0, 1] : Fin 2 → Nat) a + S128x1.size a ≤ S128x2.size a
  concatenates_S128_S128_S256_d0 : Shape.Concatenates [S128, S128] S256 0
  shapeCasts_S256_S256x1 : S256.ShapeCasts S256x1
  broadcasts_S256x1_S256x1024 : S256x1.Broadcasts S256x1024
  natLt_1_32 : 1 < 32
  bitsLt_bf16_f32 : FTy.bits .bf16 < FTy.bits .f32
  shapeCasts_S128_S128x1 : S128.ShapeCasts S128x1
  squeezes_S1x1024x512_S1024x512 : S1x1024x512.Squeezes S1024x512
  inb_S1024x512_S1024x256_0_0 : ∀ a, (![0, 0] : Fin 2 → Nat) a + S1024x256.size a ≤ S1024x512.size a
  h_S1024x256 : 0 < S1024x256.numel
  inb_S1024x512_S1024x256_0_256 : ∀ a, (![0, 256] : Fin 2 → Nat) a + S1024x256.size a ≤ S1024x512.size a
  concatenates_S1024x256_S1024x256_S1024x256_S1024x768_d1 : Shape.Concatenates [S1024x256, S1024x256, S1024x256] S1024x768 1
  slices_S256x768_o0_0_S256x256 : S256x768.Slices ![0, 0] S256x256
  slices_S256x768_o0_256_S256x256 : S256x768.Slices ![0, 256] S256x256
  slices_S256x768_o0_512_S256x256 : S256x768.Slices ![0, 512] S256x256
  slices_S256x256_o0_0_S128x256 : S256x256.Slices ![0, 0] S128x256
  slices_S256x256_o128_0_S128x256 : S256x256.Slices ![128, 0] S128x256
  broadcasts_S128x1_S128x256 : S128x1.Broadcasts S128x256
  squeezes_S1x128x768_S128x768 : S1x128x768.Squeezes S128x768
  inb_S128x768_S128x256_0_0 : ∀ a, (![0, 0] : Fin 2 → Nat) a + S128x256.size a ≤ S128x768.size a
  h_S128x256 : 0 < S128x256.numel
  inb_S128x768_S128x256_0_256 : ∀ a, (![0, 256] : Fin 2 → Nat) a + S128x256.size a ≤ S128x768.size a
  inb_S128x768_S128x256_0_512 : ∀ a, (![0, 512] : Fin 2 → Nat) a + S128x256.size a ≤ S128x768.size a
  dot_S256x1024_S1024x768_S256x768_1_0_0_1_n_n_wf : DotDims.WF S256x1024 S1024x768 S256x768 [1] [0] [0] [1] [] []
  hrank0 : 0 < grid0.rank
  k0_t1_ok : k0_t1_loop.OK
  k0_off1_inb : ∀ k0_t1 : Fin k0_t1_loop.trips, ∀ a, (k0_off1 k0_t1) a + S1x128x2.size a ≤ S4x128x2.size a
  k0_off2_inb : ∀ k0_t1 : Fin k0_t1_loop.trips, ∀ a, (k0_off2 k0_t1) a + S1x1024x512.size a ≤ S4x1024x512.size a
  k0_off3_inb : ∀ k0_t1 : Fin k0_t1_loop.trips, ∀ a, (k0_off3 k0_t1) a + S1x128x768.size a ≤ S4x128x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x512.size a ≤ S64x1024x512.size a
  hwx0_0 : ∀ i : grid0.Coords, EltTy.bits .f32 = 32 ∨ (Rect.block (s := S64x1024x512) S4x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x2.size a ≤ S64x128x2.size a
  hwx0_1 : ∀ i : grid0.Coords, EltTy.bits .i32 = 32 ∨ (Rect.block (s := S64x128x2) S4x128x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128x768.size a ≤ S64x128x768.size a
  hwx0_2 : ∀ i : grid0.Coords, EltTy.bits .f32 = 32 ∨ (Rect.block (s := S64x128x768) S4x128x768.size (cc0_transform_2 i) (hinb0_2 i)).WholeWords (EltTy.packing .f32)

variable [Facts₀]

def dot_S256x1024_S1024x768_S256x768_1_0_0_1_n_n : DotDims S256x1024 S1024x768 S256x768 where
  lhsContracting := [1]
  rhsContracting := [0]
  lhsNonContracting := [0]
  rhsNonContracting := [1]
  lhsBatch := []
  rhsBatch := []
  wf := dot_S256x1024_S1024x768_S256x768_1_0_0_1_n_n_wf

abbrev win0_0 : Pipeline.Window sig grid0 :=
  Pipeline.Window.ofSpec (Memref.whole main_arg0) S4x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x128x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x128x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1024x512 : Shape := ⟨3, ![64, 1024, 512]⟩
abbrev S64x128x2 : Shape := ⟨3, ![64, 128, 2]⟩
abbrev S64x1024x256 : Shape := ⟨3, ![64, 1024, 256]⟩
abbrev S64x128x1 : Shape := ⟨3, ![64, 128, 1]⟩
abbrev S64x128 : Shape := ⟨2, ![64, 128]⟩
abbrev S_ : Shape := ⟨0, ![]⟩
abbrev S1 : Shape := ⟨1, ![1]⟩
abbrev S1x1x1 : Shape := ⟨3, ![1, 1, 1]⟩
abbrev S64x128x256 : Shape := ⟨3, ![64, 128, 256]⟩
abbrev S64x128x768 : Shape := ⟨3, ![64, 128, 768]⟩

abbrev nBuf : Space → Nat
  | .hbm => 160
  | .vmem => 0
  | .smem => 0
  | _ => 0

abbrev hbmTy0_0 (i : Nat) : BufTy := match i % 128 with
  | 0 => ⟨S64x1024x512, .f32⟩
  | 1 => ⟨S64x128x2, .i32⟩
  | 2 => ⟨S64x1024x256, .f32⟩
  | 3 => ⟨S64x1024x256, .f32⟩
  | 4 => ⟨S64x128x1, .i32⟩
  | 5 => ⟨S64x128, .i32⟩
  | 6 => ⟨S64x128x1, .i32⟩
  | 7 => ⟨S64x128, .i32⟩
  | 8 => ⟨S_, .i32⟩
  | 9 => ⟨S64x128, .i32⟩
  | 10 => ⟨S64x128, .i1⟩
  | 11 => ⟨S64x128x1, .i1⟩
  | 12 => ⟨S_, .i32⟩
  | 13 => ⟨S64x128, .i32⟩
  | 14 => ⟨S64x128, .i32⟩
  | 15 => ⟨S_, .i32⟩
  | 16 => ⟨S64x128, .i32⟩
  | 17 => ⟨S64x128, .i1⟩
  | 18 => ⟨S64x128x1, .i1⟩
  | 19 => ⟨S_, .i32⟩
  | 20 => ⟨S64x128, .i32⟩
  | 21 => ⟨S64x128, .i32⟩
  | 22 => ⟨S_, .i32⟩
  | 23 => ⟨S_, .i32⟩
  | 24 => ⟨S_, .i32⟩
  | 25 => ⟨S64x128, .i32⟩
  | 26 => ⟨S64x128, .i32⟩
  | 27 => ⟨S_, .i32⟩
  | 28 => ⟨S64x128, .i32⟩
  | 29 => ⟨S64x128, .i32⟩
  | 30 => ⟨S64x128x1, .i32⟩
  | 31 => ⟨S_, .i32⟩
  | 32 => ⟨S64x128x1, .i32⟩
  | 33 => ⟨S64x128x1, .i1⟩
  | 34 => ⟨S_, .i32⟩
  | 35 => ⟨S64x128x1, .i32⟩
  | 36 => ⟨S64x128x1, .i32⟩
  | 37 => ⟨S64x128x1, .i32⟩
  | 38 => ⟨S1, .i32⟩
  | 39 => ⟨S_, .i32⟩
  | 40 => ⟨S64x128x1, .i32⟩
  | 41 => ⟨S64x128x1, .i1⟩
  | 42 => ⟨S1x1x1, .i32⟩
  | 43 => ⟨S64x128x1, .i32⟩
  | 44 => ⟨S64x128x1, .i1⟩
  | 45 => ⟨S64x128x1, .i1⟩
  | 46 => ⟨S_, .i1⟩
  | 47 => ⟨S64x128, .i1⟩
  | 48 => ⟨S64x128x256, .f32⟩
  | 49 => ⟨S64x128x256, .i1⟩
  | 50 => ⟨S_, .f32⟩
  | 51 => ⟨S64x128x256, .f32⟩
  | 52 => ⟨S64x128x256, .f32⟩
  | 53 => ⟨S_, .f32⟩
  | 54 => ⟨S_, .f32⟩
  | 55 => ⟨S64x128x256, .i1⟩
  | 56 => ⟨S64x128x256, .f32⟩
  | 57 => ⟨S64x128x256, .f32⟩
  | 58 => ⟨S_, .i32⟩
  | 59 => ⟨S64x128, .i32⟩
  | 60 => ⟨S64x128, .i32⟩
  | 61 => ⟨S_, .i32⟩
  | 62 => ⟨S_, .i32⟩
  | 63 => ⟨S_, .i32⟩
  | 64 => ⟨S64x128, .i32⟩
  | 65 => ⟨S64x128, .i32⟩
  | 66 => ⟨S_, .i32⟩
  | 67 => ⟨S64x128, .i32⟩
  | 68 => ⟨S64x128, .i32⟩
  | 69 => ⟨S64x128x1, .i32⟩
  | 70 => ⟨S_, .i32⟩
  | 71 => ⟨S64x128x1, .i32⟩
  | 72 => ⟨S64x128x1, .i1⟩
  | 73 => ⟨S_, .i32⟩
  | 74 => ⟨S64x128x1, .i32⟩
  | 75 => ⟨S64x128x1, .i32⟩
  | 76 => ⟨S64x128x1, .i32⟩
  | 77 => ⟨S1, .i32⟩
  | 78 => ⟨S_, .i32⟩
  | 79 => ⟨S64x128x1, .i32⟩
  | 80 => ⟨S64x128x1, .i1⟩
  | 81 => ⟨S1x1x1, .i32⟩
  | 82 => ⟨S64x128x1, .i32⟩
  | 83 => ⟨S64x128x1, .i1⟩
  | 84 => ⟨S64x128x1, .i1⟩
  | 85 => ⟨S_, .i1⟩
  | 86 => ⟨S64x128, .i1⟩
  | 87 => ⟨S64x128x256, .f32⟩
  | 88 => ⟨S64x128x256, .i1⟩
  | 89 => ⟨S_, .f32⟩
  | 90 => ⟨S64x128x256, .f32⟩
  | 91 => ⟨S64x128x256, .f32⟩
  | 92 => ⟨S_, .f32⟩
  | 93 => ⟨S_, .f32⟩
  | 94 => ⟨S64x128x256, .i1⟩
  | 95 => ⟨S64x128x256, .f32⟩
  | 96 => ⟨S64x128x256, .f32⟩
  | 97 => ⟨S64x128x1, .i32⟩
  | 98 => ⟨S_, .i32⟩
  | 99 => ⟨S64x128x1, .i32⟩
  | 100 => ⟨S64x128x1, .i1⟩
  | 101 => ⟨S_, .i32⟩
  | 102 => ⟨S64x128x1, .i32⟩
  | 103 => ⟨S64x128x1, .i32⟩
  | 104 => ⟨S64x128x1, .i32⟩
  | 105 => ⟨S1, .i32⟩
  | 106 => ⟨S_, .i32⟩
  | 107 => ⟨S64x128x1, .i32⟩
  | 108 => ⟨S64x128x1, .i1⟩
  | 109 => ⟨S1x1x1, .i32⟩
  | 110 => ⟨S64x128x1, .i32⟩
  | 111 => ⟨S64x128x1, .i1⟩
  | 112 => ⟨S64x128x1, .i1⟩
  | 113 => ⟨S_, .i1⟩
  | 114 => ⟨S64x128, .i1⟩
  | 115 => ⟨S64x128x256, .f32⟩
  | 116 => ⟨S64x128x256, .i1⟩
  | 117 => ⟨S_, .f32⟩
  | 118 => ⟨S64x128x256, .f32⟩
  | 119 => ⟨S64x128x256, .f32⟩
  | 120 => ⟨S64x128x1, .i32⟩
  | 121 => ⟨S_, .i32⟩
  | 122 => ⟨S64x128x1, .i32⟩
  | 123 => ⟨S64x128x1, .i1⟩
  | 124 => ⟨S_, .i32⟩
  | 125 => ⟨S64x128x1, .i32⟩
  | 126 => ⟨S64x128x1, .i32⟩
  | 127 => ⟨S64x128x1, .i32⟩
  | _ => ⟨S64x1024x512, .f32⟩

abbrev hbmTy0_1 (i : Nat) : BufTy := match i % 128 with
  | 0 => ⟨S1, .i32⟩
  | 1 => ⟨S_, .i32⟩
  | 2 => ⟨S64x128x1, .i32⟩
  | 3 => ⟨S64x128x1, .i1⟩
  | 4 => ⟨S1x1x1, .i32⟩
  | 5 => ⟨S64x128x1, .i32⟩
  | 6 => ⟨S64x128x1, .i1⟩
  | 7 => ⟨S64x128x1, .i1⟩
  | 8 => ⟨S_, .i1⟩
  | 9 => ⟨S64x128, .i1⟩
  | 10 => ⟨S64x128x256, .f32⟩
  | 11 => ⟨S64x128x256, .i1⟩
  | 12 => ⟨S_, .f32⟩
  | 13 => ⟨S64x128x256, .f32⟩
  | 14 => ⟨S64x128x256, .f32⟩
  | 15 => ⟨S64x128x256, .f32⟩
  | 16 => ⟨S64x128x256, .f32⟩
  | 17 => ⟨S64x128x256, .f32⟩
  | 18 => ⟨S64x128x768, .f32⟩
  | 19 => ⟨S_, .i32⟩
  | 20 => ⟨S64x128, .i32⟩
  | 21 => ⟨S64x128, .i1⟩
  | 22 => ⟨S_, .i32⟩
  | 23 => ⟨S64x128, .i32⟩
  | 24 => ⟨S64x128, .i1⟩
  | 25 => ⟨S64x128, .i1⟩
  | 26 => ⟨S64x128x1, .i1⟩
  | 27 => ⟨S_, .f32⟩
  | 28 => ⟨S_, .f32⟩
  | 29 => ⟨S64x128x768, .i1⟩
  | 30 => ⟨S64x128x768, .f32⟩
  | 31 => ⟨S64x128x768, .f32⟩
  | _ => ⟨S64x1024x512, .f32⟩

abbrev hbmTy (i : Nat) : BufTy := match i / 128 with
  | 0 => hbmTy0_0 i
  | 1 => hbmTy0_1 i
  | _ => ⟨S64x1024x512, .f32⟩

abbrev bufTy : (tb : Table) → Fin (tcTables nBuf tb) → BufTy
  | .hbm, ⟨i, _⟩ => hbmTy i
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_c_4 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v16 : Ref sig .tc := ⟨.hbm, 29, rfl⟩
abbrev main_v17 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_c_2 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_c_3 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v18 : Ref sig .tc := ⟨.hbm, 52, rfl⟩
abbrev main_cst : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v19 : Ref sig .tc := ⟨.hbm, 57, rfl⟩
abbrev main_c_5 : Ref sig .tc := ⟨.hbm, 58, rfl⟩
abbrev main_v20 : Ref sig .tc := ⟨.hbm, 59, rfl⟩
abbrev main_v21 : Ref sig .tc := ⟨.hbm, 60, rfl⟩
abbrev main_c_6 : Ref sig .tc := ⟨.hbm, 61, rfl⟩
abbrev main_c_7 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_v22 : Ref sig .tc := ⟨.hbm, 68, rfl⟩
abbrev main_v23 : Ref sig .tc := ⟨.hbm, 69, rfl⟩
abbrev main_call4_c : Ref sig .tc := ⟨.hbm, 70, rfl⟩
abbrev main_call4_v0 : Ref sig .tc := ⟨.hbm, 71, rfl⟩
abbrev main_call4_v1 : Ref sig .tc := ⟨.hbm, 72, rfl⟩
abbrev main_call4_c_0 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_c_1 : Ref sig .tc := ⟨.hbm, 77, rfl⟩
abbrev main_call4_c_2 : Ref sig .tc := ⟨.hbm, 78, rfl⟩
abbrev main_call4_v5 : Ref sig .tc := ⟨.hbm, 79, rfl⟩
abbrev main_call4_v6 : Ref sig .tc := ⟨.hbm, 80, rfl⟩
abbrev main_call4_v7 : Ref sig .tc := ⟨.hbm, 81, rfl⟩
abbrev main_call4_v8 : Ref sig .tc := ⟨.hbm, 82, rfl⟩
abbrev main_call4_v9 : Ref sig .tc := ⟨.hbm, 83, rfl⟩
abbrev main_call4_v10 : Ref sig .tc := ⟨.hbm, 84, rfl⟩
abbrev main_call4_c_3 : Ref sig .tc := ⟨.hbm, 85, rfl⟩
abbrev main_call4_v11 : Ref sig .tc := ⟨.hbm, 86, rfl⟩
abbrev main_call4_v12 : Ref sig .tc := ⟨.hbm, 87, rfl⟩
abbrev main_call4_v13 : Ref sig .tc := ⟨.hbm, 88, rfl⟩
abbrev main_call4_cst : Ref sig .tc := ⟨.hbm, 89, rfl⟩
abbrev main_call4_v14 : Ref sig .tc := ⟨.hbm, 90, rfl⟩
abbrev main_v24 : Ref sig .tc := ⟨.hbm, 91, rfl⟩
abbrev main_cst_8 : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_v25 : Ref sig .tc := ⟨.hbm, 96, rfl⟩
abbrev main_v26 : Ref sig .tc := ⟨.hbm, 97, rfl⟩
abbrev main_call6_c : Ref sig .tc := ⟨.hbm, 98, rfl⟩
abbrev main_call6_v0 : Ref sig .tc := ⟨.hbm, 99, rfl⟩
abbrev main_call6_v1 : Ref sig .tc := ⟨.hbm, 100, rfl⟩
abbrev main_call6_c_0 : Ref sig .tc := ⟨.hbm, 101, rfl⟩
abbrev main_call6_v2 : Ref sig .tc := ⟨.hbm, 102, rfl⟩
abbrev main_call6_v3 : Ref sig .tc := ⟨.hbm, 103, rfl⟩
abbrev main_call6_v4 : Ref sig .tc := ⟨.hbm, 104, rfl⟩
abbrev main_call6_c_1 : Ref sig .tc := ⟨.hbm, 105, rfl⟩
abbrev main_call6_c_2 : Ref sig .tc := ⟨.hbm, 106, rfl⟩
abbrev main_call6_v5 : Ref sig .tc := ⟨.hbm, 107, rfl⟩
abbrev main_call6_v6 : Ref sig .tc := ⟨.hbm, 108, rfl⟩
abbrev main_call6_v7 : Ref sig .tc := ⟨.hbm, 109, rfl⟩
abbrev main_call6_v8 : Ref sig .tc := ⟨.hbm, 110, rfl⟩
abbrev main_call6_v9 : Ref sig .tc := ⟨.hbm, 111, rfl⟩
abbrev main_call6_v10 : Ref sig .tc := ⟨.hbm, 112, rfl⟩
abbrev main_call6_c_3 : Ref sig .tc := ⟨.hbm, 113, rfl⟩
abbrev main_call6_v11 : Ref sig .tc := ⟨.hbm, 114, rfl⟩
abbrev main_call6_v12 : Ref sig .tc := ⟨.hbm, 115, rfl⟩
abbrev main_call6_v13 : Ref sig .tc := ⟨.hbm, 116, rfl⟩
abbrev main_call6_cst : Ref sig .tc := ⟨.hbm, 117, rfl⟩
abbrev main_call6_v14 : Ref sig .tc := ⟨.hbm, 118, rfl⟩
abbrev main_v27 : Ref sig .tc := ⟨.hbm, 119, rfl⟩
abbrev main_v28 : Ref sig .tc := ⟨.hbm, 120, rfl⟩
abbrev main_call7_c : Ref sig .tc := ⟨.hbm, 121, rfl⟩
abbrev main_call7_v0 : Ref sig .tc := ⟨.hbm, 122, rfl⟩
abbrev main_call7_v1 : Ref sig .tc := ⟨.hbm, 123, rfl⟩
abbrev main_call7_c_0 : Ref sig .tc := ⟨.hbm, 124, rfl⟩
abbrev main_call7_v2 : Ref sig .tc := ⟨.hbm, 125, rfl⟩
abbrev main_call7_v3 : Ref sig .tc := ⟨.hbm, 126, rfl⟩
abbrev main_call7_v4 : Ref sig .tc := ⟨.hbm, 127, rfl⟩
abbrev main_call7_c_1 : Ref sig .tc := ⟨.hbm, 128, rfl⟩
abbrev main_call7_c_2 : Ref sig .tc := ⟨.hbm, 129, rfl⟩
abbrev main_call7_v5 : Ref sig .tc := ⟨.hbm, 130, rfl⟩
abbrev main_call7_v6 : Ref sig .tc := ⟨.hbm, 131, rfl⟩
abbrev main_call7_v7 : Ref sig .tc := ⟨.hbm, 132, rfl⟩
abbrev main_call7_v8 : Ref sig .tc := ⟨.hbm, 133, rfl⟩
abbrev main_call7_v9 : Ref sig .tc := ⟨.hbm, 134, rfl⟩
abbrev main_call7_v10 : Ref sig .tc := ⟨.hbm, 135, rfl⟩
abbrev main_call7_c_3 : Ref sig .tc := ⟨.hbm, 136, rfl⟩
abbrev main_call7_v11 : Ref sig .tc := ⟨.hbm, 137, rfl⟩
abbrev main_call7_v12 : Ref sig .tc := ⟨.hbm, 138, rfl⟩
abbrev main_call7_v13 : Ref sig .tc := ⟨.hbm, 139, rfl⟩
abbrev main_call7_cst : Ref sig .tc := ⟨.hbm, 140, rfl⟩
abbrev main_call7_v14 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_c_9 : Ref sig .tc := ⟨.hbm, 147, rfl⟩
abbrev main_v34 : Ref sig .tc := ⟨.hbm, 148, rfl⟩
abbrev main_v35 : Ref sig .tc := ⟨.hbm, 149, rfl⟩
abbrev main_c_10 : Ref sig .tc := ⟨.hbm, 150, rfl⟩
abbrev main_v36 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_cst_11 : Ref sig .tc := ⟨.hbm, 155, rfl⟩
abbrev main_call8_v0 : Ref sig .tc := ⟨.hbm, 156, rfl⟩
abbrev main_call8_v1 : Ref sig .tc := ⟨.hbm, 157, rfl⟩
abbrev main_call8_v2 : Ref sig .tc := ⟨.hbm, 158, rfl⟩
abbrev main_v40 : Ref sig .tc := ⟨.hbm, 159, rfl⟩

abbrev nD : Nat := 1
abbrev τ : Topo := Topo.v7x

variable {F : FTy → Type} [FloatOps F]

class Facts₀ : Prop where
  slices_S64x1024x512_S64x1024x256_0_0_0 : S64x1024x512.Slices ![0, 0, 0] S64x1024x256
  slices_S64x1024x512_S64x1024x256_0_0_256 : S64x1024x512.Slices ![0, 0, 256] S64x1024x256
  slices_S64x128x2_S64x128x1_0_0_0 : S64x128x2.Slices ![0, 0, 0] S64x128x1
  shapeCasts_S64x128x1_S64x128 : S64x128x1.ShapeCasts S64x128
  slices_S64x128x2_S64x128x1_0_0_1 : S64x128x2.Slices ![0, 0, 1] S64x128x1
  bcast_S_S64x128 : S_.BroadcastsInDim S64x128 (![] : Fin 0 → Fin S64x128.rank)
  bcast_S64x128_S64x128x1_0_1 : S64x128.BroadcastsInDim S64x128x1 (![0, 1] : Fin 2 → Fin S64x128x1.rank)
  bcast_S_S64x128x1 : S_.BroadcastsInDim S64x128x1 (![] : Fin 0 → Fin S64x128x1.rank)
  bcast_S1_S1x1x1_2 : S1.BroadcastsInDim S1x1x1 (![2] : Fin 1 → Fin S1x1x1.rank)
  bcast_S1x1x1_S64x128x1_0_1_2 : S1x1x1.BroadcastsInDim S64x128x1 (![0, 1, 2] : Fin 3 → Fin S64x128x1.rank)
  reducesTo_S64x128x1_S64x128_d2 : S64x128x1.ReducesTo [2] S64x128
  h_S_ : 0 < S_.numel
  bcast_S64x128_S64x128x256_0_1 : S64x128.BroadcastsInDim S64x128x256 (![0, 1] : Fin 2 → Fin S64x128x256.rank)
  bcast_S_S64x128x256 : S_.BroadcastsInDim S64x128x256 (![] : Fin 0 → Fin S64x128x256.rank)
  bcast_S64x128x1_S64x128x256_0_1_2 : S64x128x1.BroadcastsInDim S64x128x256 (![0, 1, 2] : Fin 3 → Fin S64x128x256.rank)
  concatenates_S64x128x256_S64x128x256_S64x128x256_S64x128x768_d2 : Shape.Concatenates [S64x128x256, S64x128x256, S64x128x256] S64x128x768 2
  bcast_S64x128x1_S64x128x768_0_1_2 : S64x128x1.BroadcastsInDim S64x128x768 (![0, 1, 2] : Fin 3 → Fin S64x128x768.rank)
  bcast_S_S64x128x768 : S_.BroadcastsInDim S64x128x768 (![] : Fin 0 → Fin S64x128x768.rank)
  gather_S64x1024x256_S64x128x1_S64x128x256_2_1_0_0_1_2_11256_wf : GatherDims.WF S64x1024x256 S64x128x1 S64x128x256 [2] [1] [0] [1] [0] 2 ![1, 1, 256]

variable [Facts₀]

def gather_S64x1024x256_S64x128x1_S64x128x256_2_1_0_0_1_2_11256 : GatherDims S64x1024x256 S64x128x1 S64x128x256 where
  offsetDims := [2]
  collapsedSliceDims := [1]
  operandBatchingDims := [0]
  startIndicesBatchingDims := [0]
  startIndexMap := [1]
  indexVectorDim := 2
  sliceSizes := ![1, 1, 256]
  wf := gather_S64x1024x256_S64x128x1_S64x128x256_2_1_0_0_1_2_11256_wf

class Facts : Prop extends Facts₀ where

variable [Facts]
-- ==== Proof.K.Pay.lean ====
/-
  One trip of the kernel's loop over the four sequences of a block, as pure functions of what the trip loads:
  the two columns of the span table (`v6`: first positions, `v10`: last positions) and the two halves of the
  sequence's hidden states (`v61`: forward channels, `v64`: backward channels). `v0` is the position index
  the selection matrices are compared against. The trip stores `PA` into channels 0–255 of the sequence's
  output rows, `PB` into channels 256–511 and `PC` into channels 512–767.
-/
import proofs.«406866_j23502061044278_3_alg».proof.Proof.Gen.Kernel.Skeleton

noncomputable section

namespace Cert.Proof.K

open Cert.Kernel Cert.Kernel.Gen
open Idealize.ShloMosaic

variable {F : FTy → Type} [FloatOps F]

/-- The padding mask of the 128 spans (0 for a padding span, 1 otherwise), as a column. -/
def keepCol (v6 v10 : Vec F S128x1 .i32) : FVec F S128x1 .f32 := k0_pay13 (F := F) (k0_pay7 v6) (k0_pay8 v10)

/-- Forward side: for each of the 2·128 selected positions (last positions, then clamped positions before the
    first), the selected row of the forward half. -/
def fwdSel (v0 : IVec S256x1024 32) (v6 v10 : Vec F S128x1 .i32) (v61 : Vec F S1024x256 .f32) : FVec F S256x256 .f32 :=
  k0_pay15 (k0_pay9 v0 v6 v10) v61

/-- Backward side, before its three column groups are summed. -/
def bwdSel3 (v0 : IVec S256x1024 32) (v6 v10 : Vec F S128x1 .i32) (v64 : Vec F S1024x256 .f32) : FVec F S256x768 .f32 :=
  k0_pay14 (k0_pay10 v0 v6 v10) v64

/-- Channels 0–255: forward state at the last position minus the forward state before the first, masked. -/
def PA (v0 : IVec S256x1024 32) (v6 v10 : Vec F S128x1 .i32) (v61 : Vec F S1024x256 .f32) : FVec F S128x256 .f32 :=
  k0_pay4 (k0_pay11 v6) (keepCol v6 v10) (fwdSel v0 v6 v10 v61)

/-- Channels 256–511: backward state at the first position minus the backward state after the last, masked. -/
def PB (v0 : IVec S256x1024 32) (v6 v10 : Vec F S128x1 .i32) (v64 : Vec F S1024x256 .f32) : FVec F S128x256 .f32 :=
  k0_pay5 (k0_pay12 (F := F) (k0_pay8 v10) 1#32) (keepCol v6 v10) (bwdSel3 v0 v6 v10 v64)

/-- Channels 512–767: forward state before the first position minus backward state after the last, masked. -/
def PC (v0 : IVec S256x1024 32) (v6 v10 : Vec F S128x1 .i32) (v61 v64 : Vec F S1024x256 .f32) : FVec F S128x256 .f32 :=
  k0_pay6 (k0_pay11 v6) (k0_pay12 (F := F) (k0_pay8 v10) 1#32) (keepCol v6 v10) (bwdSel3 v0 v6 v10 v64) (fwdSel v0 v6 v10 v61)

end Cert.Proof.K

end
-- ==== Proof.K.Loop.lean ====
/-
  The kernel's loop over the four sequences of a block, by its invariant: one run of the loop's region at a
  symbolic sequence number `k`, and the contents of the output block after `k` trips.

  Trip `k` reads, through views of sequence `k`'s slab of each staging buffer, the two columns of the span table
  and the two halves of the hidden states, and writes into sequence `k`'s slab of the output block three column
  groups: channels 0–255, 256–511 and 512–767, each a pure function (`PA`, `PB`, `PC`) of what it read. Nothing
  else of the output block changes, and the inputs' buffers are only read.
-/
import proofs.«406866_j23502061044278_3_alg».proof.Proof.Gen.Kernel.Loops
import proofs.«406866_j23502061044278_3_alg».proof.Proof.Gen.Kernel.Launch
import proofs.«406866_j23502061044278_3_alg».proof.Proof.K.Pay
import Idealize.ShloMosaic.Lib.Tactic

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra the invariant is stated at. -/
abbrev UU (nD : Nat) (τ : Topo) : Type := UR sig nD τ
abbrev 𝒱₀ : Variants := Variants.none
local notation "𝕄" => MT nD τ sig Unit (Elt F) ℕ (UU nD τ) ℕ

/-! ## The rectangles a trip goes through -/

/-- Column 0 and column 1 of a sequence's span table. -/
abbrev rS0 : Rect S128x2 := Rect.unit (s := S128x2) ![0, 0] S128x1.size inb_S128x2_S128x1_0_0
abbrev rS1 : Rect S128x2 := Rect.unit (s := S128x2) ![0, 1] S128x1.size inb_S128x2_S128x1_0_1
/-- The forward and the backward half of a sequence's hidden states. -/
abbrev rX0 : Rect S1024x512 := Rect.unit (s := S1024x512) ![0, 0] S1024x256.size inb_S1024x512_S1024x256_0_0
abbrev rX1 : Rect S1024x512 := Rect.unit (s := S1024x512) ![0, 256] S1024x256.size inb_S1024x512_S1024x256_0_256
/-- The three column groups of a sequence's output rows. -/
abbrev rO0 : Rect S128x768 := Rect.unit (s := S128x768) ![0, 0] S128x256.size inb_S128x768_S128x256_0_0
abbrev rO1 : Rect S128x768 := Rect.unit (s := S128x768) ![0, 256] S128x256.size inb_S128x768_S128x256_0_256
abbrev rO2 : Rect S128x768 := Rect.unit (s := S128x768) ![0, 512] S128x256.size inb_S128x768_S128x256_0_512

section Trips

variable (c : Dev nD) (i : grid0.Coords)
  (arg1 : Memref sig .tc .vmem S4x1024x512 .f32) (harg1 : arg1.IsWhole)
  (arg2 : Memref sig .tc .vmem S4x128x2 .i32) (harg2 : arg2.IsWhole)
  (arg3 : Memref sig .tc .vmem S4x128x768 .f32) (harg3 : arg3.IsWhole)
  (v0 : IVec S256x1024 32)
  (x1 : Buf (Elt F) (arg1.view.loc (c : Thread nD τ)))
  (x2 : Buf (Elt F) (arg2.view.loc (c : Thread nD τ)))

/-- Sequence `k`'s slab of each staging buffer, as the region addresses it: the slice at `k`, its unit axis dropped. -/
abbrev vS (k : Fin k0_t1_loop.trips) : Memref sig .tc .vmem S128x2 .i32 :=
  (arg2.slice (Rect.unit (s := S4x128x2) (k0_off1 k) S1x128x2.size (k0_off1_inb k)) (fun _ => rfl)).squeeze S128x2 squeezes_S1x128x2_S128x2
abbrev vX (k : Fin k0_t1_loop.trips) : Memref sig .tc .vmem S1024x512 .f32 :=
  (arg1.slice (Rect.unit (s := S4x1024x512) (k0_off2 k) S1x1024x512.size (k0_off2_inb k)) (fun _ => rfl)).squeeze S1024x512 squeezes_S1x1024x512_S1024x512
abbrev vO (k : Fin k0_t1_loop.trips) : Memref sig .tc .vmem S128x768 .f32 :=
  (arg3.slice (Rect.unit (s := S4x128x768) (k0_off3 k) S1x128x768.size (k0_off3_inb k)) (fun _ => rfl)).squeeze S128x768 squeezes_S1x128x768_S128x768

/-- What trip `k` loads: the first and the last positions of the sequence's spans, and the two halves of its states. -/
def ld6 (k : Fin k0_t1_loop.trips) : Vec F S128x1 .i32 := View.readAt (Elt F) (vS arg2 k).view rS0.toLoadRect x2
def ld10 (k : Fin k0_t1_loop.trips) : Vec F S128x1 .i32 := View.readAt (Elt F) (vS arg2 k).view rS1.toLoadRect x2
def ld61 (k : Fin k0_t1_loop.trips) : Vec F S1024x256 .f32 := View.readAt (Elt F) (vX arg1 k).view rX0.toLoadRect x1
def ld64 (k : Fin k0_t1_loop.trips) : Vec F S1024x256 .f32 := View.readAt (Elt F) (vX arg1 k).view rX1.toLoadRect x1

/-- What a trip holds at its entry and at its exit: the inputs' buffers at their contents, the output block whole at `f`. -/
abbrev TRIP (f : Buf (Elt F) (arg3.view.loc (c : Thread nD τ))) : sProp 𝕄 :=
  iprop((arg1.view.loc (c : Thread nD τ) ↦[arg1.view.set]{fullShare} x1)
    ∗ (arg2.view.loc (c : Thread nD τ) ↦[arg2.view.set]{fullShare} x2)
    ∗ (arg3.view.loc (c : Thread nD τ) ↦[Finset.univ]{fullShare} f))

/-- What trip `k` leaves in the output block over its prior contents `f`: the three column groups of sequence `k`'s rows. -/
def STEP (k : Fin k0_t1_loop.trips) (f : Buf (Elt F) (arg3.view.loc (c : Thread nD τ))) : Buf (Elt F) (arg3.view.loc (c : Thread nD τ)) :=
  View.write (Elt F) ((vO arg3 k).access rO2)
    (View.write (Elt F) ((vO arg3 k).access rO1)
      (View.write (Elt F) ((vO arg3 k).access rO0) f
        (PA v0 (ld6 c arg2 x2 k) (ld10 c arg2 x2 k) (ld61 c arg1 x1 k)) Finset.univ)
      (PB v0 (ld6 c arg2 x2 k) (ld10 c arg2 x2 k) (ld64 c arg1 x1 k)) Finset.univ)
    (PC v0 (ld6 c arg2 x2 k) (ld10 c arg2 x2 k) (ld61 c arg1 x1 k) (ld64 c arg1 x1 k)) Finset.univ

/-- THE TRIP, run once at a symbolic sequence number. -/
theorem trip (k : Fin k0_t1_loop.trips) (f : Buf (Elt F) (arg3.view.loc (c : Thread nD τ))) :
    TRIP c arg1 arg2 arg3 x1 x2 f
      ⊢ wp frame (wpE (defs₀ (F := F)) 𝒱₀ c none) Set.univ
          (k0_t1_body i arg1 harg1 arg2 harg2 arg3 harg3 v0 k PUnit.unit)
          (fun _ => TRIP c arg1 arg2 arg3 x1 x2 (STEP c arg1 arg2 arg3 v0 x1 x2 k f)) := by
  unfold k0_t1_body STEP PA PB PC keepCol fwdSel bwdSel3 ld6 ld10 ld61 ld64
  iintro ⟨H1, H2, H3⟩
  sl_exec
  sl_step
  sl_close

/-- The output block after `n` trips from its contents `f₀` at the loop's entry. -/
def ACC (f₀ : Buf (Elt F) (arg3.view.loc (c : Thread nD τ))) : ℕ → Buf (Elt F) (arg3.view.loc (c : Thread nD τ))
  | 0 => f₀
  | n + 1 => if h : n < k0_t1_loop.trips then STEP c arg1 arg2 arg3 v0 x1 x2 ⟨n, h⟩ (ACC f₀ n) else ACC f₀ n

theorem ACC_succ (f₀ : Buf (Elt F) (arg3.view.loc (c : Thread nD τ))) (k : Fin k0_t1_loop.trips) :
    ACC c arg1 arg2 arg3 v0 x1 x2 f₀ (k.val + 1) = STEP c arg1 arg2 arg3 v0 x1 x2 k (ACC c arg1 arg2 arg3 v0 x1 x2 f₀ k.val) := by
  rw [ACC.eq_2]; exact dif_pos k.isLt

set_option warn.classDefReducibility false in
/-- THE LOOP BY ITS INVARIANT: before trip `k` the output block holds `ACC f₀ k`, and one trip takes it to `ACC f₀ (k + 1)`. -/
@[sl_loop] def loopInv (f₀ : Buf (Elt F) (arg3.view.loc (c : Thread nD τ))) :
    Gen.LoopInvTy_k0_t1 (F := F) Unit ℕ (UU nD τ) ℕ 𝒱₀ c none Set.univ i arg1 harg1 arg2 harg2 arg3 harg3 v0 where
  inv k _ := TRIP c arg1 arg2 arg3 x1 x2 (ACC c arg1 arg2 arg3 v0 x1 x2 f₀ k)
  step k acc := by
    rw [ACC_succ]
    exact trip c i arg1 harg1 arg2 harg2 arg3 harg3 v0 x1 x2 k _

end Trips

end Cert.Proof.K

end
-- ==== Proof.LibSlab.lean ====
/-
  A SLAB of a rank-3 buffer: the memref `m : [n, a, b]` sliced at leading index `k` (sizes `[1, a, b]`) with the
  unit axis dropped — what `ref.at[k]` of a staging buffer is inside a kernel. Element `(s, c)` of the slab is
  element `(k, s, c)` of the buffer, so

  * a read through the slab is a read of the buffer at `(k, s, c)` (`slab_read`);
  * after a write through a rectangle of the slab, the buffer reads, in slab `k`, as the slab does
    (`read_slab_write`), and in every other slab as before (`read_other_slab_write`).
-/
import Idealize.ShloMosaic.Signature
import Idealize.ShloMosaic.Lib.ValueIdx
import Idealize.ShloMosaic.Lib.ValueLayout

noncomputable section

namespace Cert.Proof.LibSlab

open Idealize.ShloMosaic Idealize.ShloMosaic.ValueIdx

variable {sig : RefSig} {κ : Kind} {sp : Space} {n a b : ℕ} {e : EltTy} (Val : EltTy → Type)

/-- The slab at leading index `off 0` of a rank-3 memref, its unit axis dropped. -/
abbrev slab (m : Memref sig κ sp ⟨3, ![n, a, b]⟩ e) (off : Fin 3 → ℕ)
    (inb : ∀ d, off d + (![1, a, b] : Fin 3 → ℕ) d ≤ (⟨3, ![n, a, b]⟩ : Shape).size d)
    (hsq : (⟨3, ![1, a, b]⟩ : Shape).Squeezes ⟨2, ![a, b]⟩) : Memref sig κ sp ⟨2, ![a, b]⟩ e :=
  (m.slice (Rect.unit (s := ⟨3, ![n, a, b]⟩) off ![1, a, b] inb) (fun _ => rfl)).squeeze ⟨2, ![a, b]⟩ hsq

variable (m : Memref sig κ sp ⟨3, ![n, a, b]⟩ e) (off : Fin 3 → ℕ) (k : ℕ) (hk : k < n) (hoff : off = ![k, 0, 0])
  (inb : ∀ d, off d + (![1, a, b] : Fin 3 → ℕ) d ≤ (⟨3, ![n, a, b]⟩ : Shape).size d)
  (hsq : (⟨3, ![1, a, b]⟩ : Shape).Squeezes ⟨2, ![a, b]⟩)

include hoff in
/-- Element `(s, c)` of slab `k` is element `(k, s, c)` of the buffer. -/
theorem slab_emb (s : Fin a) (c : Fin b) :
    (slab m off inb hsq).view.emb (ix2 s c) = m.view.emb (ix3 ⟨k, hk⟩ s c) := by
  subst hoff
  show m.view.emb ((Rect.unit (s := ⟨3, ![n, a, b]⟩) ![k, 0, 0] ![1, a, b] inb).emb
      (Shape.reshapeEquiv hsq.numel_eq (ix2 s c))) = _
  rw [reshapeEquiv_ix2_1ab]
  congr 1
  funext d
  apply Fin.ext
  rw [Rect.emb_apply]
  match d with
  | ⟨0, _⟩ => show k + 1 * 0 = k; omega
  | ⟨1, _⟩ => show 0 + 1 * s.val = s.val; omega
  | ⟨2, _⟩ => show 0 + 1 * c.val = c.val; omega

include hoff in
/-- Reading through the slab is reading the buffer in slab `k`. -/
theorem slab_read (g : m.view.ty.Contents Val) (s : Fin a) (c : Fin b) :
    (slab m off inb hsq).view.read Val g (ix2 s c) = m.view.read Val g (ix3 ⟨k, hk⟩ s c) := by
  rw [View.read_apply, View.read_apply, slab_emb m off k hk hoff inb hsq s c]

include hoff in
/-- After a write through a rectangle of the slab, the buffer reads in slab `k` as the slab does. -/
theorem read_slab_write (r : Rect ⟨2, ![a, b]⟩) (g : m.view.ty.Contents Val) (w : r.shape.Idx → Val e)
    (M : Finset r.shape.Idx) (s : Fin a) (c : Fin b) :
    m.view.read Val (View.write Val ((slab m off inb hsq).access r) g w M) (ix3 ⟨k, hk⟩ s c)
      = (slab m off inb hsq).view.read Val (View.write Val ((slab m off inb hsq).view.slice r) g w M) (ix2 s c) :=
  (slab_read Val m off k hk hoff inb hsq _ s c).symm

include hoff hk in
/-- A write through the slab leaves every other slab as it was. -/
theorem read_other_slab_write (r : Rect ⟨2, ![a, b]⟩) (g : m.view.ty.Contents Val) (w : r.shape.Idx → Val e)
    (M : Finset r.shape.Idx) (nb : Fin n) (hne : nb.val ≠ k) (s : Fin a) (c : Fin b) :
    m.view.read Val (View.write Val ((slab m off inb hsq).access r) g w M) (ix3 nb s c)
      = m.view.read Val g (ix3 nb s c) := by
  rw [View.read_apply, View.read_apply, View.write_of_not_mem]
  intro hmem
  obtain ⟨y, -, hy⟩ := Finset.mem_map.mp hmem
  have e1 : ((slab m off inb hsq).view.slice r).emb y = m.view.emb (ix3 ⟨k, hk⟩ ((r.emb y) 0) ((r.emb y) 1)) := by
    show (slab m off inb hsq).view.emb (r.emb y) = _
    rw [eq_ix2 (r.emb y)]
    exact slab_emb m off k hk hoff inb hsq _ _
  have e2 := m.view.emb.injective (e1.symm.trans hy)
  have e3 := congrArg (fun j : (⟨3, ![n, a, b]⟩ : Shape).Idx => (j 0).val) e2
  exact hne e3.symm

include hoff in
/-- A write of full rows of a column group `[c0, c0 + w)` through slab `k`, read back from the buffer in slab `k`:
    inside the group the written value, outside it the old contents. -/
theorem read_slab_write_cols (c0 w : ℕ)
    (inb' : ∀ d, (![0, c0] : Fin 2 → ℕ) d + (![a, w] : Fin 2 → ℕ) d ≤ (⟨2, ![a, b]⟩ : Shape).size d)
    (g : m.view.ty.Contents Val) (wv : (⟨2, ![a, w]⟩ : Shape).Idx → Val e) (s : Fin a) (c : Fin b) :
    m.view.read Val (View.write Val ((slab m off inb hsq).access (Rect.unit (s := ⟨2, ![a, b]⟩) ![0, c0] ![a, w] inb')) g wv
        Finset.univ) (ix3 ⟨k, hk⟩ s c)
      = if h : c0 ≤ c.val ∧ c.val < c0 + w then wv (ix2 s ⟨c.val - c0, by omega⟩)
        else m.view.read Val g (ix3 ⟨k, hk⟩ s c) := by
  rw [read_slab_write Val m off k hk hoff inb hsq]
  split
  · next h =>
    have e1 : ix2 s c = (Rect.unit (s := ⟨2, ![a, b]⟩) ![0, c0] ![a, w] inb').emb (ix2 s ⟨c.val - c0, by omega⟩) := by
      funext d
      apply Fin.ext
      rw [Rect.emb_apply]
      match d with
      | ⟨0, _⟩ => show s.val = 0 + 1 * s.val; omega
      | ⟨1, _⟩ => show c.val = c0 + 1 * (c.val - c0); omega
    rw [e1]
    exact View.read_slice_write_emb _ _ _ (Finset.mem_univ _)
  · next h =>
    rw [View.read_slice_write_of_not_mem, slab_read Val m off k hk hoff inb hsq]
    intro hm
    obtain ⟨y, -, hy⟩ := Finset.mem_map.mp hm
    have e2 := congrArg (fun j : (⟨2, ![a, b]⟩ : Shape).Idx => (j 1).val) hy
    have e3 : c0 + 1 * (y 1).val = c.val := e2
    have hy1 : (y 1).val < w := (y 1).isLt
    exact h ⟨by omega, by omega⟩

end Cert.Proof.LibSlab

end
-- ==== Proof.K.Body.lean ====
/-
  The body of the kernel at a grid point, the pipeline's proof data, and the run.

  A grid point handles a block of four sequences. The body's loop walks the four sequences; trip `k` writes
  sequence `k`'s rows of the output block from sequence `k`'s span table and hidden states (`Proof/K/Loop.lean`).
  After the four trips every entry of the output block has been written exactly once, so the block is ONE function
  `OUT` of the two input blocks, whatever the output's staging buffer held before:

      OUT X1 X2 (nb, s, c) = PA / PB / PC (of sequence nb's loads) at (s, c − 0 / 256 / 512)   by the column group of c.

  The inputs' buffers are only read. With `OUT` as the output window's contents after the body, the pipeline's
  frame run gives the program's run: it terminates, nothing faults, the argument arrays are unchanged, and the result
  array is, block by block, `OUT` of the arguments' blocks.
-/
import proofs.«406866_j23502061044278_3_alg».proof.Proof.K.Loop
import proofs.«406866_j23502061044278_3_alg».proof.Proof.Gen.Kernel.Frame
import proofs.«406866_j23502061044278_3_alg».proof.Proof.LibSlab
import Idealize.ShloMosaic.Lib.Pipeline.Value

noncomputable section

namespace Cert.Proof.K

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UU nD τ) ℕ

/-! ## A sequence's loads, as functions of the input blocks -/

/-- The first positions of sequence `nb`'s spans, as a column. -/
def B6 (X2 : Vec F S4x128x2 .i32) (nb : Fin 4) : Vec F S128x1 .i32 := fun p => X2 (ix3 nb (p 0) (0 : Fin 2))
/-- The last positions. -/
def B10 (X2 : Vec F S4x128x2 .i32) (nb : Fin 4) : Vec F S128x1 .i32 := fun p => X2 (ix3 nb (p 0) (1 : Fin 2))
/-- The forward half of sequence `nb`'s hidden states. -/
def B61 (X1 : Vec F S4x1024x512 .f32) (nb : Fin 4) : Vec F S1024x256 .f32 :=
  fun p => X1 (ix3 nb (p 0) (⟨(p 1).val, by have h : (p 1).val < 256 := (p 1).isLt; omega⟩ : Fin 512))
/-- The backward half. -/
def B64 (X1 : Vec F S4x1024x512 .f32) (nb : Fin 4) : Vec F S1024x256 .f32 :=
  fun p => X1 (ix3 nb (p 0) (⟨256 + (p 1).val, by have h : (p 1).val < 256 := (p 1).isLt; omega⟩ : Fin 512))

/-- What the body leaves in the output block: entry `(nb, s, c)` is sequence `nb`'s value for span `s` in the
    column group of `c`. -/
def OUT (v0 : IVec S256x1024 32) (X1 : Vec F S4x1024x512 .f32) (X2 : Vec F S4x128x2 .i32) : FVec F S4x128x768 .f32 :=
  fun o =>
    if h0 : (o 2).val < 256 then
      PA v0 (B6 X2 (o 0)) (B10 X2 (o 0)) (B61 X1 (o 0)) (ix2 (o 1) (⟨(o 2).val, h0⟩ : Fin 256))
    else if h1 : (o 2).val < 512 then
      PB v0 (B6 X2 (o 0)) (B10 X2 (o 0)) (B64 X1 (o 0)) (ix2 (o 1) (⟨(o 2).val - 256, by omega⟩ : Fin 256))
    else
      PC v0 (B6 X2 (o 0)) (B10 X2 (o 0)) (B61 X1 (o 0)) (B64 X1 (o 0))
        (ix2 (o 1) (⟨(o 2).val - 512, by have h : (o 2).val < 768 := (o 2).isLt; omega⟩ : Fin 256))

section Bufs

variable (c : Dev nD)
  (arg1 : Memref sig .tc .vmem S4x1024x512 .f32) (arg2 : Memref sig .tc .vmem S4x128x2 .i32)
  (arg3 : Memref sig .tc .vmem S4x128x768 .f32) (v0 : IVec S256x1024 32)
  (x1 : Buf (Elt F) (arg1.view.loc (c : Thread nD τ))) (x2 : Buf (Elt F) (arg2.view.loc (c : Thread nD τ)))

/-- A trip's sequence number as an index of the block's leading axis. -/
abbrev seqOf (k : Fin k0_t1_loop.trips) : Fin 4 := ⟨k.val, lt_of_lt_of_le k.isLt k0_t1_abs.2.1⟩

/-! ### What a trip loads is the sequence's part of the blocks -/

theorem ld6_eq (k : Fin k0_t1_loop.trips) : ld6 c arg2 x2 k = B6 (arg2.view.read (Elt F) x2) (seqOf k) := by
  funext p
  show (vS arg2 k).view.read (Elt F) x2 (rS0.toLoadRect.idx p) = _
  have e : rS0.toLoadRect.idx p = ix2 (p 0) (0 : Fin 2) := by
    funext d; apply Fin.ext
    match d with
    | ⟨0, _⟩ => show 0 + 1 * (p 0).val = (p 0).val; omega
    | ⟨1, _⟩ => show 0 + 1 * (p 1).val = 0; have h : (p 1).val < 1 := (p 1).isLt; omega
  rw [e]
  exact LibSlab.slab_read (Elt F) arg2 (k0_off1 k) k.val (seqOf k).isLt (k0_off1_eq k) (k0_off1_inb k) squeezes_S1x128x2_S128x2 x2 (p 0) (0 : Fin 2)

theorem ld10_eq (k : Fin k0_t1_loop.trips) : ld10 c arg2 x2 k = B10 (arg2.view.read (Elt F) x2) (seqOf k) := by
  funext p
  show (vS arg2 k).view.read (Elt F) x2 (rS1.toLoadRect.idx p) = _
  have e : rS1.toLoadRect.idx p = ix2 (p 0) (1 : Fin 2) := by
    funext d; apply Fin.ext
    match d with
    | ⟨0, _⟩ => show 0 + 1 * (p 0).val = (p 0).val; omega
    | ⟨1, _⟩ => show 1 + 1 * (p 1).val = 1; have h : (p 1).val < 1 := (p 1).isLt; omega
  rw [e]
  exact LibSlab.slab_read (Elt F) arg2 (k0_off1 k) k.val (seqOf k).isLt (k0_off1_eq k) (k0_off1_inb k) squeezes_S1x128x2_S128x2 x2 (p 0) (1 : Fin 2)

theorem ld61_eq (k : Fin k0_t1_loop.trips) : ld61 c arg1 x1 k = B61 (arg1.view.read (Elt F) x1) (seqOf k) := by
  funext p
  show (vX arg1 k).view.read (Elt F) x1 (rX0.toLoadRect.idx p) = _
  have e : rX0.toLoadRect.idx p = ix2 (p 0) (⟨(p 1).val, by have h : (p 1).val < 256 := (p 1).isLt; omega⟩ : Fin 512) := by
    funext d; apply Fin.ext
    match d with
    | ⟨0, _⟩ => show 0 + 1 * (p 0).val = (p 0).val; omega
    | ⟨1, _⟩ => show 0 + 1 * (p 1).val = (p 1).val; omega
  rw [e]
  exact LibSlab.slab_read (Elt F) arg1 (k0_off2 k) k.val (seqOf k).isLt (k0_off2_eq k) (k0_off2_inb k) squeezes_S1x1024x512_S1024x512 x1 (p 0) _

theorem ld64_eq (k : Fin k0_t1_loop.trips) : ld64 c arg1 x1 k = B64 (arg1.view.read (Elt F) x1) (seqOf k) := by
  funext p
  show (vX arg1 k).view.read (Elt F) x1 (rX1.toLoadRect.idx p) = _
  have e : rX1.toLoadRect.idx p = ix2 (p 0) (⟨256 + (p 1).val, by have h : (p 1).val < 256 := (p 1).isLt; omega⟩ : Fin 512) := by
    funext d; apply Fin.ext
    match d with
    | ⟨0, _⟩ => show 0 + 1 * (p 0).val = (p 0).val; omega
    | ⟨1, _⟩ => show 256 + 1 * (p 1).val = 256 + (p 1).val; omega
  rw [e]
  exact LibSlab.slab_read (Elt F) arg1 (k0_off2 k) k.val (seqOf k).isLt (k0_off2_eq k) (k0_off2_inb k) squeezes_S1x1024x512_S1024x512 x1 (p 0) _

/-! ### What a trip leaves, read at an entry -/

/-- After trip `k`, an entry of sequence `k` holds `OUT` of the blocks; -/
theorem read_STEP_same (k : Fin k0_t1_loop.trips) (f : Buf (Elt F) (arg3.view.loc (c : Thread nD τ))) (s : Fin 128) (cc : Fin 768) :
    arg3.view.read (Elt F) (STEP c arg1 arg2 arg3 v0 x1 x2 k f) (ix3 (seqOf k) s cc)
      = OUT v0 (arg1.view.read (Elt F) x1) (arg2.view.read (Elt F) x2) (ix3 (seqOf k) s cc) := by
  unfold STEP
  rw [ld6_eq, ld10_eq, ld61_eq, ld64_eq]
  have hC := LibSlab.read_slab_write_cols (Elt F) arg3 (k0_off3 k) k.val (seqOf k).isLt (k0_off3_eq k) (k0_off3_inb k) squeezes_S1x128x768_S128x768 512 256 inb_S128x768_S128x256_0_512
  have hB := LibSlab.read_slab_write_cols (Elt F) arg3 (k0_off3 k) k.val (seqOf k).isLt (k0_off3_eq k) (k0_off3_inb k) squeezes_S1x128x768_S128x768 256 256 inb_S128x768_S128x256_0_256
  have hA := LibSlab.read_slab_write_cols (Elt F) arg3 (k0_off3 k) k.val (seqOf k).isLt (k0_off3_eq k) (k0_off3_inb k) squeezes_S1x128x768_S128x768 0 256 inb_S128x768_S128x256_0_0
  have hcc : cc.val < 768 := cc.isLt
  refine (hC _ _ s cc).trans ?_
  unfold OUT
  by_cases h0 : cc.val < 256
  · rw [dif_neg (by omega), dif_pos (show ((ix3 (seqOf k) s cc : S4x128x768.Idx) 2).val < 256 from h0)]
    refine (hB _ _ s cc).trans ?_
    rw [dif_neg (by omega)]
    refine (hA _ _ s cc).trans ?_
    rw [dif_pos (by omega)]
    rfl
  · by_cases h1 : cc.val < 512
    · rw [dif_neg (by omega), dif_neg (show ¬ ((ix3 (seqOf k) s cc : S4x128x768.Idx) 2).val < 256 from h0),
        dif_pos (show ((ix3 (seqOf k) s cc : S4x128x768.Idx) 2).val < 512 from h1)]
      refine (hB _ _ s cc).trans ?_
      rw [dif_pos (by omega)]
    · rw [dif_pos (by omega), dif_neg (show ¬ ((ix3 (seqOf k) s cc : S4x128x768.Idx) 2).val < 256 from h0),
        dif_neg (show ¬ ((ix3 (seqOf k) s cc : S4x128x768.Idx) 2).val < 512 from h1)]

/-- and an entry of any other sequence is as before. -/
theorem read_STEP_other (k : Fin k0_t1_loop.trips) (f : Buf (Elt F) (arg3.view.loc (c : Thread nD τ))) (nb : Fin 4)
    (hne : nb.val ≠ k.val) (s : Fin 128) (cc : Fin 768) :
    arg3.view.read (Elt F) (STEP c arg1 arg2 arg3 v0 x1 x2 k f) (ix3 nb s cc) = arg3.view.read (Elt F) f (ix3 nb s cc) := by
  unfold STEP
  have hO := fun (r : Rect S128x768) (g : arg3.view.ty.Contents (Elt F)) (w : r.shape.Idx → Elt F .f32) =>
    LibSlab.read_other_slab_write (Elt F) arg3 (k0_off3 k) k.val (seqOf k).isLt (k0_off3_eq k) (k0_off3_inb k) squeezes_S1x128x768_S128x768 r g w Finset.univ nb hne s cc
  exact (hO rO2 _ _).trans ((hO rO1 _ _).trans (hO rO0 _ _))

/-- After `n` trips every entry of the first `n` sequences holds `OUT` of the blocks. -/
theorem read_ACC (f₀ : Buf (Elt F) (arg3.view.loc (c : Thread nD τ))) :
    ∀ n, n ≤ k0_t1_loop.trips → ∀ (nb : Fin 4) (s : Fin 128) (cc : Fin 768), nb.val < n →
      arg3.view.read (Elt F) (ACC c arg1 arg2 arg3 v0 x1 x2 f₀ n) (ix3 nb s cc)
        = OUT v0 (arg1.view.read (Elt F) x1) (arg2.view.read (Elt F) x2) (ix3 nb s cc)
  | 0, _, nb, _, _, h => absurd h (Nat.not_lt_zero _)
  | n + 1, hn, nb, s, cc, h => by
    have hk : n < k0_t1_loop.trips := hn
    have e := ACC_succ c arg1 arg2 arg3 v0 x1 x2 f₀ ⟨n, hk⟩
    rw [show (⟨n, hk⟩ : Fin k0_t1_loop.trips).val + 1 = n + 1 from rfl] at e
    rw [e]
    by_cases hnb : nb.val = n
    · have e2 : nb = seqOf ⟨n, hk⟩ := Fin.ext hnb
      rw [e2]
      exact read_STEP_same c arg1 arg2 arg3 v0 x1 x2 ⟨n, hk⟩ _ s cc
    · rw [read_STEP_other c arg1 arg2 arg3 v0 x1 x2 ⟨n, hk⟩ _ nb hnb s cc]
      exact read_ACC f₀ n (Nat.le_of_succ_le hn) nb s cc (by omega)

/-- The loop's trips are exactly the block's four sequences. -/
theorem trips_eq : k0_t1_loop.trips = 4 := by decide +kernel

/-- After the loop the output block reads as `OUT` of the input blocks, whatever it held before. -/
theorem read_ACC_all (f₀ : Buf (Elt F) (arg3.view.loc (c : Thread nD τ))) :
    arg3.view.read (Elt F) (ACC c arg1 arg2 arg3 v0 x1 x2 f₀ k0_t1_loop.trips)
      = OUT v0 (arg1.view.read (Elt F) x1) (arg2.view.read (Elt F) x2) := by
  funext o
  rw [eq_ix3 o]
  exact read_ACC c arg1 arg2 arg3 v0 x1 x2 f₀ _ le_rfl (o 0) (o 1) (o 2) (by rw [trips_eq]; exact (o 0).isLt)

end Bufs

/-! ## The body's triple -/

/-- The kernel's position index: entry `(r, t)` is `t`; the selection matrices are compared against it. -/
abbrev posIdx : IVec S256x1024 32 := iota .tc S256x1024 32 [1] iota_S256x1024_d1_w32

/-- The kernel body on whole staging memrefs — the inputs' at read contents `X1`, `X2`, the output's at anything —
    runs to the continuation holding the inputs' as they were and the output's at `OUT` of the inputs: the loop by
    its invariant (`loopInv`), its exit read back by `read_ACC_all`. -/
theorem sound_kernel (c : Dev nD) (i : grid0.Coords) (arg1 : Memref sig .tc .vmem S4x1024x512 .f32) (harg1 : arg1.IsWhole)
    (arg2 : Memref sig .tc .vmem S4x128x2 .i32) (harg2 : arg2.IsWhole) (arg3 : Memref sig .tc .vmem S4x128x768 .f32) (harg3 : arg3.IsWhole)
    (X1 : Vec F S4x1024x512 .f32) (X2 : Vec F S4x128x2 .i32) (K : PUnit → sProp 𝕄) :
    iprop(owns (c : Thread nD τ) arg1 fullShare X1 ∗ owns (c : Thread nD τ) arg2 fullShare X2 ∗ (∃ d, owns (c : Thread nD τ) arg3 fullShare d)
        ∗ (iprop(owns (c : Thread nD τ) arg1 fullShare X1 ∗ owns (c : Thread nD τ) arg2 fullShare X2
            ∗ owns (c : Thread nD τ) arg3 fullShare (OUT posIdx X1 X2)) -∗ K ⟨⟩))
      ⊢ wp frame (wpE (defs₀ (F := F)) 𝒱₀ c none) Set.univ (cc0__kernel i arg1 harg1 arg2 harg2 arg3 harg3) K := by
  simp only [cc0__kernel_eq_skeleton]; unfold cc0__kernel_skel
  unfold owns
  rw [harg3.set_eq_univ]
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact read_ACC_all c arg1 arg2 arg3 posIdx f1 f2 f3

/-! ## The pipeline's proof data -/

variable (m : (ℓ : Loc nD τ sig) → Buf (Elt F) ℓ) (ρ : Dev nD → PrngReg)

/-- The proof data of the one pipeline on core `c`: the arrays as the region finds them; after the body at point `t`
    each input's buffer at its block and the output's at `OUT` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => OUT posIdx (iblk m c 0 t) (iblk m c 1 t)
  Φ _ := ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = OUT posIdx (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the pipeline's invariant
    and the core's dues pass through untouched. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The run and the frame -/

set_option backward.isDefEq.respectTransparency.types false in
/-- From any memory with zero counters, every weakly fair execution of the program terminates, and every final state
    has every array of the pipeline at what the library computes from the proof data and every other buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- THE FRAME: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.K

end
-- ==== Proof.KI.Pay.lean ====
/-
  One trip of the kernel's loop over the four sequences of a block, as pure functions of what the trip loads:
  the two columns of the span table (`v6`: first positions, `v10`: last positions) and the two halves of the
  sequence's hidden states (`v61`: forward channels, `v64`: backward channels). `v0` is the position index
  the selection matrices are compared against. The trip stores `PA` into channels 0–255 of the sequence's
  output rows, `PB` into channels 256–511 and `PC` into channels 512–767.
-/
import proofs.«406866_j23502061044278_3_alg».proof.Proof.Gen.KernelIdeal.Skeleton

noncomputable section

namespace Cert.Proof.KI

open Cert.KernelIdeal Cert.KernelIdeal.Gen
open Idealize.ShloMosaic

variable {F : FTy → Type} [FloatOps F]

/-- The padding mask of the 128 spans (0 for a padding span, 1 otherwise), as a column. -/
def keepCol (v6 v10 : Vec F S128x1 .i32) : FVec F S128x1 .f32 := k0_pay13 (F := F) (k0_pay7 v6) (k0_pay8 v10)

/-- Forward side: for each of the 2·128 selected positions (last positions, then clamped positions before the
    first), the selected row of the forward half. -/
def fwdSel (v0 : IVec S256x1024 32) (v6 v10 : Vec F S128x1 .i32) (v61 : Vec F S1024x256 .f32) : FVec F S256x256 .f32 :=
  k0_pay15 (k0_pay9 v0 v6 v10) v61

/-- Backward side, before its three column groups are summed. -/
def bwdSel3 (v0 : IVec S256x1024 32) (v6 v10 : Vec F S128x1 .i32) (v64 : Vec F S1024x256 .f32) : FVec F S256x768 .f32 :=
  k0_pay14 (k0_pay10 v0 v6 v10) v64

/-- Channels 0–255: forward state at the last position minus the forward state before the first, masked. -/
def PA (v0 : IVec S256x1024 32) (v6 v10 : Vec F S128x1 .i32) (v61 : Vec F S1024x256 .f32) : FVec F S128x256 .f32 :=
  k0_pay4 (k0_pay11 v6) (keepCol v6 v10) (fwdSel v0 v6 v10 v61)

/-- Channels 256–511: backward state at the first position minus the backward state after the last, masked. -/
def PB (v0 : IVec S256x1024 32) (v6 v10 : Vec F S128x1 .i32) (v64 : Vec F S1024x256 .f32) : FVec F S128x256 .f32 :=
  k0_pay5 (k0_pay12 (F := F) (k0_pay8 v10) 1#32) (keepCol v6 v10) (bwdSel3 v0 v6 v10 v64)

/-- Channels 512–767: forward state before the first position minus backward state after the last, masked. -/
def PC (v0 : IVec S256x1024 32) (v6 v10 : Vec F S128x1 .i32) (v61 v64 : Vec F S1024x256 .f32) : FVec F S128x256 .f32 :=
  k0_pay6 (k0_pay11 v6) (k0_pay12 (F := F) (k0_pay8 v10) 1#32) (keepCol v6 v10) (bwdSel3 v0 v6 v10 v64) (fwdSel v0 v6 v10 v61)

end Cert.Proof.KI

end
-- ==== Proof.KI.Loop.lean ====
/-
  The kernel's loop over the four sequences of a block, by its invariant: one run of the loop's region at a
  symbolic sequence number `k`, and the contents of the output block after `k` trips.

  Trip `k` reads, through views of sequence `k`'s slab of each staging buffer, the two columns of the span table
  and the two halves of the hidden states, and writes into sequence `k`'s slab of the output block three column
  groups: channels 0–255, 256–511 and 512–767, each a pure function (`PA`, `PB`, `PC`) of what it read. Nothing
  else of the output block changes, and the inputs' buffers are only read.
-/
import proofs.«406866_j23502061044278_3_alg».proof.Proof.Gen.KernelIdeal.Loops
import proofs.«406866_j23502061044278_3_alg».proof.Proof.Gen.KernelIdeal.Launch
import proofs.«406866_j23502061044278_3_alg».proof.Proof.KI.Pay
import Idealize.ShloMosaic.Lib.Tactic

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra the invariant is stated at. -/
abbrev UU (nD : Nat) (τ : Topo) : Type := UR sig nD τ
abbrev 𝒱₀ : Variants := Variants.none
local notation "𝕄" => MT nD τ sig Unit (Elt F) ℕ (UU nD τ) ℕ

/-! ## The rectangles a trip goes through -/

/-- Column 0 and column 1 of a sequence's span table. -/
abbrev rS0 : Rect S128x2 := Rect.unit (s := S128x2) ![0, 0] S128x1.size inb_S128x2_S128x1_0_0
abbrev rS1 : Rect S128x2 := Rect.unit (s := S128x2) ![0, 1] S128x1.size inb_S128x2_S128x1_0_1
/-- The forward and the backward half of a sequence's hidden states. -/
abbrev rX0 : Rect S1024x512 := Rect.unit (s := S1024x512) ![0, 0] S1024x256.size inb_S1024x512_S1024x256_0_0
abbrev rX1 : Rect S1024x512 := Rect.unit (s := S1024x512) ![0, 256] S1024x256.size inb_S1024x512_S1024x256_0_256
/-- The three column groups of a sequence's output rows. -/
abbrev rO0 : Rect S128x768 := Rect.unit (s := S128x768) ![0, 0] S128x256.size inb_S128x768_S128x256_0_0
abbrev rO1 : Rect S128x768 := Rect.unit (s := S128x768) ![0, 256] S128x256.size inb_S128x768_S128x256_0_256
abbrev rO2 : Rect S128x768 := Rect.unit (s := S128x768) ![0, 512] S128x256.size inb_S128x768_S128x256_0_512

section Trips

variable (c : Dev nD) (i : grid0.Coords)
  (arg1 : Memref sig .tc .vmem S4x1024x512 .f32) (harg1 : arg1.IsWhole)
  (arg2 : Memref sig .tc .vmem S4x128x2 .i32) (harg2 : arg2.IsWhole)
  (arg3 : Memref sig .tc .vmem S4x128x768 .f32) (harg3 : arg3.IsWhole)
  (v0 : IVec S256x1024 32)
  (x1 : Buf (Elt F) (arg1.view.loc (c : Thread nD τ)))
  (x2 : Buf (Elt F) (arg2.view.loc (c : Thread nD τ)))

/-- Sequence `k`'s slab of each staging buffer, as the region addresses it: the slice at `k`, its unit axis dropped. -/
abbrev vS (k : Fin k0_t1_loop.trips) : Memref sig .tc .vmem S128x2 .i32 :=
  (arg2.slice (Rect.unit (s := S4x128x2) (k0_off1 k) S1x128x2.size (k0_off1_inb k)) (fun _ => rfl)).squeeze S128x2 squeezes_S1x128x2_S128x2
abbrev vX (k : Fin k0_t1_loop.trips) : Memref sig .tc .vmem S1024x512 .f32 :=
  (arg1.slice (Rect.unit (s := S4x1024x512) (k0_off2 k) S1x1024x512.size (k0_off2_inb k)) (fun _ => rfl)).squeeze S1024x512 squeezes_S1x1024x512_S1024x512
abbrev vO (k : Fin k0_t1_loop.trips) : Memref sig .tc .vmem S128x768 .f32 :=
  (arg3.slice (Rect.unit (s := S4x128x768) (k0_off3 k) S1x128x768.size (k0_off3_inb k)) (fun _ => rfl)).squeeze S128x768 squeezes_S1x128x768_S128x768

/-- What trip `k` loads: the first and the last positions of the sequence's spans, and the two halves of its states. -/
def ld6 (k : Fin k0_t1_loop.trips) : Vec F S128x1 .i32 := View.readAt (Elt F) (vS arg2 k).view rS0.toLoadRect x2
def ld10 (k : Fin k0_t1_loop.trips) : Vec F S128x1 .i32 := View.readAt (Elt F) (vS arg2 k).view rS1.toLoadRect x2
def ld61 (k : Fin k0_t1_loop.trips) : Vec F S1024x256 .f32 := View.readAt (Elt F) (vX arg1 k).view rX0.toLoadRect x1
def ld64 (k : Fin k0_t1_loop.trips) : Vec F S1024x256 .f32 := View.readAt (Elt F) (vX arg1 k).view rX1.toLoadRect x1

/-- What a trip holds at its entry and at its exit: the inputs' buffers at their contents, the output block whole at `f`. -/
abbrev TRIP (f : Buf (Elt F) (arg3.view.loc (c : Thread nD τ))) : sProp 𝕄 :=
  iprop((arg1.view.loc (c : Thread nD τ) ↦[arg1.view.set]{fullShare} x1)
    ∗ (arg2.view.loc (c : Thread nD τ) ↦[arg2.view.set]{fullShare} x2)
    ∗ (arg3.view.loc (c : Thread nD τ) ↦[Finset.univ]{fullShare} f))

/-- What trip `k` leaves in the output block over its prior contents `f`: the three column groups of sequence `k`'s rows. -/
def STEP (k : Fin k0_t1_loop.trips) (f : Buf (Elt F) (arg3.view.loc (c : Thread nD τ))) : Buf (Elt F) (arg3.view.loc (c : Thread nD τ)) :=
  View.write (Elt F) ((vO arg3 k).access rO2)
    (View.write (Elt F) ((vO arg3 k).access rO1)
      (View.write (Elt F) ((vO arg3 k).access rO0) f
        (PA v0 (ld6 c arg2 x2 k) (ld10 c arg2 x2 k) (ld61 c arg1 x1 k)) Finset.univ)
      (PB v0 (ld6 c arg2 x2 k) (ld10 c arg2 x2 k) (ld64 c arg1 x1 k)) Finset.univ)
    (PC v0 (ld6 c arg2 x2 k) (ld10 c arg2 x2 k) (ld61 c arg1 x1 k) (ld64 c arg1 x1 k)) Finset.univ

/-- THE TRIP, run once at a symbolic sequence number. -/
theorem trip (k : Fin k0_t1_loop.trips) (f : Buf (Elt F) (arg3.view.loc (c : Thread nD τ))) :
    TRIP c arg1 arg2 arg3 x1 x2 f
      ⊢ wp frame (wpE (defs₀ (F := F)) 𝒱₀ c none) Set.univ
          (k0_t1_body i arg1 harg1 arg2 harg2 arg3 harg3 v0 k PUnit.unit)
          (fun _ => TRIP c arg1 arg2 arg3 x1 x2 (STEP c arg1 arg2 arg3 v0 x1 x2 k f)) := by
  unfold k0_t1_body STEP PA PB PC keepCol fwdSel bwdSel3 ld6 ld10 ld61 ld64
  iintro ⟨H1, H2, H3⟩
  sl_exec
  sl_step
  sl_close

/-- The output block after `n` trips from its contents `f₀` at the loop's entry. -/
def ACC (f₀ : Buf (Elt F) (arg3.view.loc (c : Thread nD τ))) : ℕ → Buf (Elt F) (arg3.view.loc (c : Thread nD τ))
  | 0 => f₀
  | n + 1 => if h : n < k0_t1_loop.trips then STEP c arg1 arg2 arg3 v0 x1 x2 ⟨n, h⟩ (ACC f₀ n) else ACC f₀ n

theorem ACC_succ (f₀ : Buf (Elt F) (arg3.view.loc (c : Thread nD τ))) (k : Fin k0_t1_loop.trips) :
    ACC c arg1 arg2 arg3 v0 x1 x2 f₀ (k.val + 1) = STEP c arg1 arg2 arg3 v0 x1 x2 k (ACC c arg1 arg2 arg3 v0 x1 x2 f₀ k.val) := by
  rw [ACC.eq_2]; exact dif_pos k.isLt

set_option warn.classDefReducibility false in
/-- THE LOOP BY ITS INVARIANT: before trip `k` the output block holds `ACC f₀ k`, and one trip takes it to `ACC f₀ (k + 1)`. -/
@[sl_loop] def loopInv (f₀ : Buf (Elt F) (arg3.view.loc (c : Thread nD τ))) :
    Gen.LoopInvTy_k0_t1 (F := F) Unit ℕ (UU nD τ) ℕ 𝒱₀ c none Set.univ i arg1 harg1 arg2 harg2 arg3 harg3 v0 where
  inv k _ := TRIP c arg1 arg2 arg3 x1 x2 (ACC c arg1 arg2 arg3 v0 x1 x2 f₀ k)
  step k acc := by
    rw [ACC_succ]
    exact trip c i arg1 harg1 arg2 harg2 arg3 harg3 v0 x1 x2 k _

end Trips

end Cert.Proof.KI

end
-- ==== Proof.KI.Body.lean ====
/-
  The body of the kernel at a grid point, the pipeline's proof data, and the run.

  A grid point handles a block of four sequences. The body's loop walks the four sequences; trip `k` writes
  sequence `k`'s rows of the output block from sequence `k`'s span table and hidden states (`Proof/KI/Loop.lean`).
  After the four trips every entry of the output block has been written exactly once, so the block is ONE function
  `OUT` of the two input blocks, whatever the output's staging buffer held before:

      OUT X1 X2 (nb, s, c) = PA / PB / PC (of sequence nb's loads) at (s, c − 0 / 256 / 512)   by the column group of c.

  The inputs' buffers are only read. With `OUT` as the output window's contents after the body, the pipeline's
  frame run gives the program's run: it terminates, nothing faults, the argument arrays are unchanged, and the result
  array is, block by block, `OUT` of the arguments' blocks.
-/
import proofs.«406866_j23502061044278_3_alg».proof.Proof.KI.Loop
import proofs.«406866_j23502061044278_3_alg».proof.Proof.Gen.KernelIdeal.Frame
import proofs.«406866_j23502061044278_3_alg».proof.Proof.LibSlab
import Idealize.ShloMosaic.Lib.Pipeline.Value

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UU nD τ) ℕ

/-! ## A sequence's loads, as functions of the input blocks -/

/-- The first positions of sequence `nb`'s spans, as a column. -/
def B6 (X2 : Vec F S4x128x2 .i32) (nb : Fin 4) : Vec F S128x1 .i32 := fun p => X2 (ix3 nb (p 0) (0 : Fin 2))
/-- The last positions. -/
def B10 (X2 : Vec F S4x128x2 .i32) (nb : Fin 4) : Vec F S128x1 .i32 := fun p => X2 (ix3 nb (p 0) (1 : Fin 2))
/-- The forward half of sequence `nb`'s hidden states. -/
def B61 (X1 : Vec F S4x1024x512 .f32) (nb : Fin 4) : Vec F S1024x256 .f32 :=
  fun p => X1 (ix3 nb (p 0) (⟨(p 1).val, by have h : (p 1).val < 256 := (p 1).isLt; omega⟩ : Fin 512))
/-- The backward half. -/
def B64 (X1 : Vec F S4x1024x512 .f32) (nb : Fin 4) : Vec F S1024x256 .f32 :=
  fun p => X1 (ix3 nb (p 0) (⟨256 + (p 1).val, by have h : (p 1).val < 256 := (p 1).isLt; omega⟩ : Fin 512))

/-- What the body leaves in the output block: entry `(nb, s, c)` is sequence `nb`'s value for span `s` in the
    column group of `c`. -/
def OUT (v0 : IVec S256x1024 32) (X1 : Vec F S4x1024x512 .f32) (X2 : Vec F S4x128x2 .i32) : FVec F S4x128x768 .f32 :=
  fun o =>
    if h0 : (o 2).val < 256 then
      PA v0 (B6 X2 (o 0)) (B10 X2 (o 0)) (B61 X1 (o 0)) (ix2 (o 1) (⟨(o 2).val, h0⟩ : Fin 256))
    else if h1 : (o 2).val < 512 then
      PB v0 (B6 X2 (o 0)) (B10 X2 (o 0)) (B64 X1 (o 0)) (ix2 (o 1) (⟨(o 2).val - 256, by omega⟩ : Fin 256))
    else
      PC v0 (B6 X2 (o 0)) (B10 X2 (o 0)) (B61 X1 (o 0)) (B64 X1 (o 0))
        (ix2 (o 1) (⟨(o 2).val - 512, by have h : (o 2).val < 768 := (o 2).isLt; omega⟩ : Fin 256))

section Bufs

variable (c : Dev nD)
  (arg1 : Memref sig .tc .vmem S4x1024x512 .f32) (arg2 : Memref sig .tc .vmem S4x128x2 .i32)
  (arg3 : Memref sig .tc .vmem S4x128x768 .f32) (v0 : IVec S256x1024 32)
  (x1 : Buf (Elt F) (arg1.view.loc (c : Thread nD τ))) (x2 : Buf (Elt F) (arg2.view.loc (c : Thread nD τ)))

/-- A trip's sequence number as an index of the block's leading axis. -/
abbrev seqOf (k : Fin k0_t1_loop.trips) : Fin 4 := ⟨k.val, lt_of_lt_of_le k.isLt k0_t1_abs.2.1⟩

/-! ### What a trip loads is the sequence's part of the blocks -/

theorem ld6_eq (k : Fin k0_t1_loop.trips) : ld6 c arg2 x2 k = B6 (arg2.view.read (Elt F) x2) (seqOf k) := by
  funext p
  show (vS arg2 k).view.read (Elt F) x2 (rS0.toLoadRect.idx p) = _
  have e : rS0.toLoadRect.idx p = ix2 (p 0) (0 : Fin 2) := by
    funext d; apply Fin.ext
    match d with
    | ⟨0, _⟩ => show 0 + 1 * (p 0).val = (p 0).val; omega
    | ⟨1, _⟩ => show 0 + 1 * (p 1).val = 0; have h : (p 1).val < 1 := (p 1).isLt; omega
  rw [e]
  exact LibSlab.slab_read (Elt F) arg2 (k0_off1 k) k.val (seqOf k).isLt (k0_off1_eq k) (k0_off1_inb k) squeezes_S1x128x2_S128x2 x2 (p 0) (0 : Fin 2)

theorem ld10_eq (k : Fin k0_t1_loop.trips) : ld10 c arg2 x2 k = B10 (arg2.view.read (Elt F) x2) (seqOf k) := by
  funext p
  show (vS arg2 k).view.read (Elt F) x2 (rS1.toLoadRect.idx p) = _
  have e : rS1.toLoadRect.idx p = ix2 (p 0) (1 : Fin 2) := by
    funext d; apply Fin.ext
    match d with
    | ⟨0, _⟩ => show 0 + 1 * (p 0).val = (p 0).val; omega
    | ⟨1, _⟩ => show 1 + 1 * (p 1).val = 1; have h : (p 1).val < 1 := (p 1).isLt; omega
  rw [e]
  exact LibSlab.slab_read (Elt F) arg2 (k0_off1 k) k.val (seqOf k).isLt (k0_off1_eq k) (k0_off1_inb k) squeezes_S1x128x2_S128x2 x2 (p 0) (1 : Fin 2)

theorem ld61_eq (k : Fin k0_t1_loop.trips) : ld61 c arg1 x1 k = B61 (arg1.view.read (Elt F) x1) (seqOf k) := by
  funext p
  show (vX arg1 k).view.read (Elt F) x1 (rX0.toLoadRect.idx p) = _
  have e : rX0.toLoadRect.idx p = ix2 (p 0) (⟨(p 1).val, by have h : (p 1).val < 256 := (p 1).isLt; omega⟩ : Fin 512) := by
    funext d; apply Fin.ext
    match d with
    | ⟨0, _⟩ => show 0 + 1 * (p 0).val = (p 0).val; omega
    | ⟨1, _⟩ => show 0 + 1 * (p 1).val = (p 1).val; omega
  rw [e]
  exact LibSlab.slab_read (Elt F) arg1 (k0_off2 k) k.val (seqOf k).isLt (k0_off2_eq k) (k0_off2_inb k) squeezes_S1x1024x512_S1024x512 x1 (p 0) _

theorem ld64_eq (k : Fin k0_t1_loop.trips) : ld64 c arg1 x1 k = B64 (arg1.view.read (Elt F) x1) (seqOf k) := by
  funext p
  show (vX arg1 k).view.read (Elt F) x1 (rX1.toLoadRect.idx p) = _
  have e : rX1.toLoadRect.idx p = ix2 (p 0) (⟨256 + (p 1).val, by have h : (p 1).val < 256 := (p 1).isLt; omega⟩ : Fin 512) := by
    funext d; apply Fin.ext
    match d with
    | ⟨0, _⟩ => show 0 + 1 * (p 0).val = (p 0).val; omega
    | ⟨1, _⟩ => show 256 + 1 * (p 1).val = 256 + (p 1).val; omega
  rw [e]
  exact LibSlab.slab_read (Elt F) arg1 (k0_off2 k) k.val (seqOf k).isLt (k0_off2_eq k) (k0_off2_inb k) squeezes_S1x1024x512_S1024x512 x1 (p 0) _

/-! ### What a trip leaves, read at an entry -/

/-- After trip `k`, an entry of sequence `k` holds `OUT` of the blocks; -/
theorem read_STEP_same (k : Fin k0_t1_loop.trips) (f : Buf (Elt F) (arg3.view.loc (c : Thread nD τ))) (s : Fin 128) (cc : Fin 768) :
    arg3.view.read (Elt F) (STEP c arg1 arg2 arg3 v0 x1 x2 k f) (ix3 (seqOf k) s cc)
      = OUT v0 (arg1.view.read (Elt F) x1) (arg2.view.read (Elt F) x2) (ix3 (seqOf k) s cc) := by
  unfold STEP
  rw [ld6_eq, ld10_eq, ld61_eq, ld64_eq]
  have hC := LibSlab.read_slab_write_cols (Elt F) arg3 (k0_off3 k) k.val (seqOf k).isLt (k0_off3_eq k) (k0_off3_inb k) squeezes_S1x128x768_S128x768 512 256 inb_S128x768_S128x256_0_512
  have hB := LibSlab.read_slab_write_cols (Elt F) arg3 (k0_off3 k) k.val (seqOf k).isLt (k0_off3_eq k) (k0_off3_inb k) squeezes_S1x128x768_S128x768 256 256 inb_S128x768_S128x256_0_256
  have hA := LibSlab.read_slab_write_cols (Elt F) arg3 (k0_off3 k) k.val (seqOf k).isLt (k0_off3_eq k) (k0_off3_inb k) squeezes_S1x128x768_S128x768 0 256 inb_S128x768_S128x256_0_0
  have hcc : cc.val < 768 := cc.isLt
  refine (hC _ _ s cc).trans ?_
  unfold OUT
  by_cases h0 : cc.val < 256
  · rw [dif_neg (by omega), dif_pos (show ((ix3 (seqOf k) s cc : S4x128x768.Idx) 2).val < 256 from h0)]
    refine (hB _ _ s cc).trans ?_
    rw [dif_neg (by omega)]
    refine (hA _ _ s cc).trans ?_
    rw [dif_pos (by omega)]
    rfl
  · by_cases h1 : cc.val < 512
    · rw [dif_neg (by omega), dif_neg (show ¬ ((ix3 (seqOf k) s cc : S4x128x768.Idx) 2).val < 256 from h0),
        dif_pos (show ((ix3 (seqOf k) s cc : S4x128x768.Idx) 2).val < 512 from h1)]
      refine (hB _ _ s cc).trans ?_
      rw [dif_pos (by omega)]
    · rw [dif_pos (by omega), dif_neg (show ¬ ((ix3 (seqOf k) s cc : S4x128x768.Idx) 2).val < 256 from h0),
        dif_neg (show ¬ ((ix3 (seqOf k) s cc : S4x128x768.Idx) 2).val < 512 from h1)]

/-- and an entry of any other sequence is as before. -/
theorem read_STEP_other (k : Fin k0_t1_loop.trips) (f : Buf (Elt F) (arg3.view.loc (c : Thread nD τ))) (nb : Fin 4)
    (hne : nb.val ≠ k.val) (s : Fin 128) (cc : Fin 768) :
    arg3.view.read (Elt F) (STEP c arg1 arg2 arg3 v0 x1 x2 k f) (ix3 nb s cc) = arg3.view.read (Elt F) f (ix3 nb s cc) := by
  unfold STEP
  have hO := fun (r : Rect S128x768) (g : arg3.view.ty.Contents (Elt F)) (w : r.shape.Idx → Elt F .f32) =>
    LibSlab.read_other_slab_write (Elt F) arg3 (k0_off3 k) k.val (seqOf k).isLt (k0_off3_eq k) (k0_off3_inb k) squeezes_S1x128x768_S128x768 r g w Finset.univ nb hne s cc
  exact (hO rO2 _ _).trans ((hO rO1 _ _).trans (hO rO0 _ _))

/-- After `n` trips every entry of the first `n` sequences holds `OUT` of the blocks. -/
theorem read_ACC (f₀ : Buf (Elt F) (arg3.view.loc (c : Thread nD τ))) :
    ∀ n, n ≤ k0_t1_loop.trips → ∀ (nb : Fin 4) (s : Fin 128) (cc : Fin 768), nb.val < n →
      arg3.view.read (Elt F) (ACC c arg1 arg2 arg3 v0 x1 x2 f₀ n) (ix3 nb s cc)
        = OUT v0 (arg1.view.read (Elt F) x1) (arg2.view.read (Elt F) x2) (ix3 nb s cc)
  | 0, _, nb, _, _, h => absurd h (Nat.not_lt_zero _)
  | n + 1, hn, nb, s, cc, h => by
    have hk : n < k0_t1_loop.trips := hn
    have e := ACC_succ c arg1 arg2 arg3 v0 x1 x2 f₀ ⟨n, hk⟩
    rw [show (⟨n, hk⟩ : Fin k0_t1_loop.trips).val + 1 = n + 1 from rfl] at e
    rw [e]
    by_cases hnb : nb.val = n
    · have e2 : nb = seqOf ⟨n, hk⟩ := Fin.ext hnb
      rw [e2]
      exact read_STEP_same c arg1 arg2 arg3 v0 x1 x2 ⟨n, hk⟩ _ s cc
    · rw [read_STEP_other c arg1 arg2 arg3 v0 x1 x2 ⟨n, hk⟩ _ nb hnb s cc]
      exact read_ACC f₀ n (Nat.le_of_succ_le hn) nb s cc (by omega)

/-- The loop's trips are exactly the block's four sequences. -/
theorem trips_eq : k0_t1_loop.trips = 4 := by decide +kernel

/-- After the loop the output block reads as `OUT` of the input blocks, whatever it held before. -/
theorem read_ACC_all (f₀ : Buf (Elt F) (arg3.view.loc (c : Thread nD τ))) :
    arg3.view.read (Elt F) (ACC c arg1 arg2 arg3 v0 x1 x2 f₀ k0_t1_loop.trips)
      = OUT v0 (arg1.view.read (Elt F) x1) (arg2.view.read (Elt F) x2) := by
  funext o
  rw [eq_ix3 o]
  exact read_ACC c arg1 arg2 arg3 v0 x1 x2 f₀ _ le_rfl (o 0) (o 1) (o 2) (by rw [trips_eq]; exact (o 0).isLt)

end Bufs

/-! ## The body's triple -/

/-- The kernel's position index: entry `(r, t)` is `t`; the selection matrices are compared against it. -/
abbrev posIdx : IVec S256x1024 32 := iota .tc S256x1024 32 [1] iota_S256x1024_d1_w32

/-- The kernel body on whole staging memrefs — the inputs' at read contents `X1`, `X2`, the output's at anything —
    runs to the continuation holding the inputs' as they were and the output's at `OUT` of the inputs: the loop by
    its invariant (`loopInv`), its exit read back by `read_ACC_all`. -/
theorem sound_kernel (c : Dev nD) (i : grid0.Coords) (arg1 : Memref sig .tc .vmem S4x1024x512 .f32) (harg1 : arg1.IsWhole)
    (arg2 : Memref sig .tc .vmem S4x128x2 .i32) (harg2 : arg2.IsWhole) (arg3 : Memref sig .tc .vmem S4x128x768 .f32) (harg3 : arg3.IsWhole)
    (X1 : Vec F S4x1024x512 .f32) (X2 : Vec F S4x128x2 .i32) (K : PUnit → sProp 𝕄) :
    iprop(owns (c : Thread nD τ) arg1 fullShare X1 ∗ owns (c : Thread nD τ) arg2 fullShare X2 ∗ (∃ d, owns (c : Thread nD τ) arg3 fullShare d)
        ∗ (iprop(owns (c : Thread nD τ) arg1 fullShare X1 ∗ owns (c : Thread nD τ) arg2 fullShare X2
            ∗ owns (c : Thread nD τ) arg3 fullShare (OUT posIdx X1 X2)) -∗ K ⟨⟩))
      ⊢ wp frame (wpE (defs₀ (F := F)) 𝒱₀ c none) Set.univ (cc0__kernel i arg1 harg1 arg2 harg2 arg3 harg3) K := by
  simp only [cc0__kernel_eq_skeleton]; unfold cc0__kernel_skel
  unfold owns
  rw [harg3.set_eq_univ]
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact read_ACC_all c arg1 arg2 arg3 posIdx f1 f2 f3

/-! ## The pipeline's proof data -/

variable (m : (ℓ : Loc nD τ sig) → Buf (Elt F) ℓ) (ρ : Dev nD → PrngReg)

/-- The proof data of the one pipeline on core `c`: the arrays as the region finds them; after the body at point `t`
    each input's buffer at its block and the output's at `OUT` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => OUT posIdx (iblk m c 0 t) (iblk m c 1 t)
  Φ _ := ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = OUT posIdx (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the pipeline's invariant
    and the core's dues pass through untouched. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The run and the frame -/

set_option backward.isDefEq.respectTransparency.types false in
/-- From any memory with zero counters, every weakly fair execution of the program terminates, and every final state
    has every array of the pipeline at what the library computes from the proof data and every other buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- THE FRAME: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Proof.KI

end
-- ==== Proof.KI.Final.lean ====
/-
  The result array after the run, as ONE function of the two argument arrays.

  The grid's 16 points each handle a block of four consecutive sequences: point `t` reads block `t` of both
  arguments and writes back block `t` of the result. The blocks tile the arrays, and what a point writes back is
  its block of the whole-array function

      KOUT A0 A1 (B, s, c) = PA / PB / PC (of sequence B's rows of A0 and A1) at (s, c − 0 / 256 / 512),

  because sequence `4 t + nb` of an array is sequence `nb` of its block `t`. So the result array ends at `KOUT`
  of the arguments as launched.
-/
import proofs.«406866_j23502061044278_3_alg».proof.Proof.KI.Body

noncomputable section

namespace Cert.Proof.KI

open Cert.KernelIdeal Cert.KernelIdeal.Gen
open Idealize.ShloMosaic Idealize.ShloMosaic.ValueIdx
open Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## A sequence's rows of the whole arrays -/

def W6 (A1 : Vec F S64x128x2 .i32) (B : Fin 64) : Vec F S128x1 .i32 := fun p => A1 (ix3 B (p 0) (0 : Fin 2))
def W10 (A1 : Vec F S64x128x2 .i32) (B : Fin 64) : Vec F S128x1 .i32 := fun p => A1 (ix3 B (p 0) (1 : Fin 2))
def W61 (A0 : Vec F S64x1024x512 .f32) (B : Fin 64) : Vec F S1024x256 .f32 :=
  fun p => A0 (ix3 B (p 0) (⟨(p 1).val, by have h : (p 1).val < 256 := (p 1).isLt; omega⟩ : Fin 512))
def W64 (A0 : Vec F S64x1024x512 .f32) (B : Fin 64) : Vec F S1024x256 .f32 :=
  fun p => A0 (ix3 B (p 0) (⟨256 + (p 1).val, by have h : (p 1).val < 256 := (p 1).isLt; omega⟩ : Fin 512))

/-- The whole result: entry `(B, s, c)` is sequence `B`'s value for span `s` in the column group of `c`. -/
def KOUT (A0 : Vec F S64x1024x512 .f32) (A1 : Vec F S64x128x2 .i32) : FVec F S64x128x768 .f32 :=
  fun o =>
    if h0 : (o 2).val < 256 then
      PA posIdx (W6 A1 (o 0)) (W10 A1 (o 0)) (W61 A0 (o 0)) (ix2 (o 1) (⟨(o 2).val, h0⟩ : Fin 256))
    else if h1 : (o 2).val < 512 then
      PB posIdx (W6 A1 (o 0)) (W10 A1 (o 0)) (W64 A0 (o 0)) (ix2 (o 1) (⟨(o 2).val - 256, by omega⟩ : Fin 256))
    else
      PC posIdx (W6 A1 (o 0)) (W10 A1 (o 0)) (W61 A0 (o 0)) (W64 A0 (o 0))
        (ix2 (o 1) (⟨(o 2).val - 512, by have h : (o 2).val < 768 := (o 2).isLt; omega⟩ : Fin 256))

/-! ## The blocks -/

/-- The three windows move together: at point `t` each is at block `t` of its leading axis and block 0 of the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem N_eq : cfg0.N = 16 := by decide +kernel

/-- Sequence `nb` of block `t` is sequence `4 t + nb` of the array. -/
abbrev seqAt (t : Fin cfg0.N) (nb : Fin 4) : Fin 64 :=
  ⟨t.val * 4 + nb.val, by have h : t.val < 16 := Nat.lt_of_lt_of_eq t.isLt N_eq; have h' := nb.isLt; omega⟩

/-- Block `t` of the first argument, entry by entry. -/
theorem iblk0_apply (c : Dev nD) (t : Fin cfg0.N) (nb : Fin 4) (r : Fin 1024) (h : Fin 512) :
    (iblk m c 0 t : Vec F S4x1024x512 .f32) (ix3 nb r h) = (V m c main_arg0 : Vec F S64x1024x512 .f32) (ix3 (seqAt t nb) r h) := by
  obtain ⟨e0, e1, e2, -⟩ := idx_facts t
  show V m c main_arg0 (((cfg0.win 0).blk t).view.emb (ix3 nb r h)) = _
  congr 1
  funext a; apply Fin.ext
  match a with
  | ⟨0, _⟩ => show win0_0.index t (0 : Fin 3) * 4 + 1 * nb.val = t.val * 4 + nb.val; omega
  | ⟨1, _⟩ => show win0_0.index t (1 : Fin 3) * 1024 + 1 * r.val = r.val; omega
  | ⟨2, _⟩ => show win0_0.index t (2 : Fin 3) * 512 + 1 * h.val = h.val; omega

/-- Block `t` of the second argument, entry by entry. -/
theorem iblk1_apply (c : Dev nD) (t : Fin cfg0.N) (nb : Fin 4) (s : Fin 128) (j : Fin 2) :
    (iblk m c 1 t : Vec F S4x128x2 .i32) (ix3 nb s j) = (V m c main_arg1 : Vec F S64x128x2 .i32) (ix3 (seqAt t nb) s j) := by
  obtain ⟨-, -, -, e0, e1, e2, -⟩ := idx_facts t
  show V m c main_arg1 (((cfg0.win 1).blk t).view.emb (ix3 nb s j)) = _
  congr 1
  funext a; apply Fin.ext
  match a with
  | ⟨0, _⟩ => show win0_1.index t (0 : Fin 3) * 4 + 1 * nb.val = t.val * 4 + nb.val; omega
  | ⟨1, _⟩ => show win0_1.index t (1 : Fin 3) * 128 + 1 * s.val = s.val; omega
  | ⟨2, _⟩ => show win0_1.index t (2 : Fin 3) * 2 + 1 * j.val = j.val; omega

theorem B6_iblk (c : Dev nD) (t : Fin cfg0.N) (nb : Fin 4) : B6 (iblk m c 1 t) nb = W6 (V m c main_arg1) (seqAt t nb) :=
  funext fun p => iblk1_apply m c t nb (p 0) 0
theorem B10_iblk (c : Dev nD) (t : Fin cfg0.N) (nb : Fin 4) : B10 (iblk m c 1 t) nb = W10 (V m c main_arg1) (seqAt t nb) :=
  funext fun p => iblk1_apply m c t nb (p 0) 1
theorem B61_iblk (c : Dev nD) (t : Fin cfg0.N) (nb : Fin 4) : B61 (iblk m c 0 t) nb = W61 (V m c main_arg0) (seqAt t nb) :=
  funext fun p => iblk0_apply m c t nb (p 0) _
theorem B64_iblk (c : Dev nD) (t : Fin cfg0.N) (nb : Fin 4) : B64 (iblk m c 0 t) nb = W64 (V m c main_arg0) (seqAt t nb) :=
  funext fun p => iblk0_apply m c t nb (p 0) _

/-- WHAT POINT `t` WRITES BACK is block `t` of `KOUT` of the argument arrays as the region finds them. -/
theorem flushed_eq (c : Dev nD) (t : Fin cfg0.N) :
    (dats m 0 c).flushed 2 t = ((cfg0.win 2).blk t).view.read (Elt F) (KOUT (V m c main_arg0) (V m c main_arg1)) := by
  show (cfg0.win 2).cut (grid0.coords t) ((dats m 0 c).after 2 t) = _
  rw [after0_2]
  obtain ⟨-, -, -, -, -, -, e0, e1, e2⟩ := idx_facts t
  funext y
  obtain ⟨nb, s, cc, rfl⟩ : ∃ (nb : Fin 4) (s : Fin 128) (cc : Fin 768), y = ix3 nb s cc := ⟨y 0, y 1, y 2, eq_ix3 y⟩
  have hy : ((cfg0.win 2).blk t).view.emb (ix3 nb s cc) = (ix3 (seqAt t nb) s cc : S64x128x768.Idx) := by
    funext a; apply Fin.ext
    match a with
    | ⟨0, _⟩ => show win0_2.index t (0 : Fin 3) * 4 + 1 * nb.val = t.val * 4 + nb.val; omega
    | ⟨1, _⟩ => show win0_2.index t (1 : Fin 3) * 128 + 1 * s.val = s.val; omega
    | ⟨2, _⟩ => show win0_2.index t (2 : Fin 3) * 768 + 1 * cc.val = cc.val; omega
  show OUT posIdx (iblk m c 0 t) (iblk m c 1 t) (ix3 nb s cc) = KOUT (V m c main_arg0) (V m c main_arg1) (((cfg0.win 2).blk t).view.emb (ix3 nb s cc))
  rw [hy]
  unfold OUT KOUT
  show (if h0 : cc.val < 256 then _ else if h1 : cc.val < 512 then _ else _) = (if h0 : cc.val < 256 then _ else if h1 : cc.val < 512 then _ else _)
  rw [B6_iblk, B10_iblk, B61_iblk, B64_iblk]

/-- An index of the result array is in point `t`'s block iff each coordinate is in the block's range on its axis. -/
theorem mem_blk (t : Fin cfg0.N) (i : S64x128x768.Idx) :
    i ∈ ((cfg0.win 2).blk t).view.set ↔ ∀ a : Fin 3, win0_2.index t a * S4x128x768.size a ≤ (i a).val ∧ (i a).val < win0_2.index t a * S4x128x768.size a + S4x128x768.size a := by
  show i ∈ ((View.whole main_v0).slice (win0_2.rect t)).set ↔ _
  rw [View.set_slice_whole, Rect.mem_set_unit]
  exact Iff.rfl

/-- Every entry of the result array is in some point's block: sequence `B` belongs to point `B / 4`. -/
theorem cover (i : S64x128x768.Idx) : ∃ t : Fin cfg0.N, (cfg0.win 2).flush t = true ∧ i ∈ ((cfg0.win 2).blk t).view.set := by
  have hi0 : (i 0).val < 64 := (i 0).isLt
  have hi1 : (i 1).val < 128 := (i 1).isLt
  have hi2 : (i 2).val < 768 := (i 2).isLt
  let t : Fin cfg0.N := ⟨(i 0).val / 4, by rw [N_eq]; omega⟩
  obtain ⟨-, -, -, -, -, -, e0, e1, e2⟩ := idx_facts t
  have et : t.val = (i 0).val / 4 := rfl
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 128 ≤ (i 1).val ∧ (i 1).val < win0_2.index t (1 : Fin 3) * 128 + 128; omega
  | ⟨2, _⟩ => show win0_2.index t (2 : Fin 3) * 768 ≤ (i 2).val ∧ (i 2).val < win0_2.index t (2 : Fin 3) * 768 + 768; omega

/-- THE RESULT ARRAY after the run: `KOUT` of the argument arrays as launched. -/
theorem final (c : Dev nD) : (dats m 0 c).arrAt 2 cfg0.N
    = KOUT (m ((c : Thread nD τ).loc main_arg0)) (m ((c : Thread nD τ).loc main_arg1)) :=
  (dats m 0 c).arrAt_eq_of_cover 2 (KOUT (V m c main_arg0) (V m c main_arg1)) (fun t _ => flushed_eq m c t) cover

/-- THE RUN, READ: the program terminates with the result array at `KOUT` of the arguments, the arguments unchanged. -/
theorem run : θ_run defs (onTc (τ := τ) (main (F := F))) ⟨m, fun _ => 0, ρ⟩ fun r => ∀ c : Dev nD,
      r.2.mem ((c : Thread nD τ).loc main_v0) = KOUT (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Proof.KI

end
-- ==== Proof.KI.PayIdeal.lean ====
/-
  One trip of the kernel's loop, read at an index over the extended reals. The kernel gathers rows of a
  [1024, 256] matrix by a one-hot matrix product: a selection matrix with entry (r, t) equal to 1 when t is the
  r-th selected position and 0 otherwise is multiplied with the matrix written as three terms side by side
  (the matrix, and twice a difference of the matrix with itself, which is 0 on real entries). Each row of the
  product is therefore the selected row of the matrix followed by zeros, and the sum of the three column groups
  is the selected row. The three stored values of a trip are differences of such rows, masked by columns of
  zeros and ones computed from the span table.
-/
import proofs.«406866_j23502061044278_3_alg».proof.Proof.KI.Pay
import Idealize.ShloMosaic.PureOps.Ideal.Laws
import Idealize.ShloMosaic.Lib.ValueIdx
import Idealize.ShloMosaic.Lib.Pipeline.Value
import Idealize.ShloMosaic.Lib.StableHlo.Predicate

noncomputable section

namespace Cert.Proof.KI.PayIdeal

open Cert.KernelIdeal Cert.KernelIdeal.Gen Idealize.ShloMosaic Idealize.ShloMosaic.ValueIdx
open scoped BigOperators

/-- Row `t` (taken modulo 1024, so that the function is total) of a [1024, 256] matrix, at column `h`. -/
def row (v : Vec Ideal S1024x256 .f32) (t : ℕ) (h : Fin 256) : EReal := v (ix2 ⟨t % 1024, Nat.mod_lt _ (by norm_num)⟩ h)

section
variable (v0 : IVec S256x1024 32) (v6 v10 : Vec Ideal S128x1 .i32) (v61 v64 : Vec Ideal S1024x256 .f32)
/-- Span `s`'s first position, as a natural. -/
def I (s : Fin 128) : ℕ := (v6 (ix2 s 0) : BitVec 32).toNat
/-- Span `s`'s last position, as a natural. -/
def J (s : Fin 128) : ℕ := (v10 (ix2 s 0) : BitVec 32).toNat
/-- The forward state before span `s`'s first position, 0 when the span starts the sequence. -/
def pre (s : Fin 128) (h : Fin 256) : EReal := if 0 < I v6 s then row v61 (I v6 s - 1) h else 0
/-- The backward state after span `s`'s last position, 0 when the span ends the sequence. -/
def post (s : Fin 128) (h : Fin 256) : EReal := if J v10 s + 1 < 1024 then row v64 (J v10 s + 1) h else 0
end

/-! ## The product's dimension numbers: rows times columns, contracted over the 1024 positions -/

theorem lhs_0 (j : S256x768.Idx) (k : dot_S256x1024_S1024x768_S256x768_1_0_0_1_n_n.contr.Idx) :
    (dot_S256x1024_S1024x768_S256x768_1_0_0_1_n_n.lhsIdx j k 0 : ℕ) = j 0 := by
  simp [DotDims.lhsIdx, dot_S256x1024_S1024x768_S256x768_1_0_0_1_n_n]; rfl
theorem lhs_1 (j : S256x768.Idx) (k : dot_S256x1024_S1024x768_S256x768_1_0_0_1_n_n.contr.Idx) :
    (dot_S256x1024_S1024x768_S256x768_1_0_0_1_n_n.lhsIdx j k 1 : ℕ) = k ⟨0, by decide⟩ := by
  simp [DotDims.lhsIdx, dot_S256x1024_S1024x768_S256x768_1_0_0_1_n_n]; rfl
theorem rhs_0 (j : S256x768.Idx) (k : dot_S256x1024_S1024x768_S256x768_1_0_0_1_n_n.contr.Idx) :
    (dot_S256x1024_S1024x768_S256x768_1_0_0_1_n_n.rhsIdx j k 0 : ℕ) = k ⟨0, by decide⟩ := by
  simp [DotDims.rhsIdx, dot_S256x1024_S1024x768_S256x768_1_0_0_1_n_n]; rfl
theorem rhs_1 (j : S256x768.Idx) (k : dot_S256x1024_S1024x768_S256x768_1_0_0_1_n_n.contr.Idx) :
    (dot_S256x1024_S1024x768_S256x768_1_0_0_1_n_n.rhsIdx j k 1 : ℕ) = j 1 := by
  simp [DotDims.rhsIdx, dot_S256x1024_S1024x768_S256x768_1_0_0_1_n_n]; rfl

/-- The product into the zero accumulator, at row `r` and column `c`: the sum over the positions `t` of the left
    factor's entry (r, t) times the right factor's entry (t, c). -/
theorem matmul_apply (lhs : FVec Ideal S256x1024 .bf16) (rhs : FVec Ideal S1024x768 .bf16) (r : Fin 256) (c : Fin 768) :
    matmul dot_S256x1024_S1024x768_S256x768_1_0_0_1_n_n none lhs rhs (constant (F := Ideal) S256x768 .f32 0x00000000#32) (ix2 r c)
      = ∑ t : Fin 1024, lhs (ix2 r t) * rhs (ix2 t c) := by
  simp only [matmul]
  rw [Ideal.matmul_constant_zero_apply,
    ← Equiv.sum_comp (contrEquiv1 dot_S256x1024_S1024x768_S256x768_1_0_0_1_n_n 1024 rfl rfl).symm]
  refine Finset.sum_congr rfl fun t _ => ?_
  have hk := contrEquiv1_symm_val dot_S256x1024_S1024x768_S256x768_1_0_0_1_n_n 1024 rfl rfl t
  congr 2
  · funext a
    apply Fin.ext
    match a with
    | ⟨0, _⟩ => exact lhs_0 _ _
    | ⟨1, _⟩ => exact (lhs_1 _ _).trans hk
  · funext a
    apply Fin.ext
    match a with
    | ⟨0, _⟩ => exact (rhs_0 _ _).trans hk
    | ⟨1, _⟩ => exact rhs_1 _ _

/-! ## The layout operations of a trip, read at an index -/

/-- Row `s` of the first 128 of 256 rows, and of the last 128. -/
abbrev lo (s : Fin 128) : Fin 256 := ⟨s.val, by have := s.isLt; omega⟩
abbrev hi (s : Fin 128) : Fin 256 := ⟨128 + s.val, by have := s.isLt; omega⟩
/-- Column `c` of the first, second and third group of 256 among 768 columns. -/
abbrev g0 (c : Fin 256) : Fin 768 := ⟨c.val, by have := c.isLt; omega⟩
abbrev g1 (c : Fin 256) : Fin 768 := ⟨256 + c.val, by have := c.isLt; omega⟩
abbrev g2 (c : Fin 256) : Fin 768 := ⟨512 + c.val, by have := c.isLt; omega⟩

section Layout
variable {α : Type}

/-- A column [128, 1] read as a vector [128]. -/
theorem col_to_vec (x : S128x1.Idx → α) (h : S128x1.ShapeCasts S128) (s : Fin 128) :
    shapeCast S128 x h (ix1 s) = x (ix2 s 0) := by
  refine shapeCast_apply x h (ix1 s) (ix2 s 0) ?_
  rw [Shape.rowMajor_val_two, Shape.rowMajor_val_one]
  show s.val * 1 + 0 = s.val
  omega

/-- A vector [128] read as a column [128, 1]. -/
theorem vec_to_col (x : S128.Idx → α) (h : S128.ShapeCasts S128x1) (s : Fin 128) :
    shapeCast S128x1 x h (ix2 s 0) = x (ix1 s) := by
  refine shapeCast_apply x h (ix2 s 0) (ix1 s) ?_
  rw [Shape.rowMajor_val_two, Shape.rowMajor_val_one]
  show s.val = s.val * 1 + 0
  omega

/-- A vector [256] read as a column and laid along 1024 columns: entry (r, t) is the vector's entry r. -/
theorem vec_to_cols (x : S256.Idx → α) (h₁ : S256.ShapeCasts S256x1) (h₂ : S256x1.Broadcasts S256x1024) (r : Fin 256) (t : Fin 1024) :
    broadcastTo S256x1024 (shapeCast S256x1 x h₁) h₂ (ix2 r t) = x (ix1 r) := by
  refine (broadcastTo_apply _ h₂ (ix2 r t) (ix2 r 0) fun a => ?_).trans ?_
  · match a with
    | ⟨0, _⟩ => rfl
    | ⟨1, _⟩ => rfl
  · refine shapeCast_apply x h₁ (ix2 r 0) (ix1 r) ?_
    rw [Shape.rowMajor_val_two, Shape.rowMajor_val_one]
    show r.val = r.val * 1 + 0
    omega

/-- A column [128, 1] laid along 256 columns: entry (s, c) is the column's entry s. -/
theorem col_to_cols (x : S128x1.Idx → α) (h : S128x1.Broadcasts S128x256) (s : Fin 128) (c : Fin 256) :
    broadcastTo S128x256 x h (ix2 s c) = x (ix2 s 0) :=
  broadcastTo_apply x h (ix2 s c) (ix2 s 0) fun a => by
    match a with
    | ⟨0, _⟩ => rfl
    | ⟨1, _⟩ => rfl

/-- Two vectors [128] one after the other: the first 128 entries are the first vector's. -/
theorem cat_lo (x₁ x₂ : S128.Idx → α) (h : Shape.Concatenates [S128, S128] S256 0) (s : Fin 128) :
    concatenate S256 0 [⟨S128, x₁⟩, ⟨S128, x₂⟩] h (ix1 (lo s)) = x₁ (ix1 s) :=
  concatenate_pair_apply_left 0 x₁ x₂ h (ix1 (lo s)) rfl (ix1 s) fun b => by
    match b with
    | ⟨0, _⟩ => rfl

/-- … and the last 128 the second vector's. -/
theorem cat_hi (x₁ x₂ : S128.Idx → α) (h : Shape.Concatenates [S128, S128] S256 0) (s : Fin 128) :
    concatenate S256 0 [⟨S128, x₁⟩, ⟨S128, x₂⟩] h (ix1 (hi s)) = x₂ (ix1 s) :=
  concatenate_pair_apply_right 0 x₁ x₂ h (ix1 (hi s)) rfl rfl (ix1 s)
    (fun b hb => by
      match b with
      | ⟨0, _⟩ => exact absurd rfl hb)
    (by show s.val + 128 = 128 + s.val; omega)

/-- Three matrices [1024, 256] side by side: the first group of 256 columns is the first matrix, -/
theorem cat3_g0 (x₀ x₁ x₂ : S1024x256.Idx → α) (h : Shape.Concatenates [S1024x256, S1024x256, S1024x256] S1024x768 1)
    (t : Fin 1024) (c : Fin 256) :
    concatenate S1024x768 1 [⟨S1024x256, x₀⟩, ⟨S1024x256, x₁⟩, ⟨S1024x256, x₂⟩] h (ix2 t (g0 c)) = x₀ (ix2 t c) :=
  concatenate_apply_piece 1 [⟨S1024x256, x₀⟩, ⟨S1024x256, x₁⟩, ⟨S1024x256, x₂⟩] h (ix2 t (g0 c)) 0 (by simp) S1024x256 x₀ rfl rfl 0 rfl (ix2 t c)
    (fun b hb => by
      match b with
      | ⟨0, _⟩ => rfl
      | ⟨1, _⟩ => exact absurd rfl hb)
    (by show 0 + c.val = c.val; omega)

/-- the second group the second, -/
theorem cat3_g1 (x₀ x₁ x₂ : S1024x256.Idx → α) (h : Shape.Concatenates [S1024x256, S1024x256, S1024x256] S1024x768 1)
    (t : Fin 1024) (c : Fin 256) :
    concatenate S1024x768 1 [⟨S1024x256, x₀⟩, ⟨S1024x256, x₁⟩, ⟨S1024x256, x₂⟩] h (ix2 t (g1 c)) = x₁ (ix2 t c) :=
  concatenate_apply_piece 1 [⟨S1024x256, x₀⟩, ⟨S1024x256, x₁⟩, ⟨S1024x256, x₂⟩] h (ix2 t (g1 c)) 1 (by simp) S1024x256 x₁ rfl rfl 256 rfl (ix2 t c)
    (fun b hb => by
      match b with
      | ⟨0, _⟩ => rfl
      | ⟨1, _⟩ => exact absurd rfl hb)
    (by show 256 + c.val = 256 + c.val; rfl)

/-- and the third group the third. -/
theorem cat3_g2 (x₀ x₁ x₂ : S1024x256.Idx → α) (h : Shape.Concatenates [S1024x256, S1024x256, S1024x256] S1024x768 1)
    (t : Fin 1024) (c : Fin 256) :
    concatenate S1024x768 1 [⟨S1024x256, x₀⟩, ⟨S1024x256, x₁⟩, ⟨S1024x256, x₂⟩] h (ix2 t (g2 c)) = x₂ (ix2 t c) :=
  concatenate_apply_piece 1 [⟨S1024x256, x₀⟩, ⟨S1024x256, x₁⟩, ⟨S1024x256, x₂⟩] h (ix2 t (g2 c)) 2 (by simp) S1024x256 x₂ rfl rfl 512 rfl (ix2 t c)
    (fun b hb => by
      match b with
      | ⟨0, _⟩ => rfl
      | ⟨1, _⟩ => exact absurd rfl hb)
    (by show 512 + c.val = 512 + c.val; rfl)

/-- The three groups of 256 columns of a [256, 768] matrix. -/
theorem cols_g0 (x : S256x768.Idx → α) (h : S256x768.Slices ![0, 0] S256x256) (r : Fin 256) (c : Fin 256) :
    extractStridedSlice S256x256 ![0, 0] x h (ix2 r c) = x (ix2 r (g0 c)) :=
  extractStridedSlice_apply _ x h (ix2 r c) (ix2 r (g0 c)) fun a => by
    match a with
    | ⟨0, _⟩ => show r.val = 0 + r.val; omega
    | ⟨1, _⟩ => show c.val = 0 + c.val; omega
theorem cols_g1 (x : S256x768.Idx → α) (h : S256x768.Slices ![0, 256] S256x256) (r : Fin 256) (c : Fin 256) :
    extractStridedSlice S256x256 ![0, 256] x h (ix2 r c) = x (ix2 r (g1 c)) :=
  extractStridedSlice_apply _ x h (ix2 r c) (ix2 r (g1 c)) fun a => by
    match a with
    | ⟨0, _⟩ => show r.val = 0 + r.val; omega
    | ⟨1, _⟩ => show 256 + c.val = 256 + c.val; rfl
theorem cols_g2 (x : S256x768.Idx → α) (h : S256x768.Slices ![0, 512] S256x256) (r : Fin 256) (c : Fin 256) :
    extractStridedSlice S256x256 ![0, 512] x h (ix2 r c) = x (ix2 r (g2 c)) :=
  extractStridedSlice_apply _ x h (ix2 r c) (ix2 r (g2 c)) fun a => by
    match a with
    | ⟨0, _⟩ => show r.val = 0 + r.val; omega
    | ⟨1, _⟩ => show 512 + c.val = 512 + c.val; rfl

/-- The first and the last 128 rows of a [256, 256] matrix. -/
theorem rows_lo (x : S256x256.Idx → α) (h : S256x256.Slices ![0, 0] S128x256) (s : Fin 128) (c : Fin 256) :
    extractStridedSlice S128x256 ![0, 0] x h (ix2 s c) = x (ix2 (lo s) c) :=
  extractStridedSlice_apply _ x h (ix2 s c) (ix2 (lo s) c) fun a => by
    match a with
    | ⟨0, _⟩ => show s.val = 0 + s.val; omega
    | ⟨1, _⟩ => show c.val = 0 + c.val; omega
theorem rows_hi (x : S256x256.Idx → α) (h : S256x256.Slices ![128, 0] S128x256) (s : Fin 128) (c : Fin 256) :
    extractStridedSlice S128x256 ![128, 0] x h (ix2 s c) = x (ix2 (hi s) c) :=
  extractStridedSlice_apply _ x h (ix2 s c) (ix2 (hi s) c) fun a => by
    match a with
    | ⟨0, _⟩ => show 128 + s.val = 128 + s.val; rfl
    | ⟨1, _⟩ => show c.val = 0 + c.val; omega

end Layout

/-! ## Words: the span table's entries, their clamps and their compares -/

section Words
open Idealize.ShloMosaic.StableHlo.Predicate

/-- A bit widened to a 32-bit word and converted is the real 1 or 0. -/
theorem bit_real (b : BitVec 1) : (FloatOps.sitofp (F := Ideal) .f32 (b.setWidth 32) : EReal) = if b = 1#1 then 1 else 0 := by
  rcases BitVec.eq_zero_or_eq_one b with rfl | rfl
  · show ((((0#1 : BitVec 1).setWidth 32).toInt : ℝ) : EReal) = _
    simp
  · show ((((1#1 : BitVec 1).setWidth 32).toInt : ℝ) : EReal) = _
    simp

/-- The f32 word of one is the real one. -/
theorem ofBits_one : Ideal.ofBits .f32 0x3F800000#32 = 1 := by
  simp [Ideal.ofBits, Ideal.ieee, -EReal.coe_mul]; norm_num

/-- The signed maximum with zero leaves a small non-negative word alone. -/
theorem maxsi_zero (x : BitVec 32) (hx : x.toNat < 2 ^ 31) : IntOp.maxsi 0#32 x = x := by
  have hi : x.toInt = x.toNat := toInt_eq_toNat_of_lt hx
  unfold IntOp.maxsi
  rw [if_neg]
  simp only [BitVec.slt, hi]
  simp

/-- The signed minimum of 1023 with a small non-negative word is the minimum of the values. -/
theorem toNat_minsi_1023 (x : BitVec 32) (hx : x.toNat < 2 ^ 31) : (IntOp.minsi 1023#32 x).toNat = min 1023 x.toNat := by
  have hi : x.toInt = x.toNat := toInt_eq_toNat_of_lt hx
  have h1023 : (1023#32 : BitVec 32).toInt = 1023 := by decide
  have n1023 : (1023#32 : BitVec 32).toNat = 1023 := by decide
  unfold IntOp.minsi
  split <;> rename_i hc <;> simp only [BitVec.slt, hi, h1023, decide_eq_true_eq] at hc
  · rw [n1023]; omega
  · omega

/-- The position before a span's first, clamped to the matrix's rows: one less, and 0 for 0. -/
theorem toNat_clamp_pred (a : BitVec 32) (ha : a.toNat < 1024) :
    (IntOp.minsi 1023#32 (IntOp.maxsi 0#32 (IntOp.subi a 1#32))).toNat = a.toNat - 1 := by
  by_cases h0 : a = 0#32
  · subst h0; decide
  · have h1 : 1 ≤ a.toNat := by
      rcases Nat.eq_zero_or_pos a.toNat with h | h
      · exact absurd (BitVec.eq_of_toNat_eq (by simpa using h)) h0
      · exact h
    have hs : (IntOp.subi a 1#32).toNat = a.toNat - 1 := by
      show (a - 1#32).toNat = _
      simp only [BitVec.toNat_sub, BitVec.toNat_ofNat]; omega
    rw [maxsi_zero _ (by omega), toNat_minsi_1023 _ (by omega), hs]; omega

/-- The position after a span's last, clamped to the matrix's rows. -/
theorem toNat_clamp_succ (a : BitVec 32) (ha : a.toNat < 1024) :
    (IntOp.minsi 1023#32 (IntOp.maxsi 0#32 (IntOp.addi a 1#32))).toNat = min 1023 (a.toNat + 1) := by
  have hs : (IntOp.addi a 1#32).toNat = a.toNat + 1 := by
    show (a + 1#32).toNat = _
    simp only [BitVec.toNat_add, BitVec.toNat_ofNat]; omega
  rw [maxsi_zero _ (by omega), toNat_minsi_1023 _ (by omega), hs]

/-- "The first position is positive", read signed on a small word. -/
theorem sgt_zero_iff (a : BitVec 32) (ha : a.toNat < 1024) : IntOp.cmpi .sgt a 0#32 = 1#1 ↔ 0 < a.toNat := by
  have h := sgt_iff_toNat (a := a) (b := 0#32) (by omega) (by decide)
  simpa using h

/-- "The position after the last is inside the matrix", read signed on a small word. -/
theorem slt_succ_iff (a : BitVec 32) (ha : a.toNat < 1024) :
    IntOp.cmpi .slt (IntOp.addi a 1#32) 1024#32 = 1#1 ↔ a.toNat + 1 < 1024 := by
  have hs : (IntOp.addi a 1#32).toNat = a.toNat + 1 := by
    show (a + 1#32).toNat = _
    simp only [BitVec.toNat_add, BitVec.toNat_ofNat]; omega
  have h := slt_iff_toNat (a := IntOp.addi a 1#32) (b := 1024#32) (by omega) (by decide)
  rw [h, hs]
  simp

/-- A word is the zero word exactly when its value is 0. -/
theorem eq_zero_iff (a : BitVec 32) : a = 0#32 ↔ a.toNat = 0 :=
  ⟨fun h => by subst h; rfl, fun h => BitVec.eq_of_toNat_eq (by simpa using h)⟩

end Words

/-! ## The payloads of a trip, read at an index -/

section Payloads
open Idealize.ShloMosaic.StableHlo.Predicate

theorem andi_one (c d : BitVec 1) : IntOp.andi c d = 1#1 ↔ c = 1#1 ∧ d = 1#1 := by revert c d; decide

/-- The two span columns read as vectors. -/
theorem pay7_apply (v6 : Vec Ideal S128x1 .i32) (s : Fin 128) : k0_pay7 (F := Ideal) v6 (ix1 s) = v6 (ix2 s 0) := by
  unfold k0_pay7; exact col_to_vec _ _ s
theorem pay8_apply (v10 : Vec Ideal S128x1 .i32) (s : Fin 128) : k0_pay8 (F := Ideal) v10 (ix1 s) = v10 (ix2 s 0) := by
  unfold k0_pay8; exact col_to_vec _ _ s

/-- The selection matrix of 256 positions `sel`: entry (r, t) is 1 when `t` is the r-th selected position, else 0. -/
theorem onehot_apply (v0 : IVec S256x1024 32) (hv0 : ∀ (r : Fin 256) (t : Fin 1024), v0 (ix2 r t) = BitVec.ofNat 32 t.val)
    (sel : IVec S256 32) (h₁ : S256.ShapeCasts S256x1) (h₂ : S256x1.Broadcasts S256x1024) (h₃ : 1 < 32)
    (h₄ : FTy.bits .bf16 < FTy.bits .f32) (r : Fin 256) (t : Fin 1024) :
    (truncf .bf16 (sitofp (F := Ideal) .f32 (extui 32 (cmpi .eq v0 (broadcastTo S256x1024 (shapeCast S256x1 sel h₁) h₂)) h₃)) h₄ :
        FVec Ideal S256x1024 .bf16) (ix2 r t)
      = if (sel (ix1 r)).toNat = t.val then 1 else 0 := by
  rw [truncf_apply, sitofp_apply, extui_apply, bit_real]
  show (if IntOp.cmpi .eq (v0 (ix2 r t)) (broadcastTo S256x1024 (shapeCast S256x1 sel h₁) h₂ (ix2 r t)) = 1#1 then (1 : EReal) else 0) = _
  rw [vec_to_cols, hv0]
  have ht : t.val < 2 ^ 32 := by have := t.isLt; omega
  refine if_congr (cmpi_eq_iff.trans ⟨fun h => ?_, fun h => ?_⟩) rfl rfl
  · rw [← h, BitVec.toNat_ofNat]; exact Nat.mod_eq_of_lt ht
  · apply BitVec.eq_of_toNat_eq; rw [h, BitVec.toNat_ofNat]; exact Nat.mod_eq_of_lt ht

section Selection
variable (v0 : IVec S256x1024 32) (v6 v10 : Vec Ideal S128x1 .i32)
  (hv0 : ∀ (r : Fin 256) (t : Fin 1024), v0 (ix2 r t) = BitVec.ofNat 32 t.val)
  (h6 : ∀ s : Fin 128, I v6 s < 1024) (h10 : ∀ s : Fin 128, J v10 s < 1024)

include hv0 in
/-- The forward selection matrix: row `s` selects span `s`'s last position, -/
theorem pay9_lo (s : Fin 128) (t : Fin 1024) :
    k0_pay9 (F := Ideal) v0 v6 v10 (ix2 (lo s) t) = if J v10 s = t.val then 1 else 0 := by
  unfold k0_pay9
  refine (onehot_apply v0 hv0 _ _ _ _ _ (lo s) t).trans ?_
  rw [cat_lo, pay8_apply]
  rfl

include hv0 h6 in
/-- and row `128 + s` the position before its first (0 for a span that starts the sequence). -/
theorem pay9_hi (s : Fin 128) (t : Fin 1024) :
    k0_pay9 (F := Ideal) v0 v6 v10 (ix2 (hi s) t) = if I v6 s - 1 = t.val then 1 else 0 := by
  unfold k0_pay9
  refine (onehot_apply v0 hv0 _ _ _ _ _ (hi s) t).trans ?_
  rw [cat_hi]
  show (if (IntOp.minsi 1023#32 (IntOp.maxsi 0#32 (IntOp.subi (k0_pay7 (F := Ideal) v6 (ix1 s)) 1#32))).toNat = t.val then (1 : EReal) else 0) = _
  rw [pay7_apply, toNat_clamp_pred _ (h6 s)]
  rfl

include hv0 in
/-- The backward selection matrix: row `s` selects span `s`'s first position, -/
theorem pay10_lo (s : Fin 128) (t : Fin 1024) :
    k0_pay10 (F := Ideal) v0 v6 v10 (ix2 (lo s) t) = if I v6 s = t.val then 1 else 0 := by
  unfold k0_pay10
  refine (onehot_apply v0 hv0 _ _ _ _ _ (lo s) t).trans ?_
  rw [cat_lo, pay7_apply]
  rfl

include hv0 h10 in
/-- and row `128 + s` the position after its last (1023 at most). -/
theorem pay10_hi (s : Fin 128) (t : Fin 1024) :
    k0_pay10 (F := Ideal) v0 v6 v10 (ix2 (hi s) t) = if min 1023 (J v10 s + 1) = t.val then 1 else 0 := by
  unfold k0_pay10
  refine (onehot_apply v0 hv0 _ _ _ _ _ (hi s) t).trans ?_
  rw [cat_hi]
  show (if (IntOp.minsi 1023#32 (IntOp.maxsi 0#32 (IntOp.addi (k0_pay8 (F := Ideal) v10 (ix1 s)) 1#32))).toNat = t.val then (1 : EReal) else 0) = _
  rw [pay8_apply, toNat_clamp_succ _ (h10 s)]
  rfl

end Selection

section Gather

/-- The product with a selection matrix whose row `r` selects position `p`: row `r` of the product is row `p` of the right factor. -/
theorem sel_row (oh : FVec Ideal S256x1024 .bf16) (rhs : FVec Ideal S1024x768 .bf16) (r : Fin 256) (p : ℕ) (hp : p < 1024)
    (hoh : ∀ t : Fin 1024, oh (ix2 r t) = if p = t.val then 1 else 0) (c : Fin 768) :
    matmul dot_S256x1024_S1024x768_S256x768_1_0_0_1_n_n none oh rhs (constant (F := Ideal) S256x768 .f32 0x00000000#32) (ix2 r c)
      = rhs (ix2 ⟨p, hp⟩ c) := by
  rw [matmul_apply, Finset.sum_eq_single (⟨p, hp⟩ : Fin 1024)]
  · rw [hoh, if_pos rfl, one_mul]
  · intro t _ hne
    rw [hoh, if_neg (fun h => hne (Fin.ext h.symm)), zero_mul]
  · intro h; exact absurd (Finset.mem_univ _) h

variable (oh : FVec Ideal S256x1024 .bf16) (v : Vec Ideal S1024x256 .f32) (fv : ∀ q, ∃ x : ℝ, v q = (x : EReal))
  (r : Fin 256) (p : ℕ) (hp : p < 1024) (hoh : ∀ t : Fin 1024, oh (ix2 r t) = if p = t.val then 1 else 0)

include hoh in
/-- The product of a selection matrix with the matrix written as three terms side by side: in the first group of
    columns, the selected row of the matrix; -/
theorem pay14_g0 (c : Fin 256) : k0_pay14 (F := Ideal) oh v (ix2 r (g0 c)) = v (ix2 ⟨p, hp⟩ c) := by
  unfold k0_pay14
  refine (sel_row oh _ r p hp hoh (g0 c)).trans ?_
  exact cat3_g0 _ _ _ _ _ c

include hoh fv hp in
/-- in the second group, the matrix's difference with itself, which is 0 on real entries; -/
theorem pay14_g1 (c : Fin 256) : k0_pay14 (F := Ideal) oh v (ix2 r (g1 c)) = 0 := by
  unfold k0_pay14
  refine (sel_row oh _ r p hp hoh (g1 c)).trans ?_
  refine (cat3_g1 _ _ _ _ _ c).trans ?_
  obtain ⟨x, hx⟩ := fv (ix2 ⟨p, hp⟩ c)
  show v (ix2 ⟨p, hp⟩ c) - v (ix2 ⟨p, hp⟩ c) = 0
  rw [hx, ← EReal.coe_sub, sub_self, EReal.coe_zero]

include hoh fv hp in
/-- in the third group, the difference of that difference with itself, 0 again. -/
theorem pay14_g2 (c : Fin 256) : k0_pay14 (F := Ideal) oh v (ix2 r (g2 c)) = 0 := by
  unfold k0_pay14
  refine (sel_row oh _ r p hp hoh (g2 c)).trans ?_
  refine (cat3_g2 _ _ _ _ _ c).trans ?_
  obtain ⟨x, hx⟩ := fv (ix2 ⟨p, hp⟩ c)
  show (v (ix2 ⟨p, hp⟩ c) - v (ix2 ⟨p, hp⟩ c)) - (v (ix2 ⟨p, hp⟩ c) - v (ix2 ⟨p, hp⟩ c)) = 0
  rw [hx, ← EReal.coe_sub, sub_self, EReal.coe_zero, sub_zero]

/-- The sum of the three groups of columns. -/
theorem pay1_apply (x : FVec Ideal S256x768 .f32) (r c : Fin 256) :
    k0_pay1 (F := Ideal) x (ix2 r c) = x (ix2 r (g0 c)) + x (ix2 r (g1 c)) + x (ix2 r (g2 c)) := by
  unfold k0_pay1
  exact congrArg₂ (· + ·) (congrArg₂ (· + ·) (cols_g0 x _ r c) (cols_g1 x _ r c)) (cols_g2 x _ r c)

include hoh fv in
/-- So the three groups of the product sum to the selected row of the matrix. -/
theorem gather_apply (c : Fin 256) : k0_pay1 (k0_pay14 (F := Ideal) oh v) (ix2 r c) = v (ix2 ⟨p, hp⟩ c) := by
  rw [pay1_apply, pay14_g0 oh v r p hp hoh, pay14_g1 oh v fv r p hp hoh, pay14_g2 oh v fv r p hp hoh, add_zero, add_zero]

/-- The forward side's payload is the same product and sum. -/
theorem pay15_eq : k0_pay15 (F := Ideal) oh v = k0_pay1 (k0_pay14 (F := Ideal) oh v) := rfl

end Gather

section Masks
variable (v6 v10 : Vec Ideal S128x1 .i32) (h6 : ∀ s : Fin 128, I v6 s < 1024) (h10 : ∀ s : Fin 128, J v10 s < 1024)

include h6 in
/-- The column that is 1 where a span has a position before its first. -/
theorem pay11_apply (s : Fin 128) : k0_pay11 (F := Ideal) v6 (ix2 s 0) = if 0 < I v6 s then 1 else 0 := by
  unfold k0_pay11
  refine (vec_to_col _ _ s).trans ?_
  rw [sitofp_apply, extui_apply, bit_real]
  show (if IntOp.cmpi .sgt (k0_pay7 (F := Ideal) v6 (ix1 s)) 0#32 = 1#1 then (1 : EReal) else 0) = _
  rw [pay7_apply]
  exact if_congr (sgt_zero_iff _ (h6 s)) rfl rfl

include h10 in
/-- The column that is 1 where a span has a position after its last. -/
theorem pay12_apply (s : Fin 128) :
    k0_pay12 (F := Ideal) (k0_pay8 (F := Ideal) v10) 1#32 (ix2 s 0) = if J v10 s + 1 < 1024 then 1 else 0 := by
  unfold k0_pay12
  refine (vec_to_col _ _ s).trans ?_
  rw [sitofp_apply, extui_apply, bit_real]
  show (if IntOp.cmpi .slt (IntOp.addi (k0_pay8 (F := Ideal) v10 (ix1 s)) 1#32) 1024#32 = 1#1 then (1 : EReal) else 0) = _
  rw [pay8_apply]
  exact if_congr (slt_succ_iff _ (h10 s)) rfl rfl

/-- The column that is 0 on a padding span (first and last position both 0) and 1 elsewhere. -/
theorem keepCol_apply (s : Fin 128) :
    keepCol (F := Ideal) v6 v10 (ix2 s 0) = if I v6 s = 0 ∧ J v10 s = 0 then 0 else 1 := by
  unfold keepCol k0_pay13
  refine (vec_to_col _ _ s).trans ?_
  show Scalar.select (IntOp.andi (IntOp.cmpi .eq (k0_pay7 (F := Ideal) v6 (ix1 s)) 0#32) (IntOp.cmpi .eq (k0_pay8 (F := Ideal) v10 (ix1 s)) 0#32))
    (Ideal.ofBits .f32 0x00000000#32) (Ideal.ofBits .f32 0x3F800000#32) = _
  rw [pay7_apply, pay8_apply, Ideal.ofBits_zero_f32, ofBits_one]
  unfold Scalar.select
  refine if_congr ?_ rfl rfl
  show IntOp.andi _ _ = 1#1 ↔ _
  rw [andi_one, cmpi_eq_iff, cmpi_eq_iff, eq_zero_iff, eq_zero_iff]
  exact Iff.rfl

end Masks

section Rows
variable (m m' k : FVec Ideal S128x1 .f32) (x : FVec Ideal S256x256 .f32) (y : FVec Ideal S256x768 .f32) (s : Fin 128) (h : Fin 256)

/-- The last 128 rows of the forward selection, masked. -/
theorem pay2_apply : k0_pay2 (F := Ideal) m x (ix2 s h) = x (ix2 (hi s) h) * m (ix2 s 0) := by
  unfold k0_pay2
  exact congrArg₂ (· * ·) (rows_hi x _ s h) (col_to_cols m _ s h)

/-- The last 128 rows of the backward selection, masked. -/
theorem pay3_apply : k0_pay3 (F := Ideal) m y (ix2 s h) = k0_pay1 (F := Ideal) y (ix2 (hi s) h) * m (ix2 s 0) := by
  unfold k0_pay3
  exact congrArg₂ (· * ·) (rows_hi _ _ s h) (col_to_cols m _ s h)

/-- Channels 0–255 of a trip's rows. -/
theorem pay4_apply : k0_pay4 (F := Ideal) m k x (ix2 s h) = (x (ix2 (lo s) h) - x (ix2 (hi s) h) * m (ix2 s 0)) * k (ix2 s 0) := by
  unfold k0_pay4
  exact congrArg₂ (· * ·) (congrArg₂ (· - ·) (rows_lo x _ s h) (pay2_apply m x s h)) (col_to_cols k _ s h)

/-- Channels 256–511. -/
theorem pay5_apply :
    k0_pay5 (F := Ideal) m k y (ix2 s h)
      = (k0_pay1 (F := Ideal) y (ix2 (lo s) h) - k0_pay1 (F := Ideal) y (ix2 (hi s) h) * m (ix2 s 0)) * k (ix2 s 0) := by
  unfold k0_pay5
  exact congrArg₂ (· * ·) (congrArg₂ (· - ·) (rows_lo _ _ s h) (pay3_apply m y s h)) (col_to_cols k _ s h)

/-- Channels 512–767. -/
theorem pay6_apply :
    k0_pay6 (F := Ideal) m m' k y x (ix2 s h)
      = (x (ix2 (hi s) h) * m (ix2 s 0) - k0_pay1 (F := Ideal) y (ix2 (hi s) h) * m' (ix2 s 0)) * k (ix2 s 0) := by
  unfold k0_pay6
  exact congrArg₂ (· * ·) (congrArg₂ (· - ·) (pay2_apply m x s h) (pay3_apply m' y s h)) (col_to_cols k _ s h)

end Rows

end Payloads

/-! ## The three stored values of a trip -/

/-- A row below the matrix's 1024 is the total row function there. -/
theorem row_of_lt (v : Vec Ideal S1024x256 .f32) (t : ℕ) (ht : t < 1024) (h : Fin 256) : v (ix2 ⟨t, ht⟩ h) = row v t h := by
  unfold row
  have e : (⟨t, ht⟩ : Fin 1024) = ⟨t % 1024, Nat.mod_lt _ (by norm_num)⟩ := Fin.ext (Nat.mod_eq_of_lt ht).symm
  rw [e]

section Sides
variable (v0 : IVec S256x1024 32) (v6 v10 : Vec Ideal S128x1 .i32) (v61 v64 : Vec Ideal S1024x256 .f32)
  (hv0 : ∀ (r : Fin 256) (t : Fin 1024), v0 (ix2 r t) = BitVec.ofNat 32 t.val)
  (h6 : ∀ s : Fin 128, I v6 s < 1024) (h10 : ∀ s : Fin 128, J v10 s < 1024)
  (f61 : ∀ p, ∃ r : ℝ, v61 p = (r : EReal)) (f64 : ∀ p, ∃ r : ℝ, v64 p = (r : EReal))

include hv0 h10 f61 in
/-- Forward side: row `s` is the forward state at span `s`'s last position, -/
theorem fwd_lo (s : Fin 128) (h : Fin 256) : fwdSel (F := Ideal) v0 v6 v10 v61 (ix2 (lo s) h) = row v61 (J v10 s) h := by
  unfold fwdSel
  rw [pay15_eq, gather_apply _ v61 f61 (lo s) (J v10 s) (h10 s) (pay9_lo v0 v6 v10 hv0 s) h]
  exact row_of_lt v61 _ _ h

include hv0 h6 f61 in
/-- and row `128 + s` the forward state before its first. -/
theorem fwd_hi (s : Fin 128) (h : Fin 256) : fwdSel (F := Ideal) v0 v6 v10 v61 (ix2 (hi s) h) = row v61 (I v6 s - 1) h := by
  unfold fwdSel
  rw [pay15_eq, gather_apply _ v61 f61 (hi s) (I v6 s - 1) (by have := h6 s; omega) (pay9_hi v0 v6 v10 hv0 h6 s) h]
  exact row_of_lt v61 _ _ h

include hv0 h6 f64 in
/-- Backward side: row `s` is the backward state at span `s`'s first position, -/
theorem bwd_lo (s : Fin 128) (h : Fin 256) :
    k0_pay1 (F := Ideal) (bwdSel3 (F := Ideal) v0 v6 v10 v64) (ix2 (lo s) h) = row v64 (I v6 s) h := by
  unfold bwdSel3
  rw [gather_apply _ v64 f64 (lo s) (I v6 s) (h6 s) (pay10_lo v0 v6 v10 hv0 s) h]
  exact row_of_lt v64 _ _ h

include hv0 h10 f64 in
/-- and row `128 + s` the backward state after its last. -/
theorem bwd_hi (s : Fin 128) (h : Fin 256) :
    k0_pay1 (F := Ideal) (bwdSel3 (F := Ideal) v0 v6 v10 v64) (ix2 (hi s) h) = row v64 (min 1023 (J v10 s + 1)) h := by
  unfold bwdSel3
  rw [gather_apply _ v64 f64 (hi s) (min 1023 (J v10 s + 1)) (by omega) (pay10_hi v0 v6 v10 hv0 h10 s) h]
  exact row_of_lt v64 _ _ h

end Sides

section
variable (v0 : IVec S256x1024 32) (v6 v10 : Vec Ideal S128x1 .i32) (v61 v64 : Vec Ideal S1024x256 .f32)

/-- Channels 0–255: the forward state at the last position minus the forward state before the first, 0 on a padding span. -/
theorem PA_apply (hv0 : ∀ (r : Fin 256) (t : Fin 1024), v0 (ix2 r t) = BitVec.ofNat 32 t.val)
    (h6 : ∀ s : Fin 128, I v6 s < 1024) (h10 : ∀ s : Fin 128, J v10 s < 1024)
    (f61 : ∀ p, ∃ r : ℝ, v61 p = (r : EReal)) (s : Fin 128) (h : Fin 256) :
    PA (F := Ideal) v0 v6 v10 v61 (ix2 s h)
      = if I v6 s = 0 ∧ J v10 s = 0 then 0 else row v61 (J v10 s) h - pre v6 v61 s h := by
  unfold PA
  rw [pay4_apply, fwd_lo v0 v6 v10 v61 hv0 h10 f61, fwd_hi v0 v6 v10 v61 hv0 h6 f61, pay11_apply v6 h6, keepCol_apply]
  unfold pre
  by_cases hk : I v6 s = 0 ∧ J v10 s = 0
  · rw [if_pos hk, if_pos hk, mul_zero]
  · rw [if_neg hk, if_neg hk, mul_one]
    by_cases hi : 0 < I v6 s
    · rw [if_pos hi, if_pos hi, mul_one]
    · rw [if_neg hi, if_neg hi, mul_zero]

/-- Channels 256–511: the backward state at the first position minus the backward state after the last, 0 on a padding span. -/
theorem PB_apply (hv0 : ∀ (r : Fin 256) (t : Fin 1024), v0 (ix2 r t) = BitVec.ofNat 32 t.val)
    (h6 : ∀ s : Fin 128, I v6 s < 1024) (h10 : ∀ s : Fin 128, J v10 s < 1024)
    (f64 : ∀ p, ∃ r : ℝ, v64 p = (r : EReal)) (s : Fin 128) (h : Fin 256) :
    PB (F := Ideal) v0 v6 v10 v64 (ix2 s h)
      = if I v6 s = 0 ∧ J v10 s = 0 then 0 else row v64 (I v6 s) h - post v10 v64 s h := by
  unfold PB
  rw [pay5_apply, bwd_lo v0 v6 v10 v64 hv0 h6 f64, bwd_hi v0 v6 v10 v64 hv0 h10 f64, pay12_apply v10 h10, keepCol_apply]
  unfold post
  by_cases hk : I v6 s = 0 ∧ J v10 s = 0
  · rw [if_pos hk, if_pos hk, mul_zero]
  · rw [if_neg hk, if_neg hk, mul_one]
    by_cases hj : J v10 s + 1 < 1024
    · rw [if_pos hj, if_pos hj, mul_one, show min 1023 (J v10 s + 1) = J v10 s + 1 from by omega]
    · rw [if_neg hj, if_neg hj, mul_zero]

/-- Channels 512–767: the forward state before the first position minus the backward state after the last, 0 on a padding span. -/
theorem PC_apply (hv0 : ∀ (r : Fin 256) (t : Fin 1024), v0 (ix2 r t) = BitVec.ofNat 32 t.val)
    (h6 : ∀ s : Fin 128, I v6 s < 1024) (h10 : ∀ s : Fin 128, J v10 s < 1024)
    (f61 : ∀ p, ∃ r : ℝ, v61 p = (r : EReal)) (f64 : ∀ p, ∃ r : ℝ, v64 p = (r : EReal)) (s : Fin 128) (h : Fin 256) :
    PC (F := Ideal) v0 v6 v10 v61 v64 (ix2 s h)
      = if I v6 s = 0 ∧ J v10 s = 0 then 0 else pre v6 v61 s h - post v10 v64 s h := by
  unfold PC
  rw [pay6_apply, fwd_hi v0 v6 v10 v61 hv0 h6 f61, bwd_hi v0 v6 v10 v64 hv0 h10 f64, pay11_apply v6 h6, pay12_apply v10 h10,
    keepCol_apply]
  unfold pre post
  by_cases hk : I v6 s = 0 ∧ J v10 s = 0
  · rw [if_pos hk, if_pos hk, mul_zero]
  · rw [if_neg hk, if_neg hk, mul_one]
    by_cases hi : 0 < I v6 s
    · rw [if_pos hi, if_pos hi, mul_one]
      by_cases hj : J v10 s + 1 < 1024
      · rw [if_pos hj, if_pos hj, mul_one, show min 1023 (J v10 s + 1) = J v10 s + 1 from by omega]
      · rw [if_neg hj, if_neg hj, mul_zero]
    · rw [if_neg hi, if_neg hi, mul_zero]
      by_cases hj : J v10 s + 1 < 1024
      · rw [if_pos hj, if_pos hj, mul_one, show min 1023 (J v10 s + 1) = J v10 s + 1 from by omega]
      · rw [if_neg hj, if_neg hj, mul_zero]
end

/-- The kernel's own position index: entry (r, t) is t. -/
theorem iota_apply [Cert.KernelIdeal.Facts] (r : Fin 256) (t : Fin 1024) :
    iota .tc S256x1024 32 [1] Facts₀.iota_S256x1024_d1_w32 (ix2 r t) = BitVec.ofNat 32 t.val :=
  iota_single_apply .tc S256x1024 32 1 _ (ix2 r t)

end Cert.Proof.KI.PayIdeal

end
-- ==== Proof.Spec.lean ====
/-
  The span representation, as one function of the two argument arrays.

  For sequence `b`, span `s` with first position `i` and last position `j` (both words read as naturals), and
  a channel `h < 256`, write `fwd t h` for channel `h` and `bwd t h` for channel `256 + h` of position `t`.
  The representation is the concatenation of three differences,
      fwd j − fPre,   bwd i − bPost,   fPre − bPost,
  where `fPre = fwd (i − 1)` when `0 < i` and `0` otherwise (the state before the first position is zero), and
  `bPost = bwd (j + 1)` when `j + 1 < 1024` and `0` otherwise (the state after the last position is zero); a
  span with `i = 0` and `j = 0` is padding and its representation is zero.
-/
import Idealize.ShloMosaic.PureOps.Ideal
import Idealize.ShloMosaic.Lib.ValueIdx

noncomputable section

namespace Cert.Proof.Spec

open Idealize.ShloMosaic Idealize.ShloMosaic.ValueIdx

/-- The hidden states: 64 sequences, 1024 positions, 512 channels (256 forward, then 256 backward). -/
abbrev SX : Shape := ⟨3, ![64, 1024, 512]⟩
/-- The spans: per sequence 128 pairs (first position, last position). -/
abbrev SP : Shape := ⟨3, ![64, 128, 2]⟩
/-- The representations: per span 3 × 256 channels. -/
abbrev SO : Shape := ⟨3, ![64, 128, 768]⟩

/-- Channel `h` of position `t` of sequence `b`; position and channel are taken modulo their extents so that the
    function is total (every use below is in range). -/
def ent (x : FVec Ideal SX .f32) (b : Fin 64) (t h : ℕ) : EReal :=
  x (ix3 b ⟨t % 1024, Nat.mod_lt _ (by norm_num)⟩ ⟨h % 512, Nat.mod_lt _ (by norm_num)⟩)

/-- The span's first position. -/
def lo (sp : IVec SP 32) (b : Fin 64) (s : Fin 128) : ℕ := (sp (ix3 b s 0)).toNat
/-- The span's last position. -/
def hi (sp : IVec SP 32) (b : Fin 64) (s : Fin 128) : ℕ := (sp (ix3 b s 1)).toNat

/-- The forward state just before the span: zero when the span starts at position 0. -/
def fPre (x : FVec Ideal SX .f32) (sp : IVec SP 32) (b : Fin 64) (s : Fin 128) (h : ℕ) : EReal :=
  if 0 < lo sp b s then ent x b (lo sp b s - 1) h else 0

/-- The backward state just after the span: zero when the span ends at the last position. -/
def bPost (x : FVec Ideal SX .f32) (sp : IVec SP 32) (b : Fin 64) (s : Fin 128) (h : ℕ) : EReal :=
  if hi sp b s + 1 < 1024 then ent x b (hi sp b s + 1) (256 + h) else 0

/-- The representation at sequence `b`, span `s`, output channel `c`. -/
def rep (x : FVec Ideal SX .f32) (sp : IVec SP 32) (b : Fin 64) (s : Fin 128) (c : ℕ) : EReal :=
  if lo sp b s = 0 ∧ hi sp b s = 0 then 0
  else if c < 256 then ent x b (hi sp b s) c - fPre x sp b s c
  else if c < 512 then ent x b (lo sp b s) c - bPost x sp b s (c - 256)
  else fPre x sp b s (c - 512) - bPost x sp b s (c - 512)

/-- The whole result array. -/
def out (x : FVec Ideal SX .f32) (sp : IVec SP 32) : FVec Ideal SO .f32 :=
  fun o => rep x sp (o 0) (o 1) (o 2).val

theorem out_apply (x : FVec Ideal SX .f32) (sp : IVec SP 32) (b : Fin 64) (s : Fin 128) (c : Fin 768) :
    out x sp (ix3 b s c) = rep x sp b s c.val := rfl

/-- Every entry of the hidden states is a real number. -/
def Finite (x : FVec Ideal SX .f32) : Prop := ∀ p, ∃ r : ℝ, x p = (r : EReal)

/-- Every span position lies inside the sequence. -/
def InRange (sp : IVec SP 32) : Prop := ∀ p, (sp p).toNat < 1024

end Cert.Proof.Spec

end
-- ==== Proof.KI.Bridge.lean ====
/-
  The kernel's result is the specification.

  At the extended reals, with every hidden state a real number and every span position inside the sequence, the value
  the kernel leaves at entry `(B, s, c)` — the trip's stored value for sequence `B`, read at span `s` and the
  channel's offset in its column group — is the span representation `Spec.rep`: the one-hot selections pick rows
  `j`, `i − 1`, `i`, `j + 1` of sequence `B`, and the masks are the case distinctions of the specification.
-/
import proofs.«406866_j23502061044278_3_alg».proof.Proof.KI.Final
import proofs.«406866_j23502061044278_3_alg».proof.Proof.KI.PayIdeal
import proofs.«406866_j23502061044278_3_alg».proof.Proof.Spec

noncomputable section

namespace Cert.Proof.KI

open Cert.KernelIdeal Cert.KernelIdeal.Gen
open Idealize.ShloMosaic Idealize.ShloMosaic.ValueIdx
open Cert.Proof

/-- A row of sequence `B`'s forward half is an entry of the hidden states at the same channel; -/
theorem row_W61 (A0 : FVec Ideal Spec.SX .f32) (B : Fin 64) (t n : ℕ) (hn : n < 256) :
    PayIdeal.row (W61 (F := Ideal) A0 B) t ⟨n, hn⟩ = Spec.ent A0 B t n := by
  unfold PayIdeal.row W61 Spec.ent
  refine congrArg A0 (funext fun d => ?_)
  match d with
  | ⟨0, _⟩ => rfl
  | ⟨1, _⟩ => rfl
  | ⟨2, _⟩ => exact Fin.ext (show n = n % 512 from (Nat.mod_eq_of_lt (by omega)).symm)

/-- of its backward half, at the channel shifted by 256. -/
theorem row_W64 (A0 : FVec Ideal Spec.SX .f32) (B : Fin 64) (t n : ℕ) (hn : n < 256) :
    PayIdeal.row (W64 (F := Ideal) A0 B) t ⟨n, hn⟩ = Spec.ent A0 B t (256 + n) := by
  unfold PayIdeal.row W64 Spec.ent
  refine congrArg A0 (funext fun d => ?_)
  match d with
  | ⟨0, _⟩ => rfl
  | ⟨1, _⟩ => rfl
  | ⟨2, _⟩ => exact Fin.ext (show 256 + n = (256 + n) % 512 from (Nat.mod_eq_of_lt (by omega)).symm)

/-- THE KERNEL'S RESULT IS THE SPECIFICATION, entry by entry. -/
theorem KOUT_eq_spec (A0 : FVec Ideal Spec.SX .f32) (A1 : IVec Spec.SP 32) (hf : Spec.Finite A0) (hr : Spec.InRange A1) :
    KOUT (F := Ideal) A0 A1 = Spec.out A0 A1 := by
  funext o
  obtain ⟨B, s, cc, rfl⟩ : ∃ (B : Fin 64) (s : Fin 128) (cc : Fin 768), o = ix3 B s cc := ⟨o 0, o 1, o 2, eq_ix3 o⟩
  rw [Spec.out_apply]
  have hv0 : ∀ (r : Fin 256) (t : Fin 1024), posIdx (ix2 r t) = BitVec.ofNat 32 t.val := fun r t => PayIdeal.iota_apply r t
  have h6 : ∀ s : Fin 128, PayIdeal.I (W6 (F := Ideal) A1 B) s < 1024 := fun s => hr _
  have h10 : ∀ s : Fin 128, PayIdeal.J (W10 (F := Ideal) A1 B) s < 1024 := fun s => hr _
  have f61 : ∀ p, ∃ r : ℝ, W61 (F := Ideal) A0 B p = (r : EReal) := fun p => hf _
  have f64 : ∀ p, ∃ r : ℝ, W64 (F := Ideal) A0 B p = (r : EReal) := fun p => hf _
  have eI : PayIdeal.I (W6 (F := Ideal) A1 B) s = Spec.lo A1 B s := rfl
  have eJ : PayIdeal.J (W10 (F := Ideal) A1 B) s = Spec.hi A1 B s := rfl
  have hcc : cc.val < 768 := cc.isLt
  unfold KOUT Spec.rep Spec.fPre Spec.bPost
  show (if h0 : cc.val < 256 then _ else if h1 : cc.val < 512 then _ else _) = _
  by_cases h0 : cc.val < 256
  · rw [dif_pos h0, PayIdeal.PA_apply posIdx _ _ _ hv0 h6 h10 f61, if_pos h0]
    unfold PayIdeal.pre
    rw [eI, eJ, row_W61, row_W61]
  · rw [dif_neg h0, if_neg h0]
    by_cases h1 : cc.val < 512
    · rw [dif_pos h1, PayIdeal.PB_apply posIdx _ _ _ hv0 h6 h10 f64, if_pos h1]
      unfold PayIdeal.post
      rw [eI, eJ, row_W64, row_W64, show 256 + (cc.val - 256) = cc.val from by omega]
    · rw [dif_neg h1, PayIdeal.PC_apply posIdx _ _ _ _ hv0 h6 h10 f61 f64, if_neg h1]
      unfold PayIdeal.pre PayIdeal.post
      rw [eI, eJ, row_W61, row_W64]

end Cert.Proof.KI

end
-- ==== Proof.RefSpec.lean ====
/-
  The reference program computes the span representation of the specification, index by index.

  Under the hypothesis that every span word is a position of the sequence (a natural below 1024), each of the
  reference's four row selections reads the row its index word names: the word is not negative, so the wrap-around
  leaves it alone; it lies in [0, 1023], so the validity bit (an "and" over an axis of extent one) is set and the
  not-a-number branch is never taken; and the gather's own clamp of a start index already in range is the identity.
  The two clipped neighbours, position − 1 and position + 1, are then the natural predecessor and successor
  whenever the reference keeps them (first position positive, last position + 1 below 1024), and where it does not it
  puts zero, as the specification does. The three differences are joined along the channel axis in spans of 256, and a
  span whose two positions are both zero is zero.
-/
import proofs.«406866_j23502061044278_3_alg».proof.Proof.RefStages
import proofs.«406866_j23502061044278_3_alg».proof.Proof.Spec
import Idealize.ShloMosaic.Lib.ValueIdx
import Idealize.ShloMosaic.Lib.Pipeline.Value
import Idealize.ShloMosaic.Lib.StableHlo.Predicate
import Idealize.ShloMosaic.PureOps.Reduce
import Idealize.ShloMosaic.PureOps.Ideal.Laws

noncomputable section

namespace Cert.Proof.Ref

open Cert.ReferenceIdeal Cert.ReferenceIdeal.ReadP Idealize.ShloMosaic Idealize.ShloMosaic.ValueIdx
open Idealize.ShloMosaic.StableHlo.Predicate

/-! ## A whole-row selection per sequence, read at an entry

The operand is [64, 1024, 256], the start indices [64, 128, 1], the result [64, 128, 256]: sequence axis batched, the
start index names the row, the slice is the whole channel axis. -/

section Rows

/-- The dimension numbers of that selection. -/
abbrev rowDims (wf : GatherDims.WF S64x1024x256 S64x128x1 S64x128x256 [2] [1] [0] [1] [0] 2 ![1, 1, 256]) :
    GatherDims S64x1024x256 S64x128x1 S64x128x256 where
  offsetDims := [2]
  collapsedSliceDims := [1]
  operandBatchingDims := [0]
  startIndicesBatchingDims := [0]
  startIndexMap := [1]
  indexVectorDim := 2
  sliceSizes := ![1, 1, 256]
  wf := wf

variable (wf : GatherDims.WF S64x1024x256 S64x128x1 S64x128x256 [2] [1] [0] [1] [0] 2 ![1, 1, 256])
  (idx : IVec S64x128x1 32) (b : Fin 64) (s : Fin 128) (h : Fin 256)

/-- On the sequence axis the operand index is the result's sequence. -/
theorem row_axis0 : ((rowDims wf).operandIdx (ix3 b s h) idx 0).val = b.val := by
  show (rowDims wf).start (ix3 b s h) idx 0 + (rowDims wf).batchCoord (ix3 b s h) 0 + (rowDims wf).offCoord (ix3 b s h) 0 = _
  have hb : (0 : Fin 3) ∈ (rowDims wf).operandBatchingDims := List.mem_singleton.2 rfl
  rw [GatherDims.start_batching _ _ _ _ hb,
    GatherDims.offCoord_eq_zero _ _ _ (fun hk => ((GatherDims.mem_sKept _ _).mp hk).2 hb), Nat.zero_add, Nat.add_zero]
  rfl

/-- On the position axis it is the start word, read signed and clamped into [0, 1023]. -/
theorem row_axis1 : ((rowDims wf).operandIdx (ix3 b s h) idx 1).val = min (idx (ix3 b s 0)).toInt.toNat 1023 := by
  show (rowDims wf).start (ix3 b s h) idx 1 + (rowDims wf).batchCoord (ix3 b s h) 1 + (rowDims wf).offCoord (ix3 b s h) 1 = _
  have hc : (1 : Fin 3) ∈ (rowDims wf).collapsedSliceDims := List.mem_singleton.2 rfl
  have hnb : (1 : Fin 3) ∉ (rowDims wf).operandBatchingDims := by
    show (1 : Fin 3) ∉ [(0 : Fin 3)]; decide
  rw [GatherDims.batchCoord_eq_zero _ _ _ hnb,
    GatherDims.offCoord_eq_zero _ _ _ (fun hk => ((GatherDims.mem_sKept _ _).mp hk).1 hc)]
  simp only [Nat.add_zero]
  unfold GatherDims.start
  have hm : (1 : Fin 3) ∈ (rowDims wf).startIndexMap := List.mem_singleton.2 rfl
  rw [dif_pos hm]
  have hsi : (rowDims wf).siIdx (ix3 b s h) ⟨List.idxOf (1 : Fin 3) (rowDims wf).startIndexMap,
      List.idxOf_lt_length_iff.2 hm⟩ = ix3 b s 0 := by
    funext c; refine Fin.ext ?_
    match c with
    | ⟨0, _⟩ => rfl
    | ⟨1, _⟩ => rfl
    | ⟨2, _⟩ => rfl
  rw [hsi]
  rfl

/-- On the channel axis it is the result's channel. -/
theorem row_axis2 : ((rowDims wf).operandIdx (ix3 b s h) idx 2).val = h.val := by
  show (rowDims wf).start (ix3 b s h) idx 2 + (rowDims wf).batchCoord (ix3 b s h) 2 + (rowDims wf).offCoord (ix3 b s h) 2 = _
  have hnb : (2 : Fin 3) ∉ (rowDims wf).operandBatchingDims := by
    show (2 : Fin 3) ∉ [(0 : Fin 3)]; decide
  have hnm : (2 : Fin 3) ∉ (rowDims wf).startIndexMap := by
    show (2 : Fin 3) ∉ [(1 : Fin 3)]; decide
  rw [GatherDims.batchCoord_eq_zero _ _ _ hnb, Nat.add_zero]
  unfold GatherDims.start
  rw [dif_neg hnm, Nat.zero_add]
  rfl

/-- The selection at (b, s, h) is the operand at (b, n, h) when the start word at (b, s) is the natural n < 1024. -/
theorem gather_row_apply {α : Type} (x : S64x1024x256.Idx → α) (n : Fin 1024) (hn : (idx (ix3 b s 0)).toNat = n.val) :
    Host.gather (rowDims wf) x idx (ix3 b s h) = x (ix3 b n h) := by
  unfold Host.gather
  congr 1
  funext a
  refine Fin.ext ?_
  match a with
  | ⟨0, _⟩ => exact row_axis0 wf idx b s h
  | ⟨1, _⟩ =>
    refine (row_axis1 wf idx b s h).trans ?_
    have hlt : (idx (ix3 b s 0)).toNat < 2 ^ 31 := by rw [hn]; have := n.isLt; omega
    rw [toInt_eq_toNat_of_lt hlt, Int.toNat_natCast, hn]
    show min n.val 1023 = n.val
    have := n.isLt; omega
  | ⟨2, _⟩ => exact row_axis2 wf idx b s h

end Rows

/-! ## An "and" over an axis of extent one, and three pieces joined along the channel axis -/

/-- Reducing by "and" over the last axis, of extent one, of a [64, 128, 1] array: the one element and the initial value. -/
theorem reduce_and_unit (x : IVec S64x128x1 1) (init : IVec S_ 1) (h' : S64x128x1.ReducesTo [2] S64x128) (hu : 0 < S_.numel)
    (b : Fin 64) (s : Fin 128) :
    Host.reduce IntOp.andi x init h' hu (ix2 b s) = IntOp.andi (x (ix3 b s 0)) (init ix0) := by
  have h : S64x128x1.Reduces [2] S64x128 := by decide
  rw [Host.reduce_eq_fold_single IntOp.andi x init h' h hu (ix2 b s)]
  have key : ∀ (f : Fin 1 → BitVec 1) (i0 : BitVec 1),
      (Finset.univ : Finset (Fin 1)).fold IntOp.andi i0 f = IntOp.andi (f 0) i0 := by
    intro f i0; rw [Finset.univ_unique, Finset.fold_singleton]; rfl
  refine (key (fun k => x (h.lift (ix2 b s) k)) (init (Shape.Idx.first hu))).trans ?_
  show IntOp.andi (x (h.lift (ix2 b s) (0 : Fin 1))) (init (Shape.Idx.first hu)) = _
  rw [eq_ix0 (Shape.Idx.first hu)]
  congr 2
  funext c
  refine Fin.ext ?_
  match c with
  | ⟨0, _⟩ => rfl
  | ⟨1, _⟩ => rfl
  | ⟨2, _⟩ => rfl

section Join
variable {α : Type} (p0 p1 p2 : S64x128x256.Idx → α)
  (hc : Shape.Concatenates [S64x128x256, S64x128x256, S64x128x256] S64x128x768 2) (b : Fin 64) (s : Fin 128)

/-- Channels 0 … 255 of the join are the first piece. -/
theorem join_piece0 (c : Fin 768) (h0 : c.val < 256) :
    concatenate S64x128x768 2 [⟨S64x128x256, p0⟩, ⟨S64x128x256, p1⟩, ⟨S64x128x256, p2⟩] hc (ix3 b s c)
      = p0 (ix3 b s ⟨c.val, h0⟩) :=
  concatenate_apply_piece (t := S64x128x768) (2 : Fin 3) [⟨S64x128x256, p0⟩, ⟨S64x128x256, p1⟩, ⟨S64x128x256, p2⟩] hc
    (ix3 b s c) 0 (by show (0 : ℕ) < 3; omega) S64x128x256 p0 rfl rfl 0 rfl (ix3 b s ⟨c.val, h0⟩)
    (fun a ha => by
      match a with
      | ⟨0, _⟩ => rfl
      | ⟨1, _⟩ => rfl
      | ⟨2, _⟩ => exact absurd rfl ha)
    (by show 0 + c.val = c.val; omega)

/-- Channels 256 … 511 are the second piece, read 256 lower. -/
theorem join_piece1 (c : Fin 768) (h0 : 256 ≤ c.val) (h1 : c.val < 512) :
    concatenate S64x128x768 2 [⟨S64x128x256, p0⟩, ⟨S64x128x256, p1⟩, ⟨S64x128x256, p2⟩] hc (ix3 b s c)
      = p1 (ix3 b s ⟨c.val - 256, by omega⟩) :=
  concatenate_apply_piece (t := S64x128x768) (2 : Fin 3) [⟨S64x128x256, p0⟩, ⟨S64x128x256, p1⟩, ⟨S64x128x256, p2⟩] hc
    (ix3 b s c) 1 (by show (1 : ℕ) < 3; omega) S64x128x256 p1 rfl rfl 256 rfl (ix3 b s ⟨c.val - 256, by omega⟩)
    (fun a ha => by
      match a with
      | ⟨0, _⟩ => rfl
      | ⟨1, _⟩ => rfl
      | ⟨2, _⟩ => exact absurd rfl ha)
    (by show 256 + (c.val - 256) = c.val; omega)

/-- Channels 512 … 767 are the third piece, read 512 lower. -/
theorem join_piece2 (c : Fin 768) (h1 : 512 ≤ c.val) :
    concatenate S64x128x768 2 [⟨S64x128x256, p0⟩, ⟨S64x128x256, p1⟩, ⟨S64x128x256, p2⟩] hc (ix3 b s c)
      = p2 (ix3 b s ⟨c.val - 512, by have := c.isLt; omega⟩) :=
  concatenate_apply_piece (t := S64x128x768) (2 : Fin 3) [⟨S64x128x256, p0⟩, ⟨S64x128x256, p1⟩, ⟨S64x128x256, p2⟩] hc
    (ix3 b s c) 2 (by show (2 : ℕ) < 3; omega) S64x128x256 p2 rfl rfl 512 rfl
    (ix3 b s ⟨c.val - 512, by have := c.isLt; omega⟩)
    (fun a ha => by
      match a with
      | ⟨0, _⟩ => rfl
      | ⟨1, _⟩ => rfl
      | ⟨2, _⟩ => exact absurd rfl ha)
    (by show 512 + (c.val - 512) = c.val; omega)

end Join

/-! ## Words below 1024 -/

section Words
variable (w : BitVec 32)

/-- A word that is a natural below 1024 is not negative: the wrap-around of a negative index leaves it alone. -/
theorem wrap_eq (hw : w.toNat < 1024) : Scalar.select (IntOp.cmpi .slt w 0#32) (IntOp.addi w 1024#32) w = w := by
  have hne : ¬ IntOp.cmpi .slt w 0#32 = 1#1 := by
    intro hc
    have := (slt_iff_toNat (a := w) (b := 0#32) (by omega) (by decide)).1 hc
    simp at this
  exact if_neg hne

/-- Such a word passes the range test 0 ≤ w ≤ 1023. -/
theorem inb_eq (hw : w.toNat < 1024) :
    IntOp.andi (IntOp.cmpi .sge w 0#32) (IntOp.cmpi .sle w 1023#32) = 1#1 := by
  have h1 : IntOp.cmpi .sge w 0#32 = 1#1 := (sge_iff_toNat (a := w) (b := 0#32) (by omega) (by decide)).2 (by simp)
  have h2 : IntOp.cmpi .sle w 1023#32 = 1#1 :=
    (sle_iff_toNat (a := w) (b := 1023#32) (by omega) (by decide)).2 (by show w.toNat ≤ 1023; omega)
  rw [h1, h2]; rfl

/-- Clipping into [0, 1023] leaves a word already there alone. -/
theorem clip_eq (v : BitVec 32) (hv : v.toNat ≤ 1023) : IntOp.minsi 1023#32 (IntOp.maxsi 0#32 v) = v := by
  have hti : v.toInt = v.toNat := toInt_eq_toNat_of_lt (by omega)
  have h0 : (0#32 : BitVec 32).toInt = 0 := by decide
  have h1 : (1023#32 : BitVec 32).toInt = 1023 := by decide
  have hmax : IntOp.maxsi 0#32 v = v := by
    unfold IntOp.maxsi
    rw [if_neg]
    simp only [BitVec.slt, hti, h0, decide_eq_true_eq]; omega
  rw [hmax]
  unfold IntOp.minsi
  rw [if_neg]
  simp only [BitVec.slt, hti, h1, decide_eq_true_eq]; omega

/-- The predecessor of a positive word below 1024. -/
theorem sub_one_toNat (hw : w.toNat < 1024) (hpos : 0 < w.toNat) : (IntOp.subi w 1#32).toNat = w.toNat - 1 := by
  unfold IntOp.subi; rw [BitVec.toNat_sub]; simp; omega

/-- The successor of a word below 1024. -/
theorem add_one_toNat (hw : w.toNat < 1024) : (IntOp.addi w 1#32).toNat = w.toNat + 1 := by
  unfold IntOp.addi; rw [BitVec.toNat_add]; simp; omega

/-- "Greater than zero" on such a word is the naturals'. -/
theorem gt_zero_iff (hw : w.toNat < 1024) : IntOp.cmpi .sgt w 0#32 = 1#1 ↔ 0 < w.toNat := by
  have := sgt_iff_toNat (a := w) (b := 0#32) (by omega) (by decide)
  simpa using this

/-- "Successor below 1024" on such a word is the naturals'. -/
theorem succ_lt_iff (hw : w.toNat < 1024) :
    IntOp.cmpi .slt (IntOp.addi w 1#32) 1024#32 = 1#1 ↔ w.toNat + 1 < 1024 := by
  have := slt_iff_toNat (a := IntOp.addi w 1#32) (b := 1024#32) (by rw [add_one_toNat w hw]; omega) (by decide)
  rw [add_one_toNat w hw] at this
  simpa using this

/-- "Equal to zero" on a word is "its natural is zero". -/
theorem eq_zero_iff : IntOp.cmpi .eq w 0#32 = 1#1 ↔ w.toNat = 0 := by
  rw [cmpi_eq_iff]
  constructor
  · intro h; rw [h]; rfl
  · intro h; exact BitVec.eq_of_toNat_eq (by rw [h]; rfl)

/-- The "and" of two bits is set exactly when both are. -/
theorem and_bits_iff (p q : BitVec 1) : IntOp.andi p q = 1#1 ↔ p = 1#1 ∧ q = 1#1 := by
  rcases BitVec.eq_zero_or_eq_one p with rfl | rfl <;> rcases BitVec.eq_zero_or_eq_one q with rfl | rfl <;> decide

end Words

/-! ## The reference's index words at a span -/

section Stages
variable (x : FVec Ideal Spec.SX .f32) (sp : IVec Spec.SP 32) (b : Fin 64) (s : Fin 128)

/-- A [64, 128, 1] index over span (b, s) drops to the [64, 128] index (b, s). -/
theorem unit_bs (u : Fin 1) : idx_main_v8 (ix3 b s u) = ix2 b s := by
  funext a; refine Fin.ext ?_
  match a with
  | ⟨0, _⟩ => rfl
  | ⟨1, _⟩ => rfl

/-- A [64, 128, 256] index over span (b, s) drops to the [64, 128] index (b, s) … -/
theorem chan_bs (h : Fin 256) : idx_main_call1_v13 (ix3 b s h) = ix2 b s := by
  funext a; refine Fin.ext ?_
  match a with
  | ⟨0, _⟩ => rfl
  | ⟨1, _⟩ => rfl

/-- … and to the [64, 128, 1] index (b, s, 0). -/
theorem chan_unit (h : Fin 256) : idx_main_call2_v1 (ix3 b s h) = ix3 b s 0 := by
  funext a; refine Fin.ext ?_
  match a with
  | ⟨0, _⟩ => rfl
  | ⟨1, _⟩ => rfl
  | ⟨2, _⟩ => rfl

/-- A [64, 128, 768] index over span (b, s) drops to the [64, 128, 1] index (b, s, 0). -/
theorem out_unit (c : Fin 768) : idx_main_call8_v1 (ix3 b s c) = ix3 b s 0 := by
  funext a; refine Fin.ext ?_
  match a with
  | ⟨0, _⟩ => rfl
  | ⟨1, _⟩ => rfl
  | ⟨2, _⟩ => rfl

/-- The span's first word, as the reference slices and reshapes it. -/
theorem first_at : val_main_v3 (F := Ideal) sp (ix2 b s) = sp (ix3 b s 0) := by
  rw [val_main_v3_apply, val_main_v2_apply]
  congr 1
  funext a; refine Fin.ext ?_
  match a with
  | ⟨0, _⟩ => show (b.val * 128 + s.val) / 128 = b.val; have := s.isLt; omega
  | ⟨1, _⟩ => show (b.val * 128 + s.val) / 1 % 128 = s.val; have := s.isLt; omega
  | ⟨2, _⟩ => rfl

/-- The span's last word. -/
theorem last_at : val_main_v5 (F := Ideal) sp (ix2 b s) = sp (ix3 b s 1) := by
  rw [val_main_v5_apply, val_main_v4_apply]
  congr 1
  funext a; refine Fin.ext ?_
  match a with
  | ⟨0, _⟩ => show (b.val * 128 + s.val) / 128 = b.val; have := s.isLt; omega
  | ⟨1, _⟩ => show (b.val * 128 + s.val) / 1 % 128 = s.val; have := s.isLt; omega
  | ⟨2, _⟩ => rfl

/-- "The state before the span exists": the first word is positive. -/
theorem preValid_at : val_main_v7 (F := Ideal) sp (ix2 b s) = IntOp.cmpi .sgt (sp (ix3 b s 0)) 0#32 := by
  rw [val_main_v7_apply, first_at, val_main_v6_apply, val_main_c_apply]

/-- "The state after the span exists": the last word's successor is below 1024. -/
theorem postValid_at :
    val_main_v12 (F := Ideal) sp (ix2 b s) = IntOp.cmpi .slt (IntOp.addi (sp (ix3 b s 1)) 1#32) 1024#32 := by
  rw [val_main_v12_apply, val_main_v10_apply, last_at, val_main_v9_apply, val_main_c_0_apply, val_main_v11_apply,
    val_main_c_1_apply]

/-- The clipped predecessor of the first word. -/
theorem preIdx_at : val_main_v16 (F := Ideal) sp (ix2 b s)
    = IntOp.minsi 1023#32 (IntOp.maxsi 0#32 (IntOp.subi (sp (ix3 b s 0)) 1#32)) := by
  rw [val_main_v16_apply, val_main_call0_v4_apply, val_main_call0_v3_apply, val_main_c_4_apply, val_main_call0_v2_apply,
    val_main_call0_v1_apply, val_main_call0_v0_apply, val_main_c_3_apply, val_main_v15_apply, first_at, val_main_v14_apply,
    val_main_c_2_apply]

/-- The clipped successor of the last word. -/
theorem postIdx_at : val_main_v22 (F := Ideal) sp (ix2 b s)
    = IntOp.minsi 1023#32 (IntOp.maxsi 0#32 (IntOp.addi (sp (ix3 b s 1)) 1#32)) := by
  rw [val_main_v22_apply, val_main_call3_v4_apply, val_main_call3_v3_apply, val_main_c_7_apply, val_main_call3_v2_apply,
    val_main_call3_v1_apply, val_main_call3_v0_apply, val_main_c_6_apply, val_main_v21_apply, last_at, val_main_v20_apply,
    val_main_c_5_apply]

/-- "The span is padding": both words are zero. -/
theorem pad_at : val_main_v38 (F := Ideal) sp (ix2 b s)
    = IntOp.andi (IntOp.cmpi .eq (sp (ix3 b s 0)) 0#32) (IntOp.cmpi .eq (sp (ix3 b s 1)) 0#32) := by
  rw [val_main_v38_apply, val_main_v35_apply, val_main_v37_apply, first_at, last_at, val_main_v34_apply, val_main_c_9_apply,
    val_main_v36_apply, val_main_c_10_apply]

/-- The four index arrays of the row selections, at (b, s, 0). -/
theorem preIdx3_at : val_main_v17 (F := Ideal) sp (ix3 b s 0) = val_main_v16 (F := Ideal) sp (ix2 b s) :=
  (val_main_v17_apply sp _).trans (congrArg _ (unit_bs b s 0))
theorem postIdx3_at : val_main_v23 (F := Ideal) sp (ix3 b s 0) = val_main_v22 (F := Ideal) sp (ix2 b s) :=
  (val_main_v23_apply sp _).trans (congrArg _ (unit_bs b s 0))
theorem last3_at : val_main_v26 (F := Ideal) sp (ix3 b s 0) = val_main_v5 (F := Ideal) sp (ix2 b s) :=
  (val_main_v26_apply sp _).trans (congrArg _ (unit_bs b s 0))
theorem first3_at : val_main_v28 (F := Ideal) sp (ix3 b s 0) = val_main_v3 (F := Ideal) sp (ix2 b s) :=
  (val_main_v28_apply sp _).trans (congrArg _ (unit_bs b s 0))

/-! ## The four row selections -/

/-- The forward half at the clipped predecessor of the first position. -/
theorem take_pre (n : Fin 1024) (hn : (val_main_v17 (F := Ideal) sp (ix3 b s 0)).toNat = n.val) (h : Fin 256) :
    val_main_v18 (F := Ideal) x sp (ix3 b s h) = val_main_v0 (F := Ideal) x (ix3 b n h) := by
  have hlt : (val_main_v17 (F := Ideal) sp (ix3 b s 0)).toNat < 1024 := by rw [hn]; exact n.isLt
  have hw : val_main_call1_v4 (F := Ideal) sp (ix3 b s 0) = val_main_v17 (F := Ideal) sp (ix3 b s 0) := by
    rw [val_main_call1_v4_apply, val_main_call1_v1_apply, val_main_call1_v3_apply, val_main_call1_v0_apply,
      val_main_call1_c_apply, val_main_call1_v2_apply, val_main_call1_c_0_apply]
    exact wrap_eq _ hlt
  have hbit : val_main_call1_v11 (F := Ideal) sp (ix2 b s) = 1#1 := by
    unfold val_main_call1_v11
    rw [reduce_and_unit, val_main_call1_v10_apply, val_main_call1_v6_apply, val_main_call1_v9_apply, hw,
      val_main_call1_v5_apply, val_main_call1_c_2_apply, val_main_call1_v8_apply, val_main_call1_v7_apply,
      val_main_call1_c_1_apply, val_main_call1_c_3_apply, inb_eq _ hlt]
    rfl
  rw [val_main_v18_apply, val_main_call1_v13_apply, chan_bs, hbit, select_one]
  unfold val_main_call1_v12
  exact gather_row_apply _ _ b s h _ n (hw ▸ hn)

/-- The backward half at the clipped successor of the last position. -/
theorem take_post (n : Fin 1024) (hn : (val_main_v23 (F := Ideal) sp (ix3 b s 0)).toNat = n.val) (h : Fin 256) :
    val_main_v24 (F := Ideal) x sp (ix3 b s h) = val_main_v1 (F := Ideal) x (ix3 b n h) := by
  have hlt : (val_main_v23 (F := Ideal) sp (ix3 b s 0)).toNat < 1024 := by rw [hn]; exact n.isLt
  have hw : val_main_call4_v4 (F := Ideal) sp (ix3 b s 0) = val_main_v23 (F := Ideal) sp (ix3 b s 0) := by
    rw [val_main_call4_v4_apply, val_main_call4_v1_apply, val_main_call4_v3_apply, val_main_call4_v0_apply,
      val_main_call4_c_apply, val_main_call4_v2_apply, val_main_call4_c_0_apply]
    exact wrap_eq _ hlt
  have hbit : val_main_call4_v11 (F := Ideal) sp (ix2 b s) = 1#1 := by
    unfold val_main_call4_v11
    rw [reduce_and_unit, val_main_call4_v10_apply, val_main_call4_v6_apply, val_main_call4_v9_apply, hw,
      val_main_call4_v5_apply, val_main_call4_c_2_apply, val_main_call4_v8_apply, val_main_call4_v7_apply,
      val_main_call4_c_1_apply, val_main_call4_c_3_apply, inb_eq _ hlt]
    rfl
  rw [val_main_v24_apply, val_main_call4_v13_apply, show idx_main_call4_v13 (ix3 b s h) = ix2 b s from chan_bs b s h, hbit,
    select_one]
  unfold val_main_call4_v12
  exact gather_row_apply _ _ b s h _ n (hw ▸ hn)

/-- The forward half at the last position. -/
theorem take_end (n : Fin 1024) (hn : (val_main_v26 (F := Ideal) sp (ix3 b s 0)).toNat = n.val) (h : Fin 256) :
    val_main_v27 (F := Ideal) x sp (ix3 b s h) = val_main_v0 (F := Ideal) x (ix3 b n h) := by
  have hlt : (val_main_v26 (F := Ideal) sp (ix3 b s 0)).toNat < 1024 := by rw [hn]; exact n.isLt
  have hw : val_main_call6_v4 (F := Ideal) sp (ix3 b s 0) = val_main_v26 (F := Ideal) sp (ix3 b s 0) := by
    rw [val_main_call6_v4_apply, val_main_call6_v1_apply, val_main_call6_v3_apply, val_main_call6_v0_apply,
      val_main_call6_c_apply, val_main_call6_v2_apply, val_main_call6_c_0_apply]
    exact wrap_eq _ hlt
  have hbit : val_main_call6_v11 (F := Ideal) sp (ix2 b s) = 1#1 := by
    unfold val_main_call6_v11
    rw [reduce_and_unit, val_main_call6_v10_apply, val_main_call6_v6_apply, val_main_call6_v9_apply, hw,
      val_main_call6_v5_apply, val_main_call6_c_2_apply, val_main_call6_v8_apply, val_main_call6_v7_apply,
      val_main_call6_c_1_apply, val_main_call6_c_3_apply, inb_eq _ hlt]
    rfl
  rw [val_main_v27_apply, val_main_call6_v13_apply, show idx_main_call6_v13 (ix3 b s h) = ix2 b s from chan_bs b s h, hbit,
    select_one]
  unfold val_main_call6_v12
  exact gather_row_apply _ _ b s h _ n (hw ▸ hn)

/-- The backward half at the first position. -/
theorem take_start (n : Fin 1024) (hn : (val_main_v28 (F := Ideal) sp (ix3 b s 0)).toNat = n.val) (h : Fin 256) :
    val_main_v29 (F := Ideal) x sp (ix3 b s h) = val_main_v1 (F := Ideal) x (ix3 b n h) := by
  have hlt : (val_main_v28 (F := Ideal) sp (ix3 b s 0)).toNat < 1024 := by rw [hn]; exact n.isLt
  have hw : val_main_call7_v4 (F := Ideal) sp (ix3 b s 0) = val_main_v28 (F := Ideal) sp (ix3 b s 0) := by
    rw [val_main_call7_v4_apply, val_main_call7_v1_apply, val_main_call7_v3_apply, val_main_call7_v0_apply,
      val_main_call7_c_apply, val_main_call7_v2_apply, val_main_call7_c_0_apply]
    exact wrap_eq _ hlt
  have hbit : val_main_call7_v11 (F := Ideal) sp (ix2 b s) = 1#1 := by
    unfold val_main_call7_v11
    rw [reduce_and_unit, val_main_call7_v10_apply, val_main_call7_v6_apply, val_main_call7_v9_apply, hw,
      val_main_call7_v5_apply, val_main_call7_c_2_apply, val_main_call7_v8_apply, val_main_call7_v7_apply,
      val_main_call7_c_1_apply, val_main_call7_c_3_apply, inb_eq _ hlt]
    rfl
  rw [val_main_v29_apply, val_main_call7_v13_apply, show idx_main_call7_v13 (ix3 b s h) = ix2 b s from chan_bs b s h, hbit,
    select_one]
  unfold val_main_call7_v12
  exact gather_row_apply _ _ b s h _ n (hw ▸ hn)

/-! ## The halves of the hidden states, and the four selected rows as entries -/

/-- The forward half is channels 0 … 255. -/
theorem fwd_at (t : Fin 1024) (h : Fin 256) : val_main_v0 (F := Ideal) x (ix3 b t h) = Spec.ent x b t.val h.val := by
  rw [val_main_v0_apply]
  unfold Spec.ent
  congr 1
  funext a; refine Fin.ext ?_
  match a with
  | ⟨0, _⟩ => rfl
  | ⟨1, _⟩ => exact (Nat.mod_eq_of_lt t.isLt).symm
  | ⟨2, _⟩ =>
    show h.val = h.val % 512
    exact (Nat.mod_eq_of_lt (by have := h.isLt; omega)).symm

/-- The backward half is channels 256 … 511. -/
theorem bwd_at (t : Fin 1024) (h : Fin 256) :
    val_main_v1 (F := Ideal) x (ix3 b t h) = Spec.ent x b t.val (256 + h.val) := by
  rw [val_main_v1_apply]
  unfold Spec.ent
  congr 1
  funext a; refine Fin.ext ?_
  match a with
  | ⟨0, _⟩ => rfl
  | ⟨1, _⟩ => exact (Nat.mod_eq_of_lt t.isLt).symm
  | ⟨2, _⟩ =>
    show 256 + h.val = (256 + h.val) % 512
    exact (Nat.mod_eq_of_lt (by have := h.isLt; omega)).symm

variable (hr : Spec.InRange sp)
include hr

/-- The forward state at the span's last position. -/
theorem fEnd_at (h : Fin 256) :
    val_main_v27 (F := Ideal) x sp (ix3 b s h) = Spec.ent x b (Spec.hi sp b s) h.val := by
  have hn : (val_main_v26 (F := Ideal) sp (ix3 b s 0)).toNat = (⟨Spec.hi sp b s, hr _⟩ : Fin 1024).val := by
    rw [last3_at, last_at]; rfl
  rw [take_end x sp b s _ hn h, fwd_at]

/-- The backward state at the span's first position. -/
theorem bStart_at (h : Fin 256) :
    val_main_v29 (F := Ideal) x sp (ix3 b s h) = Spec.ent x b (Spec.lo sp b s) (256 + h.val) := by
  have hn : (val_main_v28 (F := Ideal) sp (ix3 b s 0)).toNat = (⟨Spec.lo sp b s, hr _⟩ : Fin 1024).val := by
    rw [first3_at, first_at]; rfl
  rw [take_start x sp b s _ hn h, bwd_at]

/-- The forward state just before the span, zero at the sequence's start. -/
theorem fPre_at (h : Fin 256) : val_main_v19 (F := Ideal) x sp (ix3 b s h) = Spec.fPre x sp b s h.val := by
  have hlo : (sp (ix3 b s 0)).toNat < 1024 := hr _
  have e : val_main_call2_v1 (F := Ideal) sp (ix3 b s h) = IntOp.cmpi .sgt (sp (ix3 b s 0)) 0#32 := by
    rw [val_main_call2_v1_apply, chan_unit, val_main_v8_apply, unit_bs, preValid_at]
  rw [val_main_v19_apply, e]
  unfold Spec.fPre
  by_cases hpos : 0 < Spec.lo sp b s
  · rw [if_pos hpos, (gt_zero_iff _ hlo).2 hpos, select_one]
    have hsub : (IntOp.subi (sp (ix3 b s 0)) 1#32).toNat = Spec.lo sp b s - 1 := sub_one_toNat _ hlo hpos
    have hn : (val_main_v17 (F := Ideal) sp (ix3 b s 0)).toNat
        = (⟨Spec.lo sp b s - 1, by have : Spec.lo sp b s < 1024 := hlo; omega⟩ : Fin 1024).val := by
      rw [preIdx3_at, preIdx_at, clip_eq _ (by rw [hsub]; have : Spec.lo sp b s < 1024 := hlo; omega), hsub]
    rw [take_pre x sp b s _ hn h, fwd_at]
  · rw [if_neg hpos]
    have hne : ¬ IntOp.cmpi .sgt (sp (ix3 b s 0)) 0#32 = 1#1 := fun hc => hpos ((gt_zero_iff _ hlo).1 hc)
    rw [eq_zero_of_ne_one hne, select_zero, val_main_call2_v2_apply, val_main_call2_v0_apply, val_main_cst_apply]
    exact Ideal.ofBits_zero_f32

/-- The backward state just after the span, zero at the sequence's end. -/
theorem bPost_at (h : Fin 256) : val_main_v25 (F := Ideal) x sp (ix3 b s h) = Spec.bPost x sp b s h.val := by
  have hhi : (sp (ix3 b s 1)).toNat < 1024 := hr _
  have e : val_main_call5_v1 (F := Ideal) sp (ix3 b s h)
      = IntOp.cmpi .slt (IntOp.addi (sp (ix3 b s 1)) 1#32) 1024#32 := by
    rw [val_main_call5_v1_apply, show idx_main_call5_v1 (ix3 b s h) = ix3 b s 0 from chan_unit b s h, val_main_v13_apply,
      show idx_main_v13 (ix3 b s 0) = ix2 b s from unit_bs b s 0, postValid_at]
  rw [val_main_v25_apply, e]
  unfold Spec.bPost
  by_cases hnext : Spec.hi sp b s + 1 < 1024
  · rw [if_pos hnext, (succ_lt_iff _ hhi).2 hnext, select_one]
    have hadd : (IntOp.addi (sp (ix3 b s 1)) 1#32).toNat = Spec.hi sp b s + 1 := add_one_toNat _ hhi
    have hn : (val_main_v23 (F := Ideal) sp (ix3 b s 0)).toNat = (⟨Spec.hi sp b s + 1, hnext⟩ : Fin 1024).val := by
      rw [postIdx3_at, postIdx_at, clip_eq _ (by rw [hadd]; omega), hadd]
    rw [take_post x sp b s _ hn h, bwd_at]
  · rw [if_neg hnext]
    have hne : ¬ IntOp.cmpi .slt (IntOp.addi (sp (ix3 b s 1)) 1#32) 1024#32 = 1#1 :=
      fun hc => hnext ((succ_lt_iff _ hhi).1 hc)
    rw [eq_zero_of_ne_one hne, select_zero, val_main_call5_v2_apply, val_main_call5_v0_apply, val_main_cst_8_apply]
    exact Ideal.ofBits_zero_f32

/-! ## The three differences joined, and the padding spans -/

/-- The joined differences at an output channel: by its span of 256, one of the three differences. -/
theorem joined_at (c : Fin 768) : val_main_v33 (F := Ideal) x sp (ix3 b s c)
    = if c.val < 256 then Spec.ent x b (Spec.hi sp b s) c.val - Spec.fPre x sp b s c.val
      else if c.val < 512 then Spec.ent x b (Spec.lo sp b s) c.val - Spec.bPost x sp b s (c.val - 256)
      else Spec.fPre x sp b s (c.val - 512) - Spec.bPost x sp b s (c.val - 512) := by
  unfold val_main_v33
  by_cases h0 : c.val < 256
  · rw [if_pos h0, join_piece0 _ _ _ _ b s c h0, val_main_v30_apply, Ideal.subf_def, fEnd_at x sp b s hr,
      fPre_at x sp b s hr]
  · rw [if_neg h0]
    by_cases h1 : c.val < 512
    · rw [if_pos h1, join_piece1 _ _ _ _ b s c (by omega) h1, val_main_v31_apply, Ideal.subf_def, bStart_at x sp b s hr,
        bPost_at x sp b s hr]
      dsimp only
      rw [show 256 + (c.val - 256) = c.val by omega]
    · rw [if_neg h1, join_piece2 _ _ _ _ b s c (by omega), val_main_v32_apply, Ideal.subf_def, fPre_at x sp b s hr,
        bPost_at x sp b s hr]

end Stages

/-- The reference program's result is the specification's span representation. -/
theorem ref_eq_spec (x : Idealize.ShloMosaic.FVec Idealize.ShloMosaic.Ideal Cert.Proof.Spec.SX .f32)
    (sp : Idealize.ShloMosaic.IVec Cert.Proof.Spec.SP 32) (hr : Cert.Proof.Spec.InRange sp) :
    Cert.ReferenceIdeal.ReadP.val_main_v40 (F := Idealize.ShloMosaic.Ideal) x sp = Cert.Proof.Spec.out x sp := by
  funext o
  obtain ⟨b, s, c, rfl⟩ : ∃ (b : Fin 64) (s : Fin 128) (c : Fin 768), o = ix3 b s c := ⟨o 0, o 1, o 2, eq_ix3 o⟩
  have e : val_main_call8_v1 (F := Ideal) sp (ix3 b s c)
      = IntOp.andi (IntOp.cmpi .eq (sp (ix3 b s 0)) 0#32) (IntOp.cmpi .eq (sp (ix3 b s 1)) 0#32) := by
    rw [val_main_call8_v1_apply, out_unit, val_main_v39_apply, show idx_main_v39 (ix3 b s 0) = ix2 b s from unit_bs b s 0,
      pad_at]
  rw [Spec.out_apply, val_main_v40_apply, e]
  unfold Spec.rep
  by_cases hp : Spec.lo sp b s = 0 ∧ Spec.hi sp b s = 0
  · rw [if_pos hp, (and_bits_iff _ _).2 ⟨(eq_zero_iff _).2 hp.1, (eq_zero_iff _).2 hp.2⟩, select_one,
      val_main_call8_v2_apply, val_main_call8_v0_apply, val_main_cst_11_apply]
    exact Ideal.ofBits_zero_f32
  · rw [if_neg hp]
    have hne : ¬ IntOp.andi (IntOp.cmpi .eq (sp (ix3 b s 0)) 0#32) (IntOp.cmpi .eq (sp (ix3 b s 1)) 0#32) = 1#1 :=
      fun hc => hp ⟨(eq_zero_iff _).1 ((and_bits_iff _ _).1 hc).1, (eq_zero_iff _).1 ((and_bits_iff _ _).1 hc).2⟩
    rw [eq_zero_of_ne_one hne, select_zero]
    exact joined_at x sp b s hr c

end Cert.Proof.Ref

end
-- ==== Proof.LibNary3.lean ====
/-
  A host operation over a LITERAL family of three references (a `stablehlo.concatenate` of three operands, printed
  `nary ![a, b, c] …`): its result with each operand's contents at ITS OWN reference, so that the result lemmas of the
  operations that wrote the three operands go on rewriting inside. With the library's general statement the operands
  stand under a binder, `fun k => F ↑(![a, b, c] k)`, where the reference is no literal and no result lemma applies.
  The library states the literal form for four references (`nary4_result`); this is the statement for three, with the
  family of operands given as `fam3` so that its value at each literal index is the operand itself by a rewriting rule,
  and a congruence rule that lets one rewriting pass go inside the three pieces of a concatenation.
-/
import Idealize.ShloMosaic.Lib.StableHlo.Run

noncomputable section

namespace Idealize.ShloMosaic.StableHlo

/-- The dependent family over `Fin 3` with values `a`, `b`, `c`. -/
def fam3 {α : Fin 3 → Type} (a : α 0) (b : α 1) (c : α 2) : (k : Fin 3) → α k :=
  Fin.cons a (Fin.cons b (Fin.cons c (fun i => i.elim0)))

@[simp] theorem fam3_zero {α : Fin 3 → Type} (a : α 0) (b : α 1) (c : α 2) : fam3 a b c 0 = a := rfl
@[simp] theorem fam3_one {α : Fin 3 → Type} (a : α 0) (b : α 1) (c : α 2) : fam3 a b c 1 = b := rfl
@[simp] theorem fam3_two {α : Fin 3 → Type} (a : α 0) (b : α 1) (c : α 2) : fam3 a b c 2 = c := rfl

/-- A concatenation of three literal pieces respects equality of the pieces (stated as a congruence rule: the evidence
    that the pieces' shapes fit speaks of the shapes only, so it serves for both lists). -/
@[congr] theorem concatenate_congr3 {α : Type} (t : Shape) (ax : Fin t.rank) (s0 s1 s2 : Shape)
    {x0 x0' : s0.Idx → α} {x1 x1' : s1.Idx → α} {x2 x2' : s2.Idx → α} (e0 : x0 = x0') (e1 : x1 = x1') (e2 : x2 = x2')
    (h : Shape.Concatenates (([⟨s0, x0⟩, ⟨s1, x1⟩, ⟨s2, x2⟩] : List ((s : Shape) × (s.Idx → α))).map (·.1)) t ax) :
    concatenate t ax [⟨s0, x0⟩, ⟨s1, x1⟩, ⟨s2, x2⟩] h = concatenate t ax [⟨s0, x0'⟩, ⟨s1, x1'⟩, ⟨s2, x2'⟩] h := by
  subst e0 e1 e2; rfl

variable {τ : Topo} {sig : RefSig} {Val : EltTy → Type} {x a b y : Ref sig .tc}

/-- The result of an operation over the three literal references `x`, `a`, `b`, each operand read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (fam3 (α := fun k => ((![x, a, b] : Fin 3 → Ref sig .tc) k).ty.Contents Val)
          (F (Proc.devRef .tc x)) (F (Proc.devRef .tc a)) (F (Proc.devRef .tc b))) := by
  rw [nary_result]; congr 1; funext k; fin_cases k <;> rfl

/-- The same, keyed for one `simp` pass over a long line of operations. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (fam3 (α := fun k => ((![x, a, b] : Fin 3 → Ref sig .tc) k).ty.Contents Val)
          (F (Proc.devRef .tc x)) (F (Proc.devRef .tc a)) (F (Proc.devRef .tc b))) :=
  nary3_result f hxs hy F

end Idealize.ShloMosaic.StableHlo

end
-- ==== Proof.RefRunHand.lean ====
/-
  The reference program's run, read stage by stage.

  The program is a straight line of 158 host operations; after it every buffer holds the fold of the operations'
  results over the launch contents. The result's stage is a selection over a concatenation of three differences,
  each computed by the operations before the concatenation. The line is therefore cut at the concatenation:

  * the 144 operations before it leave each of the five buffers the rest reads — the three differences and the two
    columns of span positions — at its stage as a function of the arguments (`stage_v30` … `stage_v5`);
  * the 14 operations from the concatenation on, run over ANY contents `W` holding those five buffers at these values,
    leave the result at its stage (`tail`);

  and the fold over the whole line is the fold over the second part of the fold over the first (`after_app`).
-/
import proofs.«406866_j23502061044278_3_alg».proof.Proof.RefStages
import proofs.«406866_j23502061044278_3_alg».proof.Proof.LibNary3

noncomputable section

namespace Cert.ReferenceIdeal.RunHand

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- The fold over a line cut in two is the fold over the second part of the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The operations before the concatenation, and those from it on. -/
abbrev opsA : List (HloOp τ sig (Elt F)) := (ops (F := F)).take 144
abbrev opsB : List (HloOp τ sig (Elt F)) := (ops (F := F)).drop 144

theorem ops_split : (ops (F := F)) = opsA ++ opsB := (List.take_append_drop 144 _).symm

/-! ## The five buffers the last part reads, after the first part -/

set_option maxRecDepth 131072 in
set_option maxHeartbeats 40000000 in
theorem stage_v30 (V : Valuation τ sig (Elt F)) :
    after opsA V (Proc.devRef .tc main_v30) = ReadP.val_main_v30 (F := F) (V (Proc.devRef .tc main_arg0)) (V (Proc.devRef .tc main_arg1)) := by
  simp (disch := decide) only [opsA, ops, List.take_succ_cons, List.take_zero, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  (try simp only [TRef.ofBuf, TRef.toBuf, cast_eq])
  rfl

set_option maxRecDepth 131072 in
set_option maxHeartbeats 40000000 in
theorem stage_v31 (V : Valuation τ sig (Elt F)) :
    after opsA V (Proc.devRef .tc main_v31) = ReadP.val_main_v31 (F := F) (V (Proc.devRef .tc main_arg0)) (V (Proc.devRef .tc main_arg1)) := by
  simp (disch := decide) only [opsA, ops, List.take_succ_cons, List.take_zero, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  (try simp only [TRef.ofBuf, TRef.toBuf, cast_eq])
  rfl

set_option maxRecDepth 131072 in
set_option maxHeartbeats 40000000 in
theorem stage_v32 (V : Valuation τ sig (Elt F)) :
    after opsA V (Proc.devRef .tc main_v32) = ReadP.val_main_v32 (F := F) (V (Proc.devRef .tc main_arg0)) (V (Proc.devRef .tc main_arg1)) := by
  simp (disch := decide) only [opsA, ops, List.take_succ_cons, List.take_zero, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  (try simp only [TRef.ofBuf, TRef.toBuf, cast_eq])
  rfl

set_option maxRecDepth 131072 in
set_option maxHeartbeats 40000000 in
theorem stage_v3 (V : Valuation τ sig (Elt F)) :
    after opsA V (Proc.devRef .tc main_v3) = ReadP.val_main_v3 (F := F) (V (Proc.devRef .tc main_arg1)) := by
  simp (disch := decide) only [opsA, ops, List.take_succ_cons, List.take_zero, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  (try simp only [TRef.ofBuf, TRef.toBuf, cast_eq])
  rfl

set_option maxRecDepth 131072 in
set_option maxHeartbeats 40000000 in
theorem stage_v5 (V : Valuation τ sig (Elt F)) :
    after opsA V (Proc.devRef .tc main_v5) = ReadP.val_main_v5 (F := F) (V (Proc.devRef .tc main_arg1)) := by
  simp (disch := decide) only [opsA, ops, List.take_succ_cons, List.take_zero, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  (try simp only [TRef.ofBuf, TRef.toBuf, cast_eq])
  rfl

/-! ## The last part, over any contents holding the five buffers at their stages -/

set_option maxRecDepth 131072 in
set_option maxHeartbeats 40000000 in
theorem tail (W : Valuation τ sig (Elt F)) (x0 : (⟨S64x1024x512, .f32⟩ : BufTy).Contents (Elt F)) (x1 : (⟨S64x128x2, .i32⟩ : BufTy).Contents (Elt F))
    (h30 : W (Proc.devRef .tc main_v30) = ReadP.val_main_v30 (F := F) x0 x1)
    (h31 : W (Proc.devRef .tc main_v31) = ReadP.val_main_v31 (F := F) x0 x1)
    (h32 : W (Proc.devRef .tc main_v32) = ReadP.val_main_v32 (F := F) x0 x1)
    (h3 : W (Proc.devRef .tc main_v3) = ReadP.val_main_v3 (F := F) x1)
    (h5 : W (Proc.devRef .tc main_v5) = ReadP.val_main_v5 (F := F) x1) :
    after opsB W (Proc.devRef .tc main_v40) = ReadP.val_main_v40 (F := F) x0 x1 := by
  simp only [opsB, ops, List.drop_succ_cons, List.drop_zero, after_cons, after_nil]
  repeat (first
    | (rw [binary_result_ne]; rotate_left; decide) | (rw [unary_result_ne]; rotate_left; decide)
    | (rw [nullary_result_ne]; rotate_left; decide) | (rw [ternary_result_ne]; rotate_left; decide)
    | (rw [nary_result_ne]; rotate_left; decide)
    | rw [binary_result] | rw [unary_result] | rw [nullary_result] | rw [ternary_result]
    | rw [fam3_zero] | rw [fam3_one] | rw [fam3_two] | rw [nary3_result])
  (try simp only [TRef.ofBuf, TRef.toBuf, cast_eq])
  rw [h30, h31, h32, h3, h5]
  rfl

/-! ## The whole line -/

/-- After the whole line the result buffer holds its stage as a function of the arguments. -/
theorem after_v40 (V : Valuation τ sig (Elt F)) :
    after (ops (F := F)) V (Proc.devRef .tc main_v40)
      = ReadP.val_main_v40 (F := F) (V (Proc.devRef .tc main_arg0)) (V (Proc.devRef .tc main_arg1)) := by
  rw [ops_split, after_app]
  exact tail (after opsA V) _ _ (stage_v30 V) (stage_v31 V) (stage_v32 V) (stage_v3 V) (stage_v5 V)

set_option maxRecDepth 131072 in
set_option maxHeartbeats 40000000 in
/-- On every device, from any memory with zero counters: every weakly fair execution of the program terminates with
    the result at its stage as a function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
        = ReadP.val_main_v40 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v40).trans (after_v40 (launchContents m c)),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RunHand

end
-- ==== Proof.PreFacts.lean ====
/-
  The printed precondition, read back: when the printed function of the two argument arrays is the constant 1, every
  entry of the float array is a real number and every word of the integer array, read as a natural, is below 1024.
-/
import proofs.«406866_j23502061044278_3_alg».proof.Pre_finite_inputs
import proofs.«406866_j23502061044278_3_alg».proof.Proof.Spec
import Idealize.ShloMosaic.Lib.ReduceAll
import Idealize.ShloMosaic.Lib.StableHlo.Predicate

namespace Cert.Proof.PreFacts

open Idealize.ShloMosaic

/-- The shape of rank 0 has exactly one index. -/
instance : Subsingleton Cert.Pre_finite_inputs.S_.Idx := ⟨fun a b => funext fun d => d.elim0⟩

/-- An extended real whose absolute value max v (-v) lies below +∞ is a real number: the two infinities both
    have absolute value +∞. -/
theorem real_of_abs_lt_top (v : EReal) (h : max v (-v) < ⊤) : ∃ r : ℝ, v = (r : EReal) := by
  induction v using EReal.rec with
  | bot => simp at h
  | coe r => exact ⟨r, rfl⟩
  | top => simp at h

/-- A 32-bit word that is at least 0 and below 1024 in the signed order is below 1024 as a natural: a word with its
    top bit set is negative, and a word without it reads the same signed and unsigned. -/
theorem toNat_lt_of_signed (a : BitVec 32) (h0 : IntOp.cmpi .sge a 0#32 = 1#1) (h1 : IntOp.cmpi .slt a 1024#32 = 1#1) :
    a.toNat < 1024 := by
  simp only [IntOp.cmpi, StableHlo.Predicate.ofBool_eq_one_iff, BitVec.sle, BitVec.slt, decide_eq_true_eq] at h0 h1
  have e0 : (0#32 : BitVec 32).toInt = 0 := by decide
  have e1 : (1024#32 : BitVec 32).toInt = 1024 := by decide
  rw [e0] at h0
  rw [e1] at h1
  rw [BitVec.toInt_eq_toNat_cond] at h0 h1
  have := a.isLt
  split at h0 <;> omega

theorem pre_facts [hP : Cert.Pre_finite_inputs.Facts]
    (x : Idealize.ShloMosaic.FVec Idealize.ShloMosaic.Ideal Cert.Proof.Spec.SX .f32)
    (sp : Idealize.ShloMosaic.IVec Cert.Proof.Spec.SP 32)
    (h : Cert.Pre_finite_inputs.fn (F := Idealize.ShloMosaic.Ideal) x sp = fun _ => 1#1) :
    Cert.Proof.Spec.Finite x ∧ Cert.Proof.Spec.InRange sp := by
  -- the printed function at its one index: the conjunction of the two reductions
  have h0 := congrFun h ValueIdx.ix0
  dsimp only [Cert.Pre_finite_inputs.fn] at h0
  obtain ⟨hx, hs⟩ := IntOp.andi_eq_one.1 h0
  constructor
  · -- every |x p| compares below the pattern of +∞
    intro p
    have e := Host.reduce_andi_all _ _ _ _ ValueIdx.ix0 hx p
    have e' : Ideal.cmp .olt (max (x p) (-(x p))) (Ideal.ofBits .f32 0x7F800000#32) = 1#1 := e
    have ht : Ideal.ofBits .f32 0x7F800000#32 = ⊤ := by simp [Ideal.ofBits, Ideal.ieee]
    rw [ht] at e'
    simp only [Ideal.cmp, StableHlo.Predicate.ofBool_eq_one_iff, decide_eq_true_eq] at e'
    exact real_of_abs_lt_top _ e'
  · -- every word is signed-at-least 0 and signed-below 1024
    intro p
    have e := Host.reduce_andi_all _ _ _ _ ValueIdx.ix0 hs p
    obtain ⟨e0, e1⟩ := IntOp.andi_eq_one.1 e
    exact toNat_lt_of_signed (sp p) e0 e1

end Cert.Proof.PreFacts
-- ==== Proof.lean ====
/-
  The certificate: the kernel that computes span representations of bidirectional LSTM states by one-hot matrix
  products against the reference that gathers the rows.

  For each of 64 sequences and 128 spans (i, j) the result is the concatenation over 256 channels each of
      fwd[j] − fwd[i − 1],   bwd[i] − bwd[j + 1],   fwd[i − 1] − bwd[j + 1],
  with fwd[−1] = 0 and bwd[1024] = 0, and zero for a padding span (i = j = 0). The reference gathers the four rows.
  The kernel selects them by multiplying a one-hot matrix with the states split into three bf16 terms; over the
  extended reals the split is (v, v − v, (v − v) − (v − v)) = (v, 0, 0) for a real v, the product with a one-hot row is
  the selected row, and the masks (i > 0, j + 1 < 1024, not padding) are multiplications by 0 or 1 of real numbers.
  Both programs therefore compute `Spec.out` — under the precondition that every state is finite (used for v − v = 0 and
  0 · v = 0) and every span position lies in [0, 1024) (outside it the reference wraps a negative position around or
  yields not-a-number, while a one-hot row has no match).

  * the three frames: the word-level kernel and the idealized kernel by the loop invariant of their body
    (`Proof/K/`, `Proof/KI/`), the reference by its run, read stage by stage (`Proof/RefRunHand.lean`);
  * `preserves`: the four removed bf16 round trips;
  * `algebraic`: the idealized kernel's result array is `KOUT` of its arguments (`Proof/KI/Final.lean`), which is
    `Spec.out` (`Proof/KI/Bridge.lean`); the reference's result is `Spec.out` (`Proof/RefSpec.lean`); the
    precondition read back gives finiteness and range (`Proof/PreFacts.lean`).
-/
import proofs.«406866_j23502061044278_3_alg».proof.Defs
import proofs.«406866_j23502061044278_3_alg».proof.Proof.Gen.Kernel
import proofs.«406866_j23502061044278_3_alg».proof.Proof.Gen.KernelIdeal
import proofs.«406866_j23502061044278_3_alg».proof.Proof.Gen.ReferenceIdeal
import proofs.«406866_j23502061044278_3_alg».proof.Proof.Gen.Pre_finite_inputs
import proofs.«406866_j23502061044278_3_alg».proof.Proof.K.Body
import proofs.«406866_j23502061044278_3_alg».proof.Proof.KI.Bridge
import proofs.«406866_j23502061044278_3_alg».proof.Proof.RefSpec
import proofs.«406866_j23502061044278_3_alg».proof.Proof.RefRunHand
import proofs.«406866_j23502061044278_3_alg».proof.Proof.PreFacts
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_p : Cert.frame_Kernel (hKernel := Cert.Kernel.Gen.facts) (hPre_finite_inputs := Cert.Pre_finite_inputs.Gen.facts) :=
  fun m ρ _ => Cert.Proof.K.frame (F := Bits) m ρ

/-- So does the idealized kernel. -/
theorem frame_pi : Cert.frame_KernelIdeal (hKernelIdeal := Cert.KernelIdeal.Gen.facts) (hPre_finite_inputs := Cert.Pre_finite_inputs.Gen.facts) :=
  fun m ρ _ => Cert.Proof.KI.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunHand.run (F := Ideal) m ρ)

/-- The four bf16 round trips the idealization removed are the identity over the extended reals. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- Both programs end with the specification of the arguments they agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩) (Cert.Proof.KI.run (F := Ideal) m ρ)
    obtain ⟨hf, hr⟩ := PreFacts.pre_facts _ _ (hpre c)
    exact Cert.Proof.KI.KOUT_eq_spec _ _ hf hr
  · refine (θ_run Cert.ReferenceIdeal.defs _ _).mono (fun r h c => ⟨?_, (h c).2⟩) (Cert.ReferenceIdeal.RunHand.run (F := Ideal) m' ρ')
    obtain ⟨hf, hr⟩ := PreFacts.pre_facts _ _ (hpre c)
    rw [(h c).1, (hagree c).1, (hagree c).2]
    exact Cert.Proof.Ref.ref_eq_spec _ _ hr

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
